-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x1024 .f32 .bf16
  ∧ IdealRules.truncf_extf.Statement Cert.KernelIdeal.S256x256 .f32 .bf16
  ∧ IdealRules.named_const.Statement Cert.KernelIdeal.κ "neg_big" .f32 0xF149F2CA#32 ⊥
  ∧ IdealRules.truncf_extf.Statement Cert.KernelIdeal.S256x512 .f32 .bf16
  ∧ IdealRules.named_const.Statement Cert.KernelIdeal.κ "neg_big" .f32 0xF149F2CA#32 ⊥
  ∧ IdealRules.truncf_extf.Statement Cert.KernelIdeal.S256x768 .f32 .bf16
  ∧ IdealRules.named_const.Statement Cert.KernelIdeal.κ "neg_big" .f32 0xF149F2CA#32 ⊥
  ∧ IdealRules.truncf_extf.Statement Cert.KernelIdeal.S256x1024 .f32 .bf16
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x1024x64 : Shape := ⟨4, ![2, 8, 1024, 64]⟩
abbrev S_ : Shape := ⟨0, ![]⟩

class Facts : Prop where
  bcast_S_S2x8x1024x64 : S_.BroadcastsInDim S2x8x1024x64 (![] : Fin 0 → Fin S2x8x1024x64.rank)
  reducesTo_S2x8x1024x64_S_d0_1_2_3 : S2x8x1024x64.ReducesTo [0, 1, 2, 3] S_
  h_S_ : 0 < S_.numel

variable [Facts]

def fn_part1 {F : FTy → Type} [FloatOps F] (main_arg4 : FVec F S2x8x1024x64 .f32) (main_arg5 : FVec F S2x8x1024x64 .f32) (main_v13 : IVec S_ 1) (main_v16 : IVec S2x8x1024x64 1) : IVec S_ 1 :=
  let main_c_5 : IVec S_ 1 := constantI S_ 1 1#1
  let main_v17 : IVec S_ 1 := (fun x v => Host.reduce IntOp.andi x v reducesTo_S2x8x1024x64_S_d0_1_2_3 h_S_) main_v16 main_c_5
  let main_v18 : IVec S_ 1 := andi main_v13 main_v17
  let main_v19 : FVec F S2x8x1024x64 .f32 := Host.absf main_arg4
  let main_cst_6 : FVec F S_ .f32 := constant S_ .f32 0x7F800000#32
  let main_v20 : FVec F S2x8x1024x64 .f32 := broadcastInDim S2x8x1024x64 ![] bcast_S_S2x8x1024x64 main_cst_6
  let main_v21 : IVec S2x8x1024x64 1 := cmpf .olt main_v19 main_v20
  let main_c_7 : IVec S_ 1 := constantI S_ 1 1#1
  let main_v22 : IVec S_ 1 := (fun x v => Host.reduce IntOp.andi x v reducesTo_S2x8x1024x64_S_d0_1_2_3 h_S_) main_v21 main_c_7
  let main_v23 : IVec S_ 1 := andi main_v18 main_v22
  let main_v24 : FVec F S2x8x1024x64 .f32 := Host.absf main_arg5
  let main_cst_8 : FVec F S_ .f32 := constant S_ .f32 0x7F800000#32
  let main_v25 : FVec F S2x8x1024x64 .f32 := broadcastInDim S2x8x1024x64 ![] bcast_S_S2x8x1024x64 main_cst_8
  let main_v26 : IVec S2x8x1024x64 1 := cmpf .olt main_v24 main_v25
  let main_c_9 : IVec S_ 1 := constantI S_ 1 1#1
  let main_v27 : IVec S_ 1 := (fun x v => Host.reduce IntOp.andi x v reducesTo_S2x8x1024x64_S_d0_1_2_3 h_S_) main_v26 main_c_9
  let main_v28 : IVec S_ 1 := andi main_v23 main_v27
  main_v28

def fn {F : FTy → Type} [FloatOps F] (main_arg0 : FVec F S2x8x1024x64 .f32) (main_arg1 : FVec F S2x8x1024x64 .f32) (main_arg2 : FVec F S2x8x1024x64 .f32) (main_arg3 : FVec F S2x8x1024x64 .f32) (main_arg4 : FVec F S2x8x1024x64 .f32) (main_arg5 : FVec F S2x8x1024x64 .f32) : IVec S_ 1 :=
  let main_v0 : FVec F S2x8x1024x64 .f32 := Host.absf main_arg0
  let main_cst : FVec F S_ .f32 := constant S_ .f32 0x7F800000#32
  let main_v1 : FVec F S2x8x1024x64 .f32 := broadcastInDim S2x8x1024x64 ![] bcast_S_S2x8x1024x64 main_cst
  let main_v2 : IVec S2x8x1024x64 1 := cmpf .olt main_v0 main_v1
  let main_c : IVec S_ 1 := constantI S_ 1 1#1
  let main_v3 : IVec S_ 1 := (fun x v => Host.reduce IntOp.andi x v reducesTo_S2x8x1024x64_S_d0_1_2_3 h_S_) main_v2 main_c
  let main_v4 : FVec F S2x8x1024x64 .f32 := Host.absf main_arg1
  let main_cst_0 : FVec F S_ .f32 := constant S_ .f32 0x7F800000#32
  let main_v5 : FVec F S2x8x1024x64 .f32 := broadcastInDim S2x8x1024x64 ![] bcast_S_S2x8x1024x64 main_cst_0
  let main_v6 : IVec S2x8x1024x64 1 := cmpf .olt main_v4 main_v5
  let main_c_1 : IVec S_ 1 := constantI S_ 1 1#1
  let main_v7 : IVec S_ 1 := (fun x v => Host.reduce IntOp.andi x v reducesTo_S2x8x1024x64_S_d0_1_2_3 h_S_) main_v6 main_c_1
  let main_v8 : IVec S_ 1 := andi main_v3 main_v7
  let main_v9 : FVec F S2x8x1024x64 .f32 := Host.absf main_arg2
  let main_cst_2 : FVec F S_ .f32 := constant S_ .f32 0x7F800000#32
  let main_v10 : FVec F S2x8x1024x64 .f32 := broadcastInDim S2x8x1024x64 ![] bcast_S_S2x8x1024x64 main_cst_2
  let main_v11 : IVec S2x8x1024x64 1 := cmpf .olt main_v9 main_v10
  let main_c_3 : IVec S_ 1 := constantI S_ 1 1#1
  let main_v12 : IVec S_ 1 := (fun x v => Host.reduce IntOp.andi x v reducesTo_S2x8x1024x64_S_d0_1_2_3 h_S_) main_v11 main_c_3
  let main_v13 : IVec S_ 1 := andi main_v8 main_v12
  let main_v14 : FVec F S2x8x1024x64 .f32 := Host.absf main_arg3
  let main_cst_4 : FVec F S_ .f32 := constant S_ .f32 0x7F800000#32
  let main_v15 : FVec F S2x8x1024x64 .f32 := broadcastInDim S2x8x1024x64 ![] bcast_S_S2x8x1024x64 main_cst_4
  let main_v16 : IVec S2x8x1024x64 1 := cmpf .olt main_v14 main_v15
  fn_part1 (F := F) main_arg4 main_arg5 main_v13 main_v16
-- ==== Kernel.lean ====
abbrev S2x8x1024x64 : Shape := ⟨4, ![2, 8, 1024, 64]⟩
abbrev S1x1x1024x64 : Shape := ⟨4, ![1, 1, 1024, 64]⟩
abbrev S1024x1024 : Shape := ⟨2, ![1024, 1024]⟩
abbrev S1024x64 : Shape := ⟨2, ![1024, 64]⟩
abbrev S1x1x256x64 : Shape := ⟨4, ![1, 1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1x1x512x64 : Shape := ⟨4, ![1, 1, 512, 64]⟩
abbrev S512x64 : Shape := ⟨2, ![512, 64]⟩
abbrev S512x512 : Shape := ⟨2, ![512, 512]⟩
abbrev S256x512 : Shape := ⟨2, ![256, 512]⟩
abbrev S1x1x768x64 : Shape := ⟨4, ![1, 1, 768, 64]⟩
abbrev S768x64 : Shape := ⟨2, ![768, 64]⟩
abbrev S768x768 : Shape := ⟨2, ![768, 768]⟩
abbrev S256x768 : Shape := ⟨2, ![256, 768]⟩
abbrev S256x1024 : Shape := ⟨2, ![256, 1024]⟩

abbrev nBuf : Space → Nat
  | .hbm => 7
  | .vmem => 16
  | .smem => 0
  | _ => 0

abbrev bufTy : (tb : Table) → Fin (tcTables nBuf tb) → BufTy
  | .hbm, ⟨0, _⟩ => ⟨S2x8x1024x64, .f32⟩
  | .hbm, ⟨1, _⟩ => ⟨S2x8x1024x64, .f32⟩
  | .hbm, ⟨2, _⟩ => ⟨S2x8x1024x64, .f32⟩
  | .hbm, ⟨3, _⟩ => ⟨S2x8x1024x64, .f32⟩
  | .hbm, ⟨4, _⟩ => ⟨S2x8x1024x64, .f32⟩
  | .hbm, ⟨5, _⟩ => ⟨S2x8x1024x64, .f32⟩
  | .hbm, ⟨6, _⟩ => ⟨S2x8x1024x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x64, .f32⟩
  | .local _ .vmem, ⟨7, _⟩ => ⟨S1x1x1024x64, .f32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x64, .f32⟩
  | .local _ .vmem, ⟨11, _⟩ => ⟨S1x1x1024x64, .f32⟩
  | .local _ .vmem, ⟨12, _⟩ => ⟨S1x1x1024x64, .f32⟩
  | .local _ .vmem, ⟨13, _⟩ => ⟨S1x1x1024x64, .f32⟩
  | .local _ .vmem, ⟨14, _⟩ => ⟨S1024x1024, .bf16⟩
  | .local _ .vmem, ⟨15, _⟩ => ⟨S1024x1024, .bf16⟩
  | _, _ => ⟨S2x8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  iota_S1024x1024_d0_w32 : S1024x1024.Iotas .tc 32 [0]
  iota_S1024x1024_d1_w32 : S1024x1024.Iotas .tc 32 [1]
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1x1024x64_S1x1x256x64_0_0_0_0 : ∀ a, (![0, 0, 0, 0] : Fin 4 → Nat) a + S1x1x256x64.size a ≤ S1x1x1024x64.size a
  h_S1x1x256x64 : 0 < S1x1x256x64.numel
  shapeCasts_S1x1x256x64_S256x64 : S1x1x256x64.ShapeCasts S256x64
  slices_S1024x64_o0_0_S256x64 : S1024x64.Slices ![0, 0] S256x64
  inb_S1024x1024_S256x256_0_0 : ∀ a, (![0, 0] : Fin 2 → Nat) a + S256x256.size a ≤ S1024x1024.size a
  h_S256x256 : 0 < S256x256.numel
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  shapeCasts_S256x64_S1x1x256x64 : S256x64.ShapeCasts S1x1x256x64
  inb_S1x1x1024x64_S1x1x256x64_0_0_256_0 : ∀ a, (![0, 0, 256, 0] : Fin 4 → Nat) a + S1x1x256x64.size a ≤ S1x1x1024x64.size a
  inb_S1x1x1024x64_S1x1x512x64_0_0_0_0 : ∀ a, (![0, 0, 0, 0] : Fin 4 → Nat) a + S1x1x512x64.size a ≤ S1x1x1024x64.size a
  h_S1x1x512x64 : 0 < S1x1x512x64.numel
  shapeCasts_S1x1x512x64_S512x64 : S1x1x512x64.ShapeCasts S512x64
  slices_S1024x64_o0_0_S512x64 : S1024x64.Slices ![0, 0] S512x64
  inb_S1024x1024_S512x512_0_0 : ∀ a, (![0, 0] : Fin 2 → Nat) a + S512x512.size a ≤ S1024x1024.size a
  h_S512x512 : 0 < S512x512.numel
  iota_S256x512_d0_w32 : S256x512.Iotas .tc 32 [0]
  iota_S256x512_d1_w32 : S256x512.Iotas .tc 32 [1]
  reduces_S256x512_S256 : S256x512.Reduces [1] S256
  broadcasts_S256x1_S256x512 : S256x1.Broadcasts S256x512
  inb_S1x1x1024x64_S1x1x256x64_0_0_512_0 : ∀ a, (![0, 0, 512, 0] : Fin 4 → Nat) a + S1x1x256x64.size a ≤ S1x1x1024x64.size a
  inb_S1x1x1024x64_S1x1x768x64_0_0_0_0 : ∀ a, (![0, 0, 0, 0] : Fin 4 → Nat) a + S1x1x768x64.size a ≤ S1x1x1024x64.size a
  h_S1x1x768x64 : 0 < S1x1x768x64.numel
  shapeCasts_S1x1x768x64_S768x64 : S1x1x768x64.ShapeCasts S768x64
  slices_S1024x64_o0_0_S768x64 : S1024x64.Slices ![0, 0] S768x64
  inb_S1024x1024_S768x768_0_0 : ∀ a, (![0, 0] : Fin 2 → Nat) a + S768x768.size a ≤ S1024x1024.size a
  h_S768x768 : 0 < S768x768.numel
  iota_S256x768_d0_w32 : S256x768.Iotas .tc 32 [0]
  iota_S256x768_d1_w32 : S256x768.Iotas .tc 32 [1]
  reduces_S256x768_S256 : S256x768.Reduces [1] S256
  broadcasts_S256x1_S256x768 : S256x1.Broadcasts S256x768
  inb_S1x1x1024x64_S1x1x256x64_0_0_768_0 : ∀ a, (![0, 0, 768, 0] : Fin 4 → Nat) a + S1x1x256x64.size a ≤ S1x1x1024x64.size a
  iota_S256x1024_d0_w32 : S256x1024.Iotas .tc 32 [0]
  iota_S256x1024_d1_w32 : S256x1024.Iotas .tc 32 [1]
  reduces_S256x1024_S256 : S256x1024.Reduces [1] S256
  broadcasts_S256x1_S256x1024 : S256x1.Broadcasts S256x1024
  dot_S1024x64_S1024x64_S1024x1024_1_1_0_0_n_n_wf : DotDims.WF S1024x64 S1024x64 S1024x1024 [1] [1] [0] [0] [] []
  dot_S256x64_S256x64_S256x256_1_1_0_0_n_n_wf : DotDims.WF S256x64 S256x64 S256x256 [1] [1] [0] [0] [] []
  dot_S256x256_S256x256_S256x256_1_1_0_0_n_n_wf : DotDims.WF S256x256 S256x256 S256x256 [1] [1] [0] [0] [] []
  dot_S256x256_S256x64_S256x64_1_0_0_1_n_n_wf : DotDims.WF S256x256 S256x64 S256x64 [1] [0] [0] [1] [] []
  dot_S256x64_S512x64_S256x512_1_1_0_0_n_n_wf : DotDims.WF S256x64 S512x64 S256x512 [1] [1] [0] [0] [] []
  dot_S256x512_S512x512_S256x512_1_1_0_0_n_n_wf : DotDims.WF S256x512 S512x512 S256x512 [1] [1] [0] [0] [] []
  dot_S256x512_S512x64_S256x64_1_0_0_1_n_n_wf : DotDims.WF S256x512 S512x64 S256x64 [1] [0] [0] [1] [] []
  dot_S256x64_S768x64_S256x768_1_1_0_0_n_n_wf : DotDims.WF S256x64 S768x64 S256x768 [1] [1] [0] [0] [] []
  dot_S256x768_S768x768_S256x768_1_1_0_0_n_n_wf : DotDims.WF S256x768 S768x768 S256x768 [1] [1] [0] [0] [] []
  dot_S256x768_S768x64_S256x64_1_0_0_1_n_n_wf : DotDims.WF S256x768 S768x64 S256x64 [1] [0] [0] [1] [] []
  dot_S256x64_S1024x64_S256x1024_1_1_0_0_n_n_wf : DotDims.WF S256x64 S1024x64 S256x1024 [1] [1] [0] [0] [] []
  dot_S256x1024_S1024x1024_S256x1024_1_1_0_0_n_n_wf : DotDims.WF S256x1024 S1024x1024 S256x1024 [1] [1] [0] [0] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S2x8x1024x64.size a
  hwx0_0 : ∀ i : grid0.Coords, EltTy.bits .f32 = 32 ∨ (Rect.block (s := S2x8x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S2x8x1024x64.size a
  hwx0_1 : ∀ i : grid0.Coords, EltTy.bits .f32 = 32 ∨ (Rect.block (s := S2x8x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S2x8x1024x64.size a
  hwx0_2 : ∀ i : grid0.Coords, EltTy.bits .f32 = 32 ∨ (Rect.block (s := S2x8x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S2x8x1024x64.size a
  hwx0_3 : ∀ i : grid0.Coords, EltTy.bits .f32 = 32 ∨ (Rect.block (s := S2x8x1024x64) S1x1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S2x8x1024x64.size a
  hwx0_4 : ∀ i : grid0.Coords, EltTy.bits .f32 = 32 ∨ (Rect.block (s := S2x8x1024x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x64.size a ≤ S2x8x1024x64.size a
  hwx0_5 : ∀ i : grid0.Coords, EltTy.bits .f32 = 32 ∨ (Rect.block (s := S2x8x1024x64) S1x1x1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024x64.size a ≤ S2x8x1024x64.size a
  hwx0_6 : ∀ i : grid0.Coords, EltTy.bits .f32 = 32 ∨ (Rect.block (s := S2x8x1024x64) S1x1x1024x64.size (cc0_transform_6 i) (hinb0_6 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S512x64_S256x512_1_1_0_0_n_n : DotDims S256x64 S512x64 S256x512 where
  lhsContracting := [1]
  rhsContracting := [1]
  lhsNonContracting := [0]
  rhsNonContracting := [0]
  lhsBatch := []
  rhsBatch := []
  wf := dot_S256x64_S512x64_S256x512_1_1_0_0_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x64_S768x64_S256x768_1_1_0_0_n_n : DotDims S256x64 S768x64 S256x768 where
  lhsContracting := [1]
  rhsContracting := [1]
  lhsNonContracting := [0]
  rhsNonContracting := [0]
  lhsBatch := []
  rhsBatch := []
  wf := dot_S256x64_S768x64_S256x768_1_1_0_0_n_n_wf
def dot_S256x768_S768x768_S256x768_1_1_0_0_n_n : DotDims S256x768 S768x768 S256x768 where
  lhsContracting := [1]
  rhsContracting := [1]
  lhsNonContracting := [0]
  rhsNonContracting := [0]
  lhsBatch := []
  rhsBatch := []
  wf := dot_S256x768_S768x768_S256x768_1_1_0_0_n_n_wf
def dot_S256x768_S768x64_S256x64_1_0_0_1_n_n : DotDims S256x768 S768x64 S256x64 where
  lhsContracting := [1]
  rhsContracting := [0]
  lhsNonContracting := [0]
  rhsNonContracting := [1]
  lhsBatch := []
  rhsBatch := []
  wf := dot_S256x768_S768x64_S256x64_1_0_0_1_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x1024x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x8x1024x64 : Shape := ⟨4, ![2, 8, 1024, 64]⟩
abbrev S1024 : Shape := ⟨1, ![1024]⟩
abbrev S2x8x1024x1024 : Shape := ⟨4, ![2, 8, 1024, 1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S2x8x1024 : Shape := ⟨3, ![2, 8, 1024]⟩
abbrev S2x8x1024x1 : Shape := ⟨4, ![2, 8, 1024, 1]⟩

abbrev nBuf : Space → Nat
  | .hbm => 74
  | .vmem => 0
  | .smem => 0
  | _ => 0

abbrev bufTy : (tb : Table) → Fin (tcTables nBuf tb) → BufTy
  | .hbm, ⟨0, _⟩ => ⟨S2x8x1024x64, .f32⟩
  | .hbm, ⟨1, _⟩ => ⟨S2x8x1024x64, .f32⟩
  | .hbm, ⟨2, _⟩ => ⟨S2x8x1024x64, .f32⟩
  | .hbm, ⟨3, _⟩ => ⟨S2x8x1024x64, .f32⟩
  | .hbm, ⟨4, _⟩ => ⟨S2x8x1024x64, .f32⟩
  | .hbm, ⟨5, _⟩ => ⟨S2x8x1024x64, .f32⟩
  | .hbm, ⟨6, _⟩ => ⟨S1024, .i32⟩
  | .hbm, ⟨7, _⟩ => ⟨S2x8x1024x1024, .f32⟩
  | .hbm, ⟨8, _⟩ => ⟨S1024x1, .i32⟩
  | .hbm, ⟨9, _⟩ => ⟨S1x1024, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S_, .f32⟩
  | .hbm, ⟨14, _⟩ => ⟨S_, .f32⟩
  | .hbm, ⟨15, _⟩ => ⟨S2x8x1024x1024, .i1⟩
  | .hbm, ⟨16, _⟩ => ⟨S2x8x1024x1024, .f32⟩
  | .hbm, ⟨17, _⟩ => ⟨S2x8x1024x1024, .f32⟩
  | .hbm, ⟨18, _⟩ => ⟨S2x8x1024x1024, .f32⟩
  | .hbm, ⟨19, _⟩ => ⟨S2x8x1024x1024, .f32⟩
  | .hbm, ⟨20, _⟩ => ⟨S2x8x1024x1024, .f32⟩
  | .hbm, ⟨21, _⟩ => ⟨S_, .f32⟩
  | .hbm, ⟨22, _⟩ => ⟨S2x8x1024x1024, .f32⟩
  | .hbm, ⟨23, _⟩ => ⟨S2x8x1024x1024, .f32⟩
  | .hbm, ⟨24, _⟩ => ⟨S_, .f32⟩
  | .hbm, ⟨25, _⟩ => ⟨S2x8x1024x1024, .f32⟩
  | .hbm, ⟨26, _⟩ => ⟨S2x8x1024x1024, .f32⟩
  | .hbm, ⟨27, _⟩ => ⟨S1x1024, .i32⟩
  | .hbm, ⟨28, _⟩ => ⟨S1024x1, .i32⟩
  | .hbm, ⟨29, _⟩ => ⟨S1024x1024, .i32⟩
  | .hbm, ⟨30, _⟩ => ⟨S1024x1024, .i32⟩
  | .hbm, ⟨31, _⟩ => ⟨S1024x1024, .i1⟩
  | .hbm, ⟨32, _⟩ => ⟨S_, .f32⟩
  | .hbm, ⟨33, _⟩ => ⟨S_, .f32⟩
  | .hbm, ⟨34, _⟩ => ⟨S2x8x1024x1024, .i1⟩
  | .hbm, ⟨35, _⟩ => ⟨S2x8x1024x1024, .f32⟩
  | .hbm, ⟨36, _⟩ => ⟨S2x8x1024x1024, .f32⟩
  | .hbm, ⟨37, _⟩ => ⟨S2x8x1024x1024, .f32⟩
  | .hbm, ⟨38, _⟩ => ⟨S2x8x1024x1024, .f32⟩
  | .hbm, ⟨39, _⟩ => ⟨S2x8x1024x1024, .f32⟩
  | .hbm, ⟨40, _⟩ => ⟨S2x8x1024x1024, .f32⟩
  | .hbm, ⟨41, _⟩ => ⟨S_, .f32⟩
  | .hbm, ⟨42, _⟩ => ⟨S2x8x1024x1024, .f32⟩
  | .hbm, ⟨43, _⟩ => ⟨S2x8x1024x1024, .f32⟩
  | .hbm, ⟨44, _⟩ => ⟨S_, .f32⟩
  | .hbm, ⟨45, _⟩ => ⟨S2x8x1024x1024, .f32⟩
  | .hbm, ⟨46, _⟩ => ⟨S2x8x1024x1024, .f32⟩
  | .hbm, ⟨47, _⟩ => ⟨S2x8x1024x1024, .f32⟩
  | .hbm, ⟨48, _⟩ => ⟨S2x8x1024x1024, .f32⟩
  | .hbm, ⟨49, _⟩ => ⟨S1024x1, .i32⟩
  | .hbm, ⟨50, _⟩ => ⟨S1x1024, .i32⟩
  | .hbm, ⟨51, _⟩ => ⟨S1024x1024, .i32⟩
  | .hbm, ⟨52, _⟩ => ⟨S1024x1024, .i32⟩
  | .hbm, ⟨53, _⟩ => ⟨S1024x1024, .i1⟩
  | .hbm, ⟨54, _⟩ => ⟨S_, .f32⟩
  | .hbm, ⟨55, _⟩ => ⟨S_, .f32⟩
  | .hbm, ⟨56, _⟩ => ⟨S2x8x1024x1024, .i1⟩
  | .hbm, ⟨57, _⟩ => ⟨S2x8x1024x1024, .f32⟩
  | .hbm, ⟨58, _⟩ => ⟨S2x8x1024x1024, .f32⟩
  | .hbm, ⟨59, _⟩ => ⟨S_, .f32⟩
  | .hbm, ⟨60, _⟩ => ⟨S2x8x1024, .f32⟩
  | .hbm, ⟨61, _⟩ => ⟨S_, .f32⟩
  | .hbm, ⟨62, _⟩ => ⟨S2x8x1024, .f32⟩
  | .hbm, ⟨63, _⟩ => ⟨S2x8x1024, .f32⟩
  | .hbm, ⟨64, _⟩ => ⟨S2x8x1024x1, .f32⟩
  | .hbm, ⟨65, _⟩ => ⟨S2x8x1024x1024, .f32⟩
  | .hbm, ⟨66, _⟩ => ⟨S2x8x1024x1024, .f32⟩
  | .hbm, ⟨67, _⟩ => ⟨S2x8x1024x1024, .f32⟩
  | .hbm, ⟨68, _⟩ => ⟨S_, .f32⟩
  | .hbm, ⟨69, _⟩ => ⟨S2x8x1024, .f32⟩
  | .hbm, ⟨70, _⟩ => ⟨S2x8x1024x1, .f32⟩
  | .hbm, ⟨71, _⟩ => ⟨S2x8x1024x1024, .f32⟩
  | .hbm, ⟨72, _⟩ => ⟨S2x8x1024x1024, .f32⟩
  | .hbm, ⟨73, _⟩ => ⟨S2x8x1024x64, .f32⟩
  | _, _ => ⟨S2x8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S1024x1024_S2x8x1024x1024_2_3 : S1024x1024.BroadcastsInDim S2x8x1024x1024 (![2, 3] : Fin 2 → Fin S2x8x1024x1024.rank)
  bcast_S_S2x8x1024x1024 : S_.BroadcastsInDim S2x8x1024x1024 (![] : Fin 0 → Fin S2x8x1024x1024.rank)
  reducesTo_S2x8x1024x1024_S2x8x1024_d3 : S2x8x1024x1024.ReducesTo [3] S2x8x1024
  h_S_ : 0 < S_.numel
  bcast_S_S2x8x1024 : S_.BroadcastsInDim S2x8x1024 (![] : Fin 0 → Fin S2x8x1024.rank)
  bcast_S2x8x1024_S2x8x1024x1_0_1_2 : S2x8x1024.BroadcastsInDim S2x8x1024x1 (![0, 1, 2] : Fin 3 → Fin S2x8x1024x1.rank)
  bcast_S2x8x1024x1_S2x8x1024x1024_0_1_2_3 : S2x8x1024x1.BroadcastsInDim S2x8x1024x1024 (![0, 1, 2, 3] : Fin 4 → Fin S2x8x1024x1024.rank)
  dot_S2x8x1024x64_S2x8x1024x64_S2x8x1024x1024_3_3_2_2_01_01_wf : DotDims.WF S2x8x1024x64 S2x8x1024x64 S2x8x1024x1024 [3] [3] [2] [2] [0, 1] [0, 1]
  dot_S2x8x1024x1024_S2x8x1024x1024_S2x8x1024x1024_3_3_2_2_01_01_wf : DotDims.WF S2x8x1024x1024 S2x8x1024x1024 S2x8x1024x1024 [3] [3] [2] [2] [0, 1] [0, 1]
  dot_S2x8x1024x1024_S2x8x1024x64_S2x8x1024x64_3_2_2_3_01_01_wf : DotDims.WF S2x8x1024x1024 S2x8x1024x64 S2x8x1024x64 [3] [2] [2] [3] [0, 1] [0, 1]

variable [Facts₀]

def dot_S2x8x1024x64_S2x8x1024x64_S2x8x1024x1024_3_3_2_2_01_01 : DotDims S2x8x1024x64 S2x8x1024x64 S2x8x1024x1024 where
  lhsContracting := [3]
  rhsContracting := [3]
  lhsNonContracting := [2]
  rhsNonContracting := [2]
  lhsBatch := [0, 1]
  rhsBatch := [0, 1]
  wf := dot_S2x8x1024x64_S2x8x1024x64_S2x8x1024x1024_3_3_2_2_01_01_wf
def dot_S2x8x1024x1024_S2x8x1024x1024_S2x8x1024x1024_3_3_2_2_01_01 : DotDims S2x8x1024x1024 S2x8x1024x1024 S2x8x1024x1024 where
  lhsContracting := [3]
  rhsContracting := [3]
  lhsNonContracting := [2]
  rhsNonContracting := [2]
  lhsBatch := [0, 1]
  rhsBatch := [0, 1]
  wf := dot_S2x8x1024x1024_S2x8x1024x1024_S2x8x1024x1024_3_3_2_2_01_01_wf
def dot_S2x8x1024x1024_S2x8x1024x64_S2x8x1024x64_3_2_2_3_01_01 : DotDims S2x8x1024x1024 S2x8x1024x64 S2x8x1024x64 where
  lhsContracting := [3]
  rhsContracting := [2]
  lhsNonContracting := [2]
  rhsNonContracting := [3]
  lhsBatch := [0, 1]
  rhsBatch := [0, 1]
  wf := dot_S2x8x1024x1024_S2x8x1024x64_S2x8x1024x64_3_2_2_3_01_01_wf

class Facts : Prop extends Facts₀ where

variable [Facts]
-- ==== Proof.Spec.lean ====
/-
  The function both programs compute, one attention head at a time, written over plain index functions.

  A head has six 1024 × 64 arrays: q, k, v (the causal stream) and qu, ku, vu (the look-ahead stream). With
    t1 i j = q_i · vu_j  for j ≤ i, else 0                  (causal history)
    la k j = σ (qu_k · ku_j)  for k < j, else 0             (look-ahead gate, σ the logistic function)
    su i k = Σ_j t1 i j · la k j
    sc i k = q_i · k_k − su i k · σ (su i k)  for k ≤ i, else −∞
  the result is the softmax of row i of sc, taken against v:
    out i d = Σ_k (e^(sc i k − m_i) / l_i) · v k d,   m_i = max_k sc i k,   l_i = Σ_k e^(sc i k − m_i).
  `OUT` below is that formula, every sum and the maximum over all 1024 positions.

  `kOUT n` is the same head computed the way a row block with key prefix n does it: every sum and the maximum
  run over the first n positions only; the t1 · la contraction is assembled from three products,
  t1·la + t1·(la − la) + (t1 − t1)·la (a value split into a leading part and a remainder, the remainder·remainder
  product left out); and the normalisation divides the finished sum Σ_k e^(…) · v k d by l_i once, instead of each
  weight before the sum. That the two agree for a row i < n over finite inputs is proved elsewhere; this module only
  states the two functions.
-/
import Idealize.ShloMosaic.PureOps.Ideal

noncomputable section

open scoped BigOperators

namespace Cert.Attn

open Idealize.ShloMosaic

/-- A head's array: 1024 positions, 64 features, extended-real entries. -/
abbrev Head := Fin 1024 → Fin 64 → EReal

/-- The inner product of two feature rows. -/
def dot64 (a b : Fin 64 → EReal) : EReal := ∑ κ : Fin 64, a κ * b κ

/-- t1 i j = q_i · vu_j on the causal history j ≤ i, zero after it. -/
def T1 (q vu : Head) (i j : Fin 1024) : EReal := if j ≤ i then dot64 (q i) (vu j) else 0

/-- la k j = σ (qu_k · ku_j) strictly ahead of k (k < j), zero elsewhere. -/
def LA (qu ku : Head) (k j : Fin 1024) : EReal := if k < j then Ideal.logistic (dot64 (qu k) (ku j)) else 0

/-! ## All 1024 positions -/

/-- su i k = Σ_j t1 i j · la k j over every position j. -/
def SU (q vu qu ku : Head) (i k : Fin 1024) : EReal := ∑ j : Fin 1024, T1 q vu i j * LA qu ku k j

/-- The masked score: q_i · k_k − su · σ (su) for k ≤ i, −∞ after. -/
def SC (q kk vu qu ku : Head) (i k : Fin 1024) : EReal :=
  if k ≤ i then dot64 (q i) (kk k) - SU q vu qu ku i k * Ideal.logistic (SU q vu qu ku i k) else ⊥

/-- The row maximum m_i, folded from −∞. -/
def MX (q kk vu qu ku : Head) (i : Fin 1024) : EReal :=
  (Finset.univ : Finset (Fin 1024)).fold max ⊥ (SC q kk vu qu ku i)

/-- The unnormalised weight e^(sc i k − m_i). -/
def PU (q kk vu qu ku : Head) (i k : Fin 1024) : EReal := Ideal.exp (SC q kk vu qu ku i k - MX q kk vu qu ku i)

/-- The normaliser l_i. -/
def LS (q kk vu qu ku : Head) (i : Fin 1024) : EReal := ∑ k : Fin 1024, PU q kk vu qu ku i k

/-- The head's result: each weight divided by l_i, then summed against v. -/
def OUT (q kk v qu ku vu : Head) (i : Fin 1024) (d : Fin 64) : EReal :=
  ∑ k : Fin 1024, Ideal.div (PU q kk vu qu ku i k) (LS q kk vu qu ku i) * v k d

/-! ## The first n positions, the way a row block computes -/

/-- su over the key prefix, assembled from the three products of the split operands. -/
def kSU (n : ℕ) (hn : n ≤ 1024) (q vu qu ku : Head) (i : Fin 1024) (k : Fin n) : EReal :=
  (∑ j : Fin n, T1 q vu i (Fin.castLE hn j) * LA qu ku (Fin.castLE hn k) (Fin.castLE hn j)
    + ∑ j : Fin n, T1 q vu i (Fin.castLE hn j)
        * (LA qu ku (Fin.castLE hn k) (Fin.castLE hn j) - LA qu ku (Fin.castLE hn k) (Fin.castLE hn j)))
    + ∑ j : Fin n, (T1 q vu i (Fin.castLE hn j) - T1 q vu i (Fin.castLE hn j))
        * LA qu ku (Fin.castLE hn k) (Fin.castLE hn j)

/-- The masked score over the key prefix. -/
def kSC (n : ℕ) (hn : n ≤ 1024) (q kk vu qu ku : Head) (i : Fin 1024) (k : Fin n) : EReal :=
  if Fin.castLE hn k ≤ i then
    dot64 (q i) (kk (Fin.castLE hn k)) - kSU n hn q vu qu ku i k * Ideal.logistic (kSU n hn q vu qu ku i k)
  else ⊥

/-- The row maximum over the key prefix, folded from −∞. -/
def kMX (n : ℕ) (hn : n ≤ 1024) (q kk vu qu ku : Head) (i : Fin 1024) : EReal :=
  (Finset.univ : Finset (Fin n)).fold max ⊥ (kSC n hn q kk vu qu ku i)

/-- The unnormalised weight over the key prefix. -/
def kPU (n : ℕ) (hn : n ≤ 1024) (q kk vu qu ku : Head) (i : Fin 1024) (k : Fin n) : EReal :=
  Ideal.exp (kSC n hn q kk vu qu ku i k - kMX n hn q kk vu qu ku i)

/-- The normaliser over the key prefix. -/
def kLS (n : ℕ) (hn : n ≤ 1024) (q kk vu qu ku : Head) (i : Fin 1024) : EReal :=
  ∑ k : Fin n, kPU n hn q kk vu qu ku i k

/-- The row block's result: the weighted sum against v over the key prefix, divided by the normaliser once. -/
def kOUT (n : ℕ) (hn : n ≤ 1024) (q kk v qu ku vu : Head) (i : Fin 1024) (d : Fin 64) : EReal :=
  Ideal.div (∑ k : Fin n, kPU n hn q kk vu qu ku i k * v (Fin.castLE hn k) d) (kLS n hn q kk vu qu ku i)

/-- Every entry of a head's array is a real number (no ±∞). -/
def IsReal (a : Head) : Prop := ∀ i d, ∃ r : ℝ, a i d = (r : EReal)

end Cert.Attn

end
-- ==== Proof.Heads.lean ====
/-
  One head out of an array: the 1024 × 64 slice at a batch and a head coordinate of a [2, 8, 1024, 64] array, and the
  one head a [1, 1, 1024, 64] block holds.
-/
import proofs.«415080_j88252987998455_3_alg».proof.Proof.Spec
import Idealize.ShloMosaic.Lib.ValueIdx

noncomputable section

namespace Cert.Attn

open Idealize.ShloMosaic Idealize.ShloMosaic.ValueIdx

/-- Head (z, h) of a [2, 8, 1024, 64] array. -/
def headOf (x : (⟨4, ![2, 8, 1024, 64]⟩ : Shape).Idx → EReal) (z : Fin 2) (h : Fin 8) : Head :=
  fun i d => x (ix4 z h i d)

/-- The head a [1, 1, 1024, 64] block holds. -/
def headOfBlock (x : (⟨4, ![1, 1, 1024, 64]⟩ : Shape).Idx → EReal) : Head :=
  fun i d => x (ix4 (0 : Fin 1) (0 : Fin 1) i d)

end Cert.Attn

end
-- ==== Proof.Finite.lean ====
/-
  The precondition says every entry of every argument is a real number.

  `finite_inputs` is the conjunction, over the six arguments, of "every entry x has |x| < +∞". On the extended reals
  |x| < +∞ excludes both infinities, so x is (the image of) a real.
-/
import proofs.«415080_j88252987998455_3_alg».proof.Pre_finite_inputs
import proofs.«415080_j88252987998455_3_alg».proof.Proof.Gen.Pre_finite_inputs
import proofs.«415080_j88252987998455_3_alg».proof.Proof.Heads
import Idealize.ShloMosaic.Lib.ReduceAll
import Idealize.ShloMosaic.PureOps.Ideal

noncomputable section

namespace Cert.Finite

open Idealize.ShloMosaic Idealize.ShloMosaic.ValueIdx Cert.Attn

/-- The rank-0 shape has exactly one index. -/
instance subsingleton_scalar_idx : Subsingleton Cert.Pre_finite_inputs.S_.Idx := ⟨fun a b => funext fun d => d.elim0⟩

/-- The f32 pattern 0x7F800000 (sign 0, exponent all ones, significand 0) denotes +∞. -/
theorem ofBits_inf : Ideal.ofBits .f32 0x7F800000#32 = (⊤ : EReal) := by simp [Ideal.ofBits, Ideal.ieee]

/-- On the extended reals |x| = max x (-x), and |x| < +∞ excludes x = ⊥ (where -x = ⊤) and x = ⊤: x is a real. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

open Cert.Pre_finite_inputs in
/-- One argument's conjunct: the entrywise test |x| < +∞ against the broadcast constant, folded by `and` over all four
    axes into the one rank-0 entry. If that entry is 1, every entry of the test is 1, so every entry of the array is a
    real. -/
theorem real_of_all [Facts] (a : S2x8x1024x64.Idx → EReal) (init : IVec S_ 1)
    (h : Host.reduce IntOp.andi
        (cmpf (F := Ideal) .olt (Host.absf a)
          (broadcastInDim S2x8x1024x64 ![] Facts.bcast_S_S2x8x1024x64 (constant S_ .f32 0x7F800000#32)))
        init Facts.reducesTo_S2x8x1024x64_S_d0_1_2_3 Facts.h_S_ ix0 = 1#1) :
    ∀ j, ∃ r : ℝ, a j = (r : EReal) := fun j =>
  real_of_abs_lt (a j) (Host.reduce_andi_all _ init _ _ ix0 h j)

/-- If the printed precondition is all ones, every entry of each of the six arrays is a real number: the result is the
    `and` of the six arguments' conjuncts, nested to the left, so it is 1 only if each conjunct is. -/
theorem real_of_pre (a0 a1 a2 a3 a4 a5 : (⟨4, ![2, 8, 1024, 64]⟩ : Shape).Idx → EReal)
    (h : Cert.Pre_finite_inputs.fn (F := Ideal) a0 a1 a2 a3 a4 a5 = fun _ => 1#1) :
    (∀ j, ∃ r : ℝ, a0 j = (r : EReal)) ∧ (∀ j, ∃ r : ℝ, a1 j = (r : EReal)) ∧ (∀ j, ∃ r : ℝ, a2 j = (r : EReal))
      ∧ (∀ j, ∃ r : ℝ, a3 j = (r : EReal)) ∧ (∀ j, ∃ r : ℝ, a4 j = (r : EReal)) ∧ (∀ j, ∃ r : ℝ, a5 j = (r : EReal)) := by
  have e := congrFun h ix0
  dsimp only [Cert.Pre_finite_inputs.fn, Cert.Pre_finite_inputs.fn_part1] at e
  simp only [andi, IntOp.andi_eq_one] at e
  obtain ⟨⟨⟨⟨⟨h0, h1⟩, h2⟩, h3⟩, h4⟩, h5⟩ := e
  exact ⟨real_of_all a0 _ h0, real_of_all a1 _ h1, real_of_all a2 _ h2, real_of_all a3 _ h3, real_of_all a4 _ h4,
    real_of_all a5 _ h5⟩

/-- So every head of such an array is real-valued. -/
theorem isReal_headOf (a : (⟨4, ![2, 8, 1024, 64]⟩ : Shape).Idx → EReal) (ha : ∀ j, ∃ r : ℝ, a j = (r : EReal))
    (z : Fin 2) (h : Fin 8) : IsReal (headOf a z h) :=
  fun i d => ha (ix4 z h i d)

end Cert.Finite

end
-- ==== Proof.RefSpec.lean ====
/-
  The reference program's result, one entry at a time, is the head formula `OUT`.

  Entry (z, h, i, d) of the reference's result reads, operation by operation: the product of the softmax weights with
  v over all 1024 key positions; each weight e^(s − m) divided by the row's sum of them; m the row maximum of the masked
  scores; the scores q_i · k_k − su · σ (su) on the causal triangle and −∞ off it; su the contraction of the causally
  masked q · vu with the look-ahead-masked σ (qu · ku). Every factor depends on the batch coordinate z and head
  coordinate h only through head (z, h) of each argument.
-/
import proofs.«415080_j88252987998455_3_alg».proof.Proof.RefRead
import proofs.«415080_j88252987998455_3_alg».proof.Proof.Heads
import Idealize.ShloMosaic.Lib.StableHlo.Predicate

noncomputable section

open scoped BigOperators

namespace Cert.RefSpec

open Idealize.ShloMosaic Idealize.ShloMosaic.ValueIdx Cert.Attn Cert.ReferenceIdeal Cert.ReferenceIdeal.Gen
  Cert.ReferenceIdeal.Read

/-! ## The three float words the program names -/

/-- The word 0x3F800000 is the number 1. -/
theorem ofBits_one_f32 : Ideal.ofBits .f32 0x3F800000#32 = 1 := by
  simp [Ideal.ofBits, Ideal.ieee]
  rw [← EReal.coe_mul]
  norm_num

/-- The word 0xFF800000 is −∞. -/
theorem ofBits_neg_inf_f32 : Ideal.ofBits .f32 0xFF800000#32 = ⊥ := by simp [Ideal.ofBits, Ideal.ieee]

/-! ## Comparing two positions: the 32-bit words of two positions below 1024 order as the positions -/

/-- The word of a position below 1024 has that position as its value. -/
theorem toNat_ofNat_fin (a : Fin 1024) : (BitVec.ofNat 32 a.val).toNat = a.val := by
  rw [BitVec.toNat_ofNat]; exact Nat.mod_eq_of_lt (by have := a.isLt; omega)

/-- Signed "greater or equal" of two position words is b ≤ a. -/
theorem sge_fin (a b : Fin 1024) :
    IntOp.cmpi .sge (BitVec.ofNat 32 a.val) (BitVec.ofNat 32 b.val) = 1#1 ↔ b ≤ a := by
  rw [StableHlo.Predicate.sge_iff_toNat (by rw [toNat_ofNat_fin]; have := a.isLt; omega)
    (by rw [toNat_ofNat_fin]; have := b.isLt; omega), toNat_ofNat_fin, toNat_ofNat_fin]
  exact Iff.rfl

/-- Signed "greater" of two position words is b < a. -/
theorem sgt_fin (a b : Fin 1024) :
    IntOp.cmpi .sgt (BitVec.ofNat 32 a.val) (BitVec.ofNat 32 b.val) = 1#1 ↔ b < a := by
  rw [StableHlo.Predicate.sgt_iff_toNat (by rw [toNat_ofNat_fin]; have := a.isLt; omega)
    (by rw [toNat_ofNat_fin]; have := b.isLt; omega), toNat_ofNat_fin, toNat_ofNat_fin]
  exact Iff.rfl

/-- A select on "a ≥ b" of two position words is the `if` on b ≤ a. -/
theorem select_sge {α : Type} (a b : Fin 1024) (A B : α) :
    Scalar.select (IntOp.cmpi .sge (BitVec.ofNat 32 a.val) (BitVec.ofNat 32 b.val)) A B = if b ≤ a then A else B := by
  by_cases hba : b ≤ a
  · rw [(sge_fin a b).mpr hba, select_one, if_pos hba]
  · rw [eq_zero_of_ne_one (fun e => hba ((sge_fin a b).mp e)), select_zero, if_neg hba]

/-- A select on "a > b" of two position words is the `if` on b < a. -/
theorem select_sgt {α : Type} (a b : Fin 1024) (A B : α) :
    Scalar.select (IntOp.cmpi .sgt (BitVec.ofNat 32 a.val) (BitVec.ofNat 32 b.val)) A B = if b < a then A else B := by
  by_cases hba : b < a
  · rw [(sgt_fin a b).mpr hba, select_one, if_pos hba]
  · rw [eq_zero_of_ne_one (fun e => hba ((sgt_fin a b).mp e)), select_zero, if_neg hba]

/-! ## The three masks, at a pair of positions (a, b): row word against column word -/

/-- The causal mask of the first product: "row ≥ column". -/
theorem v6_at (a b : Fin 1024) :
    val_main_v6 (F := Ideal) (ix2 a b) = IntOp.cmpi .sge (BitVec.ofNat 32 a.val) (BitVec.ofNat 32 b.val) := by
  rw [val_main_v6_apply, val_main_v4_apply, val_main_v2_apply, val_main_v0_apply, val_main_v5_apply, val_main_v3_apply,
    val_main_v0_apply]

/-- The look-ahead mask: "column > row". -/
theorem v19_at (a b : Fin 1024) :
    val_main_v19 (F := Ideal) (ix2 a b) = IntOp.cmpi .sgt (BitVec.ofNat 32 b.val) (BitVec.ofNat 32 a.val) := by
  rw [val_main_v19_apply, val_main_v17_apply, val_main_v15_apply, val_main_v0_apply, val_main_v18_apply,
    val_main_v16_apply, val_main_v0_apply]

/-- The causal mask of the scores: "row ≥ column". -/
theorem v35_at (a b : Fin 1024) :
    val_main_v35 (F := Ideal) (ix2 a b) = IntOp.cmpi .sge (BitVec.ofNat 32 a.val) (BitVec.ofNat 32 b.val) := by
  rw [val_main_v35_apply, val_main_v33_apply, val_main_v31_apply, val_main_v0_apply, val_main_v34_apply,
    val_main_v32_apply, val_main_v0_apply]

/-! ## The composed index maps at an index given by its coordinates -/

section Indices
variable (z : Fin 2) (h : Fin 8)

theorem lidx_v1_ix4 (i j : Fin 1024) (k : Fin 64) : lidx_main_v1 (ix4 z h i j) k = ix4 z h i k := by
  funext a; match a with | ⟨0, _⟩ => rfl | ⟨1, _⟩ => rfl | ⟨2, _⟩ => rfl | ⟨3, _⟩ => rfl
theorem ridx_v1_ix4 (i j : Fin 1024) (k : Fin 64) : ridx_main_v1 (ix4 z h i j) k = ix4 z h j k := by
  funext a; match a with | ⟨0, _⟩ => rfl | ⟨1, _⟩ => rfl | ⟨2, _⟩ => rfl | ⟨3, _⟩ => rfl
theorem lidx_v8_ix4 (i j : Fin 1024) (k : Fin 64) : lidx_main_v8 (ix4 z h i j) k = ix4 z h i k := by
  funext a; match a with | ⟨0, _⟩ => rfl | ⟨1, _⟩ => rfl | ⟨2, _⟩ => rfl | ⟨3, _⟩ => rfl
theorem ridx_v8_ix4 (i j : Fin 1024) (k : Fin 64) : ridx_main_v8 (ix4 z h i j) k = ix4 z h j k := by
  funext a; match a with | ⟨0, _⟩ => rfl | ⟨1, _⟩ => rfl | ⟨2, _⟩ => rfl | ⟨3, _⟩ => rfl
theorem lidx_v22_ix4 (i j : Fin 1024) (k : Fin 64) : lidx_main_v22 (ix4 z h i j) k = ix4 z h i k := by
  funext a; match a with | ⟨0, _⟩ => rfl | ⟨1, _⟩ => rfl | ⟨2, _⟩ => rfl | ⟨3, _⟩ => rfl
theorem ridx_v22_ix4 (i j : Fin 1024) (k : Fin 64) : ridx_main_v22 (ix4 z h i j) k = ix4 z h j k := by
  funext a; match a with | ⟨0, _⟩ => rfl | ⟨1, _⟩ => rfl | ⟨2, _⟩ => rfl | ⟨3, _⟩ => rfl
theorem lidx_v21_ix4 (i k j : Fin 1024) : lidx_main_v21 (ix4 z h i k) j = ix4 z h i j := by
  funext a; match a with | ⟨0, _⟩ => rfl | ⟨1, _⟩ => rfl | ⟨2, _⟩ => rfl | ⟨3, _⟩ => rfl
theorem ridx_v21_ix4 (i k j : Fin 1024) : ridx_main_v21 (ix4 z h i k) j = ix4 z h k j := by
  funext a; match a with | ⟨0, _⟩ => rfl | ⟨1, _⟩ => rfl | ⟨2, _⟩ => rfl | ⟨3, _⟩ => rfl
theorem lidx_v48_ix4 (i k : Fin 1024) (d : Fin 64) : lidx_main_v48 (ix4 z h i d) k = ix4 z h i k := by
  funext a; match a with | ⟨0, _⟩ => rfl | ⟨1, _⟩ => rfl | ⟨2, _⟩ => rfl | ⟨3, _⟩ => rfl
theorem ridx_v48_ix4 (i k : Fin 1024) (d : Fin 64) : ridx_main_v48 (ix4 z h i d) k = ix4 z h k d := by
  funext a; match a with | ⟨0, _⟩ => rfl | ⟨1, _⟩ => rfl | ⟨2, _⟩ => rfl | ⟨3, _⟩ => rfl
theorem idx_call0_v1_ix4 (i j : Fin 1024) : idx_main_call0_v1 (ix4 z h i j) = ix2 i j := by
  funext a; match a with | ⟨0, _⟩ => rfl | ⟨1, _⟩ => rfl
theorem idx_call1_v1_ix4 (i j : Fin 1024) : idx_main_call1_v1 (ix4 z h i j) = ix2 i j := by
  funext a; match a with | ⟨0, _⟩ => rfl | ⟨1, _⟩ => rfl
theorem idx_call2_v1_ix4 (i j : Fin 1024) : idx_main_call2_v1 (ix4 z h i j) = ix2 i j := by
  funext a; match a with | ⟨0, _⟩ => rfl | ⟨1, _⟩ => rfl
theorem idx_v41_ix4 (i k : Fin 1024) : idx_main_v41 (ix4 z h i k) = ix4 z h i (0 : Fin 1) := by
  funext a; match a with | ⟨0, _⟩ => rfl | ⟨1, _⟩ => rfl | ⟨2, _⟩ => rfl | ⟨3, _⟩ => rfl
theorem idx_v40_ix4 (i : Fin 1024) : idx_main_v40 (ix4 z h i (0 : Fin 1)) = ix3 z h i := by
  funext a; match a with | ⟨0, _⟩ => rfl | ⟨1, _⟩ => rfl | ⟨2, _⟩ => rfl
theorem idx_v46_ix4 (i k : Fin 1024) : idx_main_v46 (ix4 z h i k) = ix4 z h i (0 : Fin 1) := by
  funext a; match a with | ⟨0, _⟩ => rfl | ⟨1, _⟩ => rfl | ⟨2, _⟩ => rfl | ⟨3, _⟩ => rfl
theorem idx_v45_ix4 (i : Fin 1024) : idx_main_v45 (ix4 z h i (0 : Fin 1)) = ix3 z h i := by
  funext a; match a with | ⟨0, _⟩ => rfl | ⟨1, _⟩ => rfl | ⟨2, _⟩ => rfl
theorem idx_v44_ix3 (i k : Fin 1024) : idx_main_v44 (ix3 z h i) k = ix4 z h i k := by
  funext a; match a with | ⟨0, _⟩ => rfl | ⟨1, _⟩ => rfl | ⟨2, _⟩ => rfl | ⟨3, _⟩ => rfl

/-- Row (z, h, i) of the scores with key position k put back on the last axis is entry (z, h, i, k). -/
theorem lift_ix3 (hr : S2x8x1024x1024.Reduces [3] S2x8x1024) (i k : Fin 1024) :
    hr.lift (ix3 z h i) k = ix4 z h i k := by
  funext a; refine Fin.ext ?_
  match a with | ⟨0, _⟩ => rfl | ⟨1, _⟩ => rfl | ⟨2, _⟩ => rfl | ⟨3, _⟩ => rfl

end Indices

/-! ## The stages at an index of head (z, h), as the head's quantities -/

section Stages
variable (x0 x1 x3 x4 x5 : (⟨4, ![2, 8, 1024, 64]⟩ : Shape).Idx → EReal) (z : Fin 2) (h : Fin 8)

/-- q_i · vu_j. -/
theorem v1_at (i j : Fin 1024) :
    val_main_v1 (F := Ideal) x0 x5 (ix4 z h i j) = dot64 (headOf x0 z h i) (headOf x5 z h j) := by
  rw [val_main_v1_apply, dot64]
  refine Finset.sum_congr rfl fun k _ => ?_
  rw [lidx_v1_ix4, ridx_v1_ix4]
  rfl

/-- The causally masked product is t1. -/
theorem v7_at (i j : Fin 1024) :
    val_main_v7 (F := Ideal) x0 x5 (ix4 z h i j) = T1 (headOf x0 z h) (headOf x5 z h) i j := by
  rw [val_main_v7_apply, val_main_call0_v1_apply, idx_call0_v1_ix4, v6_at, select_sge, v1_at,
    val_main_call0_v2_apply, val_main_call0_v0_apply, val_main_cst_apply, Ideal.ofBits_def, Ideal.ofBits_zero_f32]
  rfl

/-- qu_k · ku_j. -/
theorem v8_at (k j : Fin 1024) :
    val_main_v8 (F := Ideal) x3 x4 (ix4 z h k j) = dot64 (headOf x3 z h k) (headOf x4 z h j) := by
  rw [val_main_v8_apply, dot64]
  refine Finset.sum_congr rfl fun c _ => ?_
  rw [lidx_v8_ix4, ridx_v8_ix4]
  rfl

/-- 1 / (1 + e^(−x)) with the program's constant 1 is the logistic function of x = qu_k · ku_j. -/
theorem v14_at (k j : Fin 1024) :
    val_main_v14 (F := Ideal) x3 x4 (ix4 z h k j) = Ideal.logistic (dot64 (headOf x3 z h k) (headOf x4 z h j)) := by
  rw [val_main_v14_apply, val_main_v13_apply, val_main_cst_1_apply, val_main_v12_apply, val_main_v11_apply,
    val_main_cst_0_apply, val_main_v10_apply, val_main_v9_apply, v8_at]
  simp only [Ideal.hostDivf_def, Ideal.addf_def, Ideal.hostUnary_exp_def, Ideal.hostNegf_def, Ideal.negf_def,
    Ideal.ofBits_def, ofBits_one_f32]
  rfl

/-- The look-ahead-masked gate is la. -/
theorem v20_at (k j : Fin 1024) :
    val_main_v20 (F := Ideal) x3 x4 (ix4 z h k j) = LA (headOf x3 z h) (headOf x4 z h) k j := by
  rw [val_main_v20_apply, val_main_call1_v1_apply, idx_call1_v1_ix4, v19_at, select_sgt, v14_at,
    val_main_call1_v2_apply, val_main_call1_v0_apply, val_main_cst_2_apply, Ideal.ofBits_def, Ideal.ofBits_zero_f32]
  rfl

/-- The contraction of t1 with la over every position is su. -/
theorem v21_at (i k : Fin 1024) :
    val_main_v21 (F := Ideal) x0 x3 x4 x5 (ix4 z h i k)
      = SU (headOf x0 z h) (headOf x5 z h) (headOf x3 z h) (headOf x4 z h) i k := by
  rw [val_main_v21_apply, SU]
  refine Finset.sum_congr rfl fun j _ => ?_
  rw [lidx_v21_ix4, ridx_v21_ix4, v7_at, v20_at]

/-- q_i · k_k. -/
theorem v22_at (i k : Fin 1024) :
    val_main_v22 (F := Ideal) x0 x1 (ix4 z h i k) = dot64 (headOf x0 z h i) (headOf x1 z h k) := by
  rw [val_main_v22_apply, dot64]
  refine Finset.sum_congr rfl fun c _ => ?_
  rw [lidx_v22_ix4, ridx_v22_ix4]
  rfl

/-- q_i · k_k − su · σ (su), σ spelt 1 / (1 + e^(−su)) with the program's constant 1. -/
theorem v30_at (i k : Fin 1024) :
    val_main_v30 (F := Ideal) x0 x1 x3 x4 x5 (ix4 z h i k)
      = dot64 (headOf x0 z h i) (headOf x1 z h k)
        - SU (headOf x0 z h) (headOf x5 z h) (headOf x3 z h) (headOf x4 z h) i k
          * Ideal.logistic (SU (headOf x0 z h) (headOf x5 z h) (headOf x3 z h) (headOf x4 z h) i k) := by
  rw [val_main_v30_apply, val_main_v29_apply, val_main_v28_apply, val_main_v27_apply, val_main_cst_4_apply,
    val_main_v26_apply, val_main_v25_apply, val_main_cst_3_apply, val_main_v24_apply, val_main_v23_apply,
    v21_at, v22_at]
  simp only [Ideal.subf_def, Ideal.mulf_def, Ideal.hostDivf_def, Ideal.addf_def, Ideal.hostUnary_exp_def,
    Ideal.hostNegf_def, Ideal.negf_def, Ideal.ofBits_def, ofBits_one_f32]
  rfl

/-- The causally masked score is sc. -/
theorem v36_at (i k : Fin 1024) :
    val_main_v36 (F := Ideal) x0 x1 x3 x4 x5 (ix4 z h i k)
      = SC (headOf x0 z h) (headOf x1 z h) (headOf x5 z h) (headOf x3 z h) (headOf x4 z h) i k := by
  rw [val_main_v36_apply, val_main_call2_v1_apply, idx_call2_v1_ix4, v35_at, select_sge, v30_at,
    val_main_call2_v2_apply, val_main_call2_v0_apply, val_main_cst_5_apply, Ideal.ofBits_def, ofBits_neg_inf_f32]
  rfl

end Stages

section Softmax
variable (x0 x1 x3 x4 x5 : (⟨4, ![2, 8, 1024, 64]⟩ : Shape).Idx → EReal) (z : Fin 2) (h : Fin 8)

/-- The row maximum, the fold of max from −∞ over the 1024 key positions, is m. -/
theorem v37_at (i : Fin 1024) :
    val_main_v37 (F := Ideal) x0 x1 x3 x4 x5 (ix3 z h i)
      = MX (headOf x0 z h) (headOf x1 z h) (headOf x5 z h) (headOf x3 z h) (headOf x4 z h) i := by
  have hr : S2x8x1024x1024.Reduces [3] S2x8x1024 := by decide
  unfold val_main_v37
  refine (Host.reduce_eq_fold_single (FloatOps.maximumf (F := Ideal) (φ := .f32)) _ _
    reducesTo_S2x8x1024x1024_S2x8x1024_d3 hr h_S_ (ix3 z h i)).trans ?_
  rw [val_main_cst_6_apply, Ideal.ofBits_def, ofBits_neg_inf_f32, MX]
  exact Finset.fold_congr fun k _ => (congrArg _ (lift_ix3 z h hr i k)).trans (v36_at x0 x1 x3 x4 x5 z h i k)

/-- max (−∞, m) = m. -/
theorem v39_at (i : Fin 1024) :
    val_main_v39 (F := Ideal) x0 x1 x3 x4 x5 (ix3 z h i)
      = MX (headOf x0 z h) (headOf x1 z h) (headOf x5 z h) (headOf x3 z h) (headOf x4 z h) i := by
  rw [val_main_v39_apply, val_main_v38_apply, val_main_cst_7_apply, v37_at, Ideal.maximumf_def, Ideal.ofBits_def,
    ofBits_neg_inf_f32]
  exact max_eq_right bot_le

/-- The row maximum spread back along the key axis. -/
theorem v41_at (i k : Fin 1024) :
    val_main_v41 (F := Ideal) x0 x1 x3 x4 x5 (ix4 z h i k)
      = MX (headOf x0 z h) (headOf x1 z h) (headOf x5 z h) (headOf x3 z h) (headOf x4 z h) i := by
  rw [val_main_v41_apply, idx_v41_ix4, val_main_v40_apply, idx_v40_ix4, v39_at]

/-- e^(sc − m) is the unnormalised weight. -/
theorem v43_at (i k : Fin 1024) :
    val_main_v43 (F := Ideal) x0 x1 x3 x4 x5 (ix4 z h i k)
      = PU (headOf x0 z h) (headOf x1 z h) (headOf x5 z h) (headOf x3 z h) (headOf x4 z h) i k := by
  rw [val_main_v43_apply, val_main_v42_apply, v36_at, v41_at, Ideal.hostUnary_exp_def, Ideal.subf_def, PU]

/-- 0 plus the sum of the weights over the key positions is the normaliser l. -/
theorem v44_at (i : Fin 1024) :
    val_main_v44 (F := Ideal) x0 x1 x3 x4 x5 (ix3 z h i)
      = LS (headOf x0 z h) (headOf x1 z h) (headOf x5 z h) (headOf x3 z h) (headOf x4 z h) i := by
  rw [val_main_v44_apply, val_main_cst_8_apply, Ideal.ofBits_def, Ideal.ofBits_zero_f32, zero_add, LS]
  refine Finset.sum_congr rfl fun k _ => ?_
  rw [idx_v44_ix3, v43_at]

/-- The normaliser spread back along the key axis. -/
theorem v46_at (i k : Fin 1024) :
    val_main_v46 (F := Ideal) x0 x1 x3 x4 x5 (ix4 z h i k)
      = LS (headOf x0 z h) (headOf x1 z h) (headOf x5 z h) (headOf x3 z h) (headOf x4 z h) i := by
  rw [val_main_v46_apply, idx_v46_ix4, val_main_v45_apply, idx_v45_ix4, v44_at]

/-- The softmax weight: e^(sc − m) divided by l. -/
theorem v47_at (i k : Fin 1024) :
    val_main_v47 (F := Ideal) x0 x1 x3 x4 x5 (ix4 z h i k)
      = Ideal.div (PU (headOf x0 z h) (headOf x1 z h) (headOf x5 z h) (headOf x3 z h) (headOf x4 z h) i k)
          (LS (headOf x0 z h) (headOf x1 z h) (headOf x5 z h) (headOf x3 z h) (headOf x4 z h) i) := by
  rw [val_main_v47_apply, v43_at, v46_at, Ideal.hostDivf_def]

end Softmax

/-- The reference's result at (z, h, i, d) is `OUT` of head (z, h) of the six arguments, at (i, d).
    Arguments in the program's order: x0 = q, x1 = k, x2 = v, x3 = qu, x4 = ku, x5 = vu. -/
theorem ref_eq_OUT (x0 x1 x2 x3 x4 x5 : (⟨4, ![2, 8, 1024, 64]⟩ : Shape).Idx → EReal)
    (z : Fin 2) (h : Fin 8) (i : Fin 1024) (d : Fin 64) :
    Cert.ReferenceIdeal.Read.val_main_v48 (F := Ideal) x0 x1 x2 x3 x4 x5 (ix4 z h i d)
      = OUT (headOf x0 z h) (headOf x1 z h) (headOf x2 z h) (headOf x3 z h) (headOf x4 z h) (headOf x5 z h) i d := by
  rw [val_main_v48_apply, OUT]
  refine Finset.sum_congr rfl fun k _ => ?_
  rw [lidx_v48_ix4, ridx_v48_ix4, v47_at]
  rfl

end Cert.RefSpec

end
-- ==== Proof.RefRun.lean ====
/-
  The reference program's run, read back one operation at a time.

  @main of the reference is a straight line of 68 host operations, each writing one buffer as a pure function of
  buffers written before it. So after the run every buffer holds its stage — the operation's function applied to
  the stages of its operands — and the arguments, which no operation writes, hold what they were launched with. The
  result buffer's stage is `val_main_v48` of the six arguments.

  The line is read in seven consecutive pieces. A piece reads, of what came before it, only a few buffers (at most
  three, besides the arguments): from ANY contents that hold the right stages at those buffers, the piece leaves the
  stage of its last operation at the buffer that operation writes, and changes no buffer but the ones its own operations
  write. Chaining the seven pieces from the launch contents gives the result buffer its stage; no piece writes an
  argument.
-/
import proofs.«415080_j88252987998455_3_alg».proof.Proof.RefRead
import Idealize.ShloMosaic.Lib.StableHlo.Run

noncomputable section

namespace Cert.RefRun

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-! ## The operations, in seven pieces

With `q k v qu ku vu` for the six arguments (`main_arg0 … main_arg5`), `i` for a row and `j` for a column of a
`1024 × 1024` array; a called function's operations stand in its call's place, spelt `TRef.…`. -/

/-- Operations 1–12: the index row `0 … 1023`, the product `q · vuᵀ`, the comparison `i ≥ j` broadcast to the batch,
    and the select that keeps the product where `j ≤ i` and puts `0` elsewhere (`main_v7`). -/
abbrev opsA : List (HloOp τ sig (Elt F)) :=
  [ nullary main_v0 (iotaInDim S1024 32 0),
    binary main_arg0 main_arg5 main_v1 ((fun l r => Host.dotGeneral dot_S2x8x1024x64_S2x8x1024x64_S2x8x1024x1024_3_3_2_2_01_01 none l r) : (⟨S2x8x1024x64, .f32⟩ : BufTy).Contents (Elt F) → (⟨S2x8x1024x64, .f32⟩ : BufTy).Contents (Elt F) → (⟨S2x8x1024x1024, .f32⟩ : BufTy).Contents (Elt F)),
    unary main_v0 main_v2 (broadcastInDim S1024x1 ![0] bcast_S1024_S1024x1_0 : (⟨S1024, .i32⟩ : BufTy).Contents (Elt F) → (⟨S1024x1, .i32⟩ : BufTy).Contents (Elt F)),
    unary main_v0 main_v3 (broadcastInDim S1x1024 ![1] bcast_S1024_S1x1024_1 : (⟨S1024, .i32⟩ : BufTy).Contents (Elt F) → (⟨S1x1024, .i32⟩ : BufTy).Contents (Elt F)),
    unary main_v2 main_v4 (broadcastInDim S1024x1024 ![0, 1] bcast_S1024x1_S1024x1024_0_1 : (⟨S1024x1, .i32⟩ : BufTy).Contents (Elt F) → (⟨S1024x1024, .i32⟩ : BufTy).Contents (Elt F)),
    unary main_v3 main_v5 (broadcastInDim S1024x1024 ![0, 1] bcast_S1x1024_S1024x1024_0_1 : (⟨S1x1024, .i32⟩ : BufTy).Contents (Elt F) → (⟨S1024x1024, .i32⟩ : BufTy).Contents (Elt F)),
    binary main_v4 main_v5 main_v6 (cmpi .sge : (⟨S1024x1024, .i32⟩ : BufTy).Contents (Elt F) → (⟨S1024x1024, .i32⟩ : BufTy).Contents (Elt F) → (⟨S1024x1024, .i1⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S1024x1024, .i1⟩) main_v6) (TRef.of (T := ⟨S2x8x1024x1024, .i1⟩) main_call0_v1) (broadcastInDim S2x8x1024x1024 ![2, 3] bcast_S1024x1024_S2x8x1024x1024_2_3),
    TRef.unary (TRef.of (T := ⟨S_, .f32⟩) main_call0_v0) (TRef.of (T := ⟨S2x8x1024x1024, .f32⟩) main_call0_v2) (broadcastInDim S2x8x1024x1024 ![] bcast_S_S2x8x1024x1024),
    TRef.ternary (TRef.of (T := ⟨S2x8x1024x1024, .i1⟩) main_call0_v1) (TRef.of (T := ⟨S2x8x1024x1024, .f32⟩) main_v1) (TRef.of (T := ⟨S2x8x1024x1024, .f32⟩) main_call0_v2) (TRef.of (T := ⟨S2x8x1024x1024, .f32⟩) main_v7) select ]

/-- Operations 13–21: the product `qu · kuᵀ` and its logistic function `1 / (1 + exp (-·))` (`main_v14`). -/
abbrev opsB : List (HloOp τ sig (Elt F)) :=
  [ binary main_arg3 main_arg4 main_v8 ((fun l r => Host.dotGeneral dot_S2x8x1024x64_S2x8x1024x64_S2x8x1024x1024_3_3_2_2_01_01 none l r) : (⟨S2x8x1024x64, .f32⟩ : BufTy).Contents (Elt F) → (⟨S2x8x1024x64, .f32⟩ : BufTy).Contents (Elt F) → (⟨S2x8x1024x1024, .f32⟩ : BufTy).Contents (Elt F)),
    unary main_v8 main_v9 (Host.negf : (⟨S2x8x1024x1024, .f32⟩ : BufTy).Contents (Elt F) → (⟨S2x8x1024x1024, .f32⟩ : BufTy).Contents (Elt F)),
    unary main_v9 main_v10 (Host.exp : (⟨S2x8x1024x1024, .f32⟩ : BufTy).Contents (Elt F) → (⟨S2x8x1024x1024, .f32⟩ : BufTy).Contents (Elt F)),
    nullary main_cst_0 (constant S_ .f32 0x3F800000#32),
    unary main_cst_0 main_v11 (broadcastInDim S2x8x1024x1024 ![] bcast_S_S2x8x1024x1024 : (⟨S_, .f32⟩ : BufTy).Contents (Elt F) → (⟨S2x8x1024x1024, .f32⟩ : BufTy).Contents (Elt F)),
    binary main_v11 main_v10 main_v12 (addf : (⟨S2x8x1024x1024, .f32⟩ : BufTy).Contents (Elt F) → (⟨S2x8x1024x1024, .f32⟩ : BufTy).Contents (Elt F) → (⟨S2x8x1024x1024, .f32⟩ : BufTy).Contents (Elt F)),
    nullary main_cst_1 (constant S_ .f32 0x3F800000#32),
    unary main_cst_1 main_v13 (broadcastInDim S2x8x1024x1024 ![] bcast_S_S2x8x1024x1024 : (⟨S_, .f32⟩ : BufTy).Contents (Elt F) → (⟨S2x8x1024x1024, .f32⟩ : BufTy).Contents (Elt F)),
    binary main_v13 main_v12 main_v14 (Host.divf : (⟨S2x8x1024x1024, .f32⟩ : BufTy).Contents (Elt F) → (⟨S2x8x1024x1024, .f32⟩ : BufTy).Contents (Elt F) → (⟨S2x8x1024x1024, .f32⟩ : BufTy).Contents (Elt F)) ]

/-- Operations 22–32: the comparison `j > i`, the select that keeps the logistic values where `j > i` and puts `0`
    elsewhere (`main_v20`), and the contraction of the two masked arrays over their last axis (`main_v21`). -/
abbrev opsC : List (HloOp τ sig (Elt F)) :=
  [ unary main_v0 main_v15 (broadcastInDim S1x1024 ![1] bcast_S1024_S1x1024_1 : (⟨S1024, .i32⟩ : BufTy).Contents (Elt F) → (⟨S1x1024, .i32⟩ : BufTy).Contents (Elt F)),
    unary main_v0 main_v16 (broadcastInDim S1024x1 ![0] bcast_S1024_S1024x1_0 : (⟨S1024, .i32⟩ : BufTy).Contents (Elt F) → (⟨S1024x1, .i32⟩ : BufTy).Contents (Elt F)),
    unary main_v15 main_v17 (broadcastInDim S1024x1024 ![0, 1] bcast_S1x1024_S1024x1024_0_1 : (⟨S1x1024, .i32⟩ : BufTy).Contents (Elt F) → (⟨S1024x1024, .i32⟩ : BufTy).Contents (Elt F)),
    unary main_v16 main_v18 (broadcastInDim S1024x1024 ![0, 1] bcast_S1024x1_S1024x1024_0_1 : (⟨S1024x1, .i32⟩ : BufTy).Contents (Elt F) → (⟨S1024x1024, .i32⟩ : BufTy).Contents (Elt F)),
    binary main_v17 main_v18 main_v19 (cmpi .sgt : (⟨S1024x1024, .i32⟩ : BufTy).Contents (Elt F) → (⟨S1024x1024, .i32⟩ : BufTy).Contents (Elt F) → (⟨S1024x1024, .i1⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S1024x1024, .i1⟩) main_v19) (TRef.of (T := ⟨S2x8x1024x1024, .i1⟩) main_call1_v1) (broadcastInDim S2x8x1024x1024 ![2, 3] bcast_S1024x1024_S2x8x1024x1024_2_3),
    TRef.unary (TRef.of (T := ⟨S_, .f32⟩) main_call1_v0) (TRef.of (T := ⟨S2x8x1024x1024, .f32⟩) main_call1_v2) (broadcastInDim S2x8x1024x1024 ![] bcast_S_S2x8x1024x1024),
    TRef.ternary (TRef.of (T := ⟨S2x8x1024x1024, .i1⟩) main_call1_v1) (TRef.of (T := ⟨S2x8x1024x1024, .f32⟩) main_v14) (TRef.of (T := ⟨S2x8x1024x1024, .f32⟩) main_call1_v2) (TRef.of (T := ⟨S2x8x1024x1024, .f32⟩) main_v20) select,
    binary main_v7 main_v20 main_v21 ((fun l r => Host.dotGeneral dot_S2x8x1024x1024_S2x8x1024x1024_S2x8x1024x1024_3_3_2_2_01_01 none l r) : (⟨S2x8x1024x1024, .f32⟩ : BufTy).Contents (Elt F) → (⟨S2x8x1024x1024, .f32⟩ : BufTy).Contents (Elt F) → (⟨S2x8x1024x1024, .f32⟩ : BufTy).Contents (Elt F)) ]

/-- Operations 33–43: the product `q · kᵀ`, the logistic function of the contraction `s` (`main_v21`), and the
    difference `q · kᵀ - s * logistic s` (`main_v30`). -/
abbrev opsD : List (HloOp τ sig (Elt F)) :=
  [ binary main_arg0 main_arg1 main_v22 ((fun l r => Host.dotGeneral dot_S2x8x1024x64_S2x8x1024x64_S2x8x1024x1024_3_3_2_2_01_01 none l r) : (⟨S2x8x1024x64, .f32⟩ : BufTy).Contents (Elt F) → (⟨S2x8x1024x64, .f32⟩ : BufTy).Contents (Elt F) → (⟨S2x8x1024x1024, .f32⟩ : BufTy).Contents (Elt F)),
    unary main_v21 main_v23 (Host.negf : (⟨S2x8x1024x1024, .f32⟩ : BufTy).Contents (Elt F) → (⟨S2x8x1024x1024, .f32⟩ : BufTy).Contents (Elt F)),
    unary main_v23 main_v24 (Host.exp : (⟨S2x8x1024x1024, .f32⟩ : BufTy).Contents (Elt F) → (⟨S2x8x1024x1024, .f32⟩ : BufTy).Contents (Elt F)),
    nullary main_cst_3 (constant S_ .f32 0x3F800000#32),
    unary main_cst_3 main_v25 (broadcastInDim S2x8x1024x1024 ![] bcast_S_S2x8x1024x1024 : (⟨S_, .f32⟩ : BufTy).Contents (Elt F) → (⟨S2x8x1024x1024, .f32⟩ : BufTy).Contents (Elt F)),
    binary main_v25 main_v24 main_v26 (addf : (⟨S2x8x1024x1024, .f32⟩ : BufTy).Contents (Elt F) → (⟨S2x8x1024x1024, .f32⟩ : BufTy).Contents (Elt F) → (⟨S2x8x1024x1024, .f32⟩ : BufTy).Contents (Elt F)),
    nullary main_cst_4 (constant S_ .f32 0x3F800000#32),
    unary main_cst_4 main_v27 (broadcastInDim S2x8x1024x1024 ![] bcast_S_S2x8x1024x1024 : (⟨S_, .f32⟩ : BufTy).Contents (Elt F) → (⟨S2x8x1024x1024, .f32⟩ : BufTy).Contents (Elt F)),
    binary main_v27 main_v26 main_v28 (Host.divf : (⟨S2x8x1024x1024, .f32⟩ : BufTy).Contents (Elt F) → (⟨S2x8x1024x1024, .f32⟩ : BufTy).Contents (Elt F) → (⟨S2x8x1024x1024, .f32⟩ : BufTy).Contents (Elt F)),
    binary main_v21 main_v28 main_v29 (mulf : (⟨S2x8x1024x1024, .f32⟩ : BufTy).Contents (Elt F) → (⟨S2x8x1024x1024, .f32⟩ : BufTy).Contents (Elt F) → (⟨S2x8x1024x1024, .f32⟩ : BufTy).Contents (Elt F)),
    binary main_v22 main_v29 main_v30 (subf : (⟨S2x8x1024x1024, .f32⟩ : BufTy).Contents (Elt F) → (⟨S2x8x1024x1024, .f32⟩ : BufTy).Contents (Elt F) → (⟨S2x8x1024x1024, .f32⟩ : BufTy).Contents (Elt F)) ]

/-- Operations 44–53: the comparison `i ≥ j` again and the select that keeps the difference where `j ≤ i` and puts
    `-∞` elsewhere (`main_v36`). -/
abbrev opsE : List (HloOp τ sig (Elt F)) :=
  [ unary main_v0 main_v31 (broadcastInDim S1024x1 ![0] bcast_S1024_S1024x1_0 : (⟨S1024, .i32⟩ : BufTy).Contents (Elt F) → (⟨S1024x1, .i32⟩ : BufTy).Contents (Elt F)),
    unary main_v0 main_v32 (broadcastInDim S1x1024 ![1] bcast_S1024_S1x1024_1 : (⟨S1024, .i32⟩ : BufTy).Contents (Elt F) → (⟨S1x1024, .i32⟩ : BufTy).Contents (Elt F)),
    unary main_v31 main_v33 (broadcastInDim S1024x1024 ![0, 1] bcast_S1024x1_S1024x1024_0_1 : (⟨S1024x1, .i32⟩ : BufTy).Contents (Elt F) → (⟨S1024x1024, .i32⟩ : BufTy).Contents (Elt F)),
    unary main_v32 main_v34 (broadcastInDim S1024x1024 ![0, 1] bcast_S1x1024_S1024x1024_0_1 : (⟨S1x1024, .i32⟩ : BufTy).Contents (Elt F) → (⟨S1024x1024, .i32⟩ : BufTy).Contents (Elt F)),
    binary main_v33 main_v34 main_v35 (cmpi .sge : (⟨S1024x1024, .i32⟩ : BufTy).Contents (Elt F) → (⟨S1024x1024, .i32⟩ : BufTy).Contents (Elt F) → (⟨S1024x1024, .i1⟩ : BufTy).Contents (Elt F)),
    nullary main_cst_5 (constant S_ .f32 0xFF800000#32),
    TRef.unary (TRef.of (T := ⟨S_, .f32⟩) main_cst_5) (TRef.of (T := ⟨S_, .f32⟩) main_call2_v0) id,
    TRef.unary (TRef.of (T := ⟨S1024x1024, .i1⟩) main_v35) (TRef.of (T := ⟨S2x8x1024x1024, .i1⟩) main_call2_v1) (broadcastInDim S2x8x1024x1024 ![2, 3] bcast_S1024x1024_S2x8x1024x1024_2_3),
    TRef.unary (TRef.of (T := ⟨S_, .f32⟩) main_call2_v0) (TRef.of (T := ⟨S2x8x1024x1024, .f32⟩) main_call2_v2) (broadcastInDim S2x8x1024x1024 ![] bcast_S_S2x8x1024x1024),
    TRef.ternary (TRef.of (T := ⟨S2x8x1024x1024, .i1⟩) main_call2_v1) (TRef.of (T := ⟨S2x8x1024x1024, .f32⟩) main_v30) (TRef.of (T := ⟨S2x8x1024x1024, .f32⟩) main_call2_v2) (TRef.of (T := ⟨S2x8x1024x1024, .f32⟩) main_v36) select ]

/-- Operations 54–62: the maximum along the last axis, the array less its row maximum, and the exponential of that
    (`main_v43`). -/
abbrev opsF : List (HloOp τ sig (Elt F)) :=
  [ nullary main_cst_6 (constant S_ .f32 0xFF800000#32),
    binary main_v36 main_cst_6 main_v37 ((fun x v => Host.reduce FloatOps.maximumf x v reducesTo_S2x8x1024x1024_S2x8x1024_d3 h_S_) : (⟨S2x8x1024x1024, .f32⟩ : BufTy).Contents (Elt F) → (⟨S_, .f32⟩ : BufTy).Contents (Elt F) → (⟨S2x8x1024, .f32⟩ : BufTy).Contents (Elt F)),
    nullary main_cst_7 (constant S_ .f32 0xFF800000#32),
    unary main_cst_7 main_v38 (broadcastInDim S2x8x1024 ![] bcast_S_S2x8x1024 : (⟨S_, .f32⟩ : BufTy).Contents (Elt F) → (⟨S2x8x1024, .f32⟩ : BufTy).Contents (Elt F)),
    binary main_v38 main_v37 main_v39 (maximumf : (⟨S2x8x1024, .f32⟩ : BufTy).Contents (Elt F) → (⟨S2x8x1024, .f32⟩ : BufTy).Contents (Elt F) → (⟨S2x8x1024, .f32⟩ : BufTy).Contents (Elt F)),
    unary main_v39 main_v40 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F)),
    unary main_v40 main_v41 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F)),
    binary main_v36 main_v41 main_v42 (subf : (⟨S2x8x1024x1024, .f32⟩ : BufTy).Contents (Elt F) → (⟨S2x8x1024x1024, .f32⟩ : BufTy).Contents (Elt F) → (⟨S2x8x1024x1024, .f32⟩ : BufTy).Contents (Elt F)),
    unary main_v42 main_v43 (Host.exp : (⟨S2x8x1024x1024, .f32⟩ : BufTy).Contents (Elt F) → (⟨S2x8x1024x1024, .f32⟩ : BufTy).Contents (Elt F)) ]

/-- Operations 63–68: the sum along the last axis, the quotient by it, and the product with `v` (`main_v48`). -/
abbrev opsG : List (HloOp τ sig (Elt F)) :=
  [ nullary main_cst_8 (constant S_ .f32 0x00000000#32),
    binary main_v43 main_cst_8 main_v44 ((fun x v => Host.reduceAdd x v reducesTo_S2x8x1024x1024_S2x8x1024_d3 h_S_) : (⟨S2x8x1024x1024, .f32⟩ : BufTy).Contents (Elt F) → (⟨S_, .f32⟩ : BufTy).Contents (Elt F) → (⟨S2x8x1024, .f32⟩ : BufTy).Contents (Elt F)),
    unary main_v44 main_v45 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F)),
    unary main_v45 main_v46 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F)),
    binary main_v43 main_v46 main_v47 (Host.divf : (⟨S2x8x1024x1024, .f32⟩ : BufTy).Contents (Elt F) → (⟨S2x8x1024x1024, .f32⟩ : BufTy).Contents (Elt F) → (⟨S2x8x1024x1024, .f32⟩ : BufTy).Contents (Elt F)),
    binary main_v47 main_arg2 main_v48 ((fun l r => Host.dotGeneral dot_S2x8x1024x1024_S2x8x1024x64_S2x8x1024x64_3_2_2_3_01_01 none l r) : (⟨S2x8x1024x1024, .f32⟩ : BufTy).Contents (Elt F) → (⟨S2x8x1024x64, .f32⟩ : BufTy).Contents (Elt F) → (⟨S2x8x1024x64, .f32⟩ : BufTy).Contents (Elt F)) ]

/-- @main's 68 operations, in order. -/
abbrev ops : List (HloOp τ sig (Elt F)) :=
  opsA ++ (opsB ++ (opsC ++ (opsD ++ (opsE ++ (opsF ++ opsG)))))

-- sixty-eight binds re-associated: the rewrite under the chain recurses once per operation
set_option maxRecDepth 8192 in
/-- @main is that straight line: the called function unfolded at its three calls, both sides are one chain of
    `hlo` steps once sequencing is re-associated (`bind_assoc`, `pure_bind`; `seq_append` for the pieces). -/
theorem main_eq (c : Dev nD) : main (F := F) c = seq ops := by
  simp only [main, fn_where.body, ops, opsA, opsB, opsC, opsD, opsE, opsF, opsG, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## What the operations touch -/

theorem subA : (opsA : List (HloOp τ sig (Elt F))).Forall fun op => op.bufs ⊆ tcRefs τ sig :=
  ⟨nullary_bufs_sub .., binary_bufs_sub .., unary_bufs_sub .., unary_bufs_sub .., unary_bufs_sub .., unary_bufs_sub .., binary_bufs_sub .., nullary_bufs_sub .., unary_bufs_sub .., unary_bufs_sub .., unary_bufs_sub .., ternary_bufs_sub ..⟩
theorem subB : (opsB : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub ..⟩
theorem subC : (opsC : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub .., binary_bufs_sub ..⟩
theorem subD : (opsD : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem subE : (opsE : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., ternary_bufs_sub ..⟩
theorem subF : (opsF : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub ..⟩
theorem subG : (opsG : List (HloOp τ sig (Elt F))).Forall fun op => op.bufs ⊆ tcRefs τ sig :=
  ⟨nullary_bufs_sub .., binary_bufs_sub .., unary_bufs_sub .., unary_bufs_sub .., binary_bufs_sub .., binary_bufs_sub ..⟩

/-- Every operation touches TensorCore references only. -/
theorem ops_sub : (ops : List (HloOp τ sig (Elt F))).Forall fun op => op.bufs ⊆ tcRefs τ sig :=
  List.forall_append.2 ⟨subA, List.forall_append.2 ⟨subB, List.forall_append.2 ⟨subC, List.forall_append.2 ⟨subD,
    List.forall_append.2 ⟨subE, List.forall_append.2 ⟨subF, subG⟩⟩⟩⟩⟩⟩

theorem freshA : (opsA : List (HloOp τ sig (Elt F))).Forall fun op => op.fresh = ∅ :=
  ⟨rfl, rfl, rfl, rfl, rfl, rfl, rfl, rfl, rfl, rfl, rfl, rfl⟩
theorem freshB : (opsB : List (HloOp τ sig (Elt F))).Forall fun op => op.fresh = ∅ :=
  ⟨rfl, rfl, rfl, rfl, rfl, rfl, rfl, rfl, rfl⟩
theorem freshC : (opsC : List (HloOp τ sig (Elt F))).Forall fun op => op.fresh = ∅ :=
  ⟨rfl, rfl, rfl, rfl, rfl, rfl, rfl, rfl, rfl, rfl, rfl⟩
theorem freshD : (opsD : List (HloOp τ sig (Elt F))).Forall fun op => op.fresh = ∅ :=
  ⟨rfl, rfl, rfl, rfl, rfl, rfl, rfl, rfl, rfl, rfl, rfl⟩
theorem freshE : (opsE : List (HloOp τ sig (Elt F))).Forall fun op => op.fresh = ∅ :=
  ⟨rfl, rfl, rfl, rfl, rfl, rfl, rfl, rfl, rfl, rfl⟩
theorem freshF : (opsF : List (HloOp τ sig (Elt F))).Forall fun op => op.fresh = ∅ :=
  ⟨rfl, rfl, rfl, rfl, rfl, rfl, rfl, rfl, rfl⟩
theorem freshG : (opsG : List (HloOp τ sig (Elt F))).Forall fun op => op.fresh = ∅ :=
  ⟨rfl, rfl, rfl, rfl, rfl, rfl⟩

/-- Every operation determines what it writes (none allocates). -/
theorem ops_fresh : ∀ op ∈ (ops : List (HloOp τ sig (Elt F))), op.fresh = ∅ :=
  List.forall_iff_forall_mem.1 (List.forall_append.2 ⟨freshA, List.forall_append.2 ⟨freshB, List.forall_append.2 ⟨freshC,
    List.forall_append.2 ⟨freshD, List.forall_append.2 ⟨freshE, List.forall_append.2 ⟨freshF, freshG⟩⟩⟩⟩⟩⟩)

/-! ## A piece changes only the buffers it writes -/

/-- A reference of a list, as a device buffer, is in the list's set of device buffers. -/
theorem writes_sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.2 (List.mem_toFinset.2 (List.mem_map_of_mem h))

/-- The buffers piece A writes, in order. -/
abbrev writesA : List (Ref sig .tc) :=
  [main_v0, main_v1, main_v2, main_v3, main_v4, main_v5, main_v6, main_cst, main_call0_v0, main_call0_v1, main_call0_v2, main_v7]
theorem frameA (W : Valuation τ sig (Elt F)) {r : Ref sig .tc} (hr : r ∉ writesA) :
    after opsA W (r : DevRef τ sig) = W (r : DevRef τ sig) :=
  after_of_writes_sub opsA W
    ⟨writes_sub_of_mem (y := main_v0) (by decide),
     writes_sub_of_mem (y := main_v1) (by decide),
     writes_sub_of_mem (y := main_v2) (by decide),
     writes_sub_of_mem (y := main_v3) (by decide),
     writes_sub_of_mem (y := main_v4) (by decide),
     writes_sub_of_mem (y := main_v5) (by decide),
     writes_sub_of_mem (y := main_v6) (by decide),
     writes_sub_of_mem (y := main_cst) (by decide),
     writes_sub_of_mem (y := main_call0_v0) (by decide),
     writes_sub_of_mem (y := main_call0_v1) (by decide),
     writes_sub_of_mem (y := main_call0_v2) (by decide),
     writes_sub_of_mem (y := main_v7) (by decide)⟩ hr

/-- The buffers piece B writes, in order. -/
abbrev writesB : List (Ref sig .tc) :=
  [main_v8, main_v9, main_v10, main_cst_0, main_v11, main_v12, main_cst_1, main_v13, main_v14]
theorem frameB (W : Valuation τ sig (Elt F)) {r : Ref sig .tc} (hr : r ∉ writesB) :
    after opsB W (r : DevRef τ sig) = W (r : DevRef τ sig) :=
  after_of_writes_sub opsB W
    ⟨writes_sub_of_mem (y := main_v8) (by decide),
     writes_sub_of_mem (y := main_v9) (by decide),
     writes_sub_of_mem (y := main_v10) (by decide),
     writes_sub_of_mem (y := main_cst_0) (by decide),
     writes_sub_of_mem (y := main_v11) (by decide),
     writes_sub_of_mem (y := main_v12) (by decide),
     writes_sub_of_mem (y := main_cst_1) (by decide),
     writes_sub_of_mem (y := main_v13) (by decide),
     writes_sub_of_mem (y := main_v14) (by decide)⟩ hr

/-- The buffers piece C writes, in order. -/
abbrev writesC : List (Ref sig .tc) :=
  [main_v15, main_v16, main_v17, main_v18, main_v19, main_cst_2, main_call1_v0, main_call1_v1, main_call1_v2, main_v20, main_v21]
theorem frameC (W : Valuation τ sig (Elt F)) {r : Ref sig .tc} (hr : r ∉ writesC) :
    after opsC W (r : DevRef τ sig) = W (r : DevRef τ sig) :=
  after_of_writes_sub opsC W
    ⟨writes_sub_of_mem (y := main_v15) (by decide),
     writes_sub_of_mem (y := main_v16) (by decide),
     writes_sub_of_mem (y := main_v17) (by decide),
     writes_sub_of_mem (y := main_v18) (by decide),
     writes_sub_of_mem (y := main_v19) (by decide),
     writes_sub_of_mem (y := main_cst_2) (by decide),
     writes_sub_of_mem (y := main_call1_v0) (by decide),
     writes_sub_of_mem (y := main_call1_v1) (by decide),
     writes_sub_of_mem (y := main_call1_v2) (by decide),
     writes_sub_of_mem (y := main_v20) (by decide),
     writes_sub_of_mem (y := main_v21) (by decide)⟩ hr

/-- The buffers piece D writes, in order. -/
abbrev writesD : List (Ref sig .tc) :=
  [main_v22, main_v23, main_v24, main_cst_3, main_v25, main_v26, main_cst_4, main_v27, main_v28, main_v29, main_v30]
theorem frameD (W : Valuation τ sig (Elt F)) {r : Ref sig .tc} (hr : r ∉ writesD) :
    after opsD W (r : DevRef τ sig) = W (r : DevRef τ sig) :=
  after_of_writes_sub opsD W
    ⟨writes_sub_of_mem (y := main_v22) (by decide),
     writes_sub_of_mem (y := main_v23) (by decide),
     writes_sub_of_mem (y := main_v24) (by decide),
     writes_sub_of_mem (y := main_cst_3) (by decide),
     writes_sub_of_mem (y := main_v25) (by decide),
     writes_sub_of_mem (y := main_v26) (by decide),
     writes_sub_of_mem (y := main_cst_4) (by decide),
     writes_sub_of_mem (y := main_v27) (by decide),
     writes_sub_of_mem (y := main_v28) (by decide),
     writes_sub_of_mem (y := main_v29) (by decide),
     writes_sub_of_mem (y := main_v30) (by decide)⟩ hr

/-- The buffers piece E writes, in order. -/
abbrev writesE : List (Ref sig .tc) :=
  [main_v31, main_v32, main_v33, main_v34, main_v35, main_cst_5, main_call2_v0, main_call2_v1, main_call2_v2, main_v36]
theorem frameE (W : Valuation τ sig (Elt F)) {r : Ref sig .tc} (hr : r ∉ writesE) :
    after opsE W (r : DevRef τ sig) = W (r : DevRef τ sig) :=
  after_of_writes_sub opsE W
    ⟨writes_sub_of_mem (y := main_v31) (by decide),
     writes_sub_of_mem (y := main_v32) (by decide),
     writes_sub_of_mem (y := main_v33) (by decide),
     writes_sub_of_mem (y := main_v34) (by decide),
     writes_sub_of_mem (y := main_v35) (by decide),
     writes_sub_of_mem (y := main_cst_5) (by decide),
     writes_sub_of_mem (y := main_call2_v0) (by decide),
     writes_sub_of_mem (y := main_call2_v1) (by decide),
     writes_sub_of_mem (y := main_call2_v2) (by decide),
     writes_sub_of_mem (y := main_v36) (by decide)⟩ hr

/-- The buffers piece F writes, in order. -/
abbrev writesF : List (Ref sig .tc) :=
  [main_cst_6, main_v37, main_cst_7, main_v38, main_v39, main_v40, main_v41, main_v42, main_v43]
theorem frameF (W : Valuation τ sig (Elt F)) {r : Ref sig .tc} (hr : r ∉ writesF) :
    after opsF W (r : DevRef τ sig) = W (r : DevRef τ sig) :=
  after_of_writes_sub opsF W
    ⟨writes_sub_of_mem (y := main_cst_6) (by decide),
     writes_sub_of_mem (y := main_v37) (by decide),
     writes_sub_of_mem (y := main_cst_7) (by decide),
     writes_sub_of_mem (y := main_v38) (by decide),
     writes_sub_of_mem (y := main_v39) (by decide),
     writes_sub_of_mem (y := main_v40) (by decide),
     writes_sub_of_mem (y := main_v41) (by decide),
     writes_sub_of_mem (y := main_v42) (by decide),
     writes_sub_of_mem (y := main_v43) (by decide)⟩ hr

/-- The buffers piece G writes, in order. -/
abbrev writesG : List (Ref sig .tc) :=
  [main_cst_8, main_v44, main_v45, main_v46, main_v47, main_v48]
theorem frameG (W : Valuation τ sig (Elt F)) {r : Ref sig .tc} (hr : r ∉ writesG) :
    after opsG W (r : DevRef τ sig) = W (r : DevRef τ sig) :=
  after_of_writes_sub opsG W
    ⟨writes_sub_of_mem (y := main_cst_8) (by decide),
     writes_sub_of_mem (y := main_v44) (by decide),
     writes_sub_of_mem (y := main_v45) (by decide),
     writes_sub_of_mem (y := main_v46) (by decide),
     writes_sub_of_mem (y := main_v47) (by decide),
     writes_sub_of_mem (y := main_v48) (by decide)⟩ hr

/-! ## Each piece leaves the stage of its last operation

Stated for any contents `W` that hold the stages the piece reads (as hypotheses), over arbitrary values `x0 … x5`
of the arguments: the piece's operations are read back one at a time (`*_result` at the buffer an operation writes,
`*_result_ne` at any other), the hypotheses give the stages read, and what is left is the definition of the stage,
unfolded once per operation of the piece. -/

/-- What an argument's buffer holds: a `2 × 8 × 1024 × 64` array of floats. -/
abbrev Arg (F : FTy → Type) : Type := (⟨S2x8x1024x64, .f32⟩ : BufTy).Contents (Elt F)

/-- Piece A leaves the index row at `main_v0`. -/
theorem stageA_v0 (W : Valuation τ sig (Elt F)) :
    after opsA W (main_v0 : DevRef τ sig) = val_main_v0 := by
  after_results
  rfl

/-- Piece A leaves `q · vuᵀ` masked to `j ≤ i` at `main_v7`. -/
theorem stageA_v7 (W : Valuation τ sig (Elt F)) (x0 x5 : Arg F)
    (h0 : W (main_arg0 : DevRef τ sig) = x0) (h5 : W (main_arg5 : DevRef τ sig) = x5) :
    after opsA W (main_v7 : DevRef τ sig) = val_main_v7 x0 x5 := by
  subst h0 h5
  after_results
  simp only [TRef.ofBuf, TRef.toBuf, cast_eq]
  rfl

/-- Piece B leaves the logistic function of `qu · kuᵀ` at `main_v14`. -/
theorem stageB (W : Valuation τ sig (Elt F)) (x3 x4 : Arg F)
    (h3 : W (main_arg3 : DevRef τ sig) = x3) (h4 : W (main_arg4 : DevRef τ sig) = x4) :
    after opsB W (main_v14 : DevRef τ sig) = val_main_v14 x3 x4 := by
  subst h3 h4
  after_results
  rfl

/-- Piece C leaves the contraction of the two masked arrays at `main_v21`. -/
theorem stageC (W : Valuation τ sig (Elt F)) (x0 x3 x4 x5 : Arg F)
    (hv0 : W (main_v0 : DevRef τ sig) = val_main_v0) (hv7 : W (main_v7 : DevRef τ sig) = val_main_v7 x0 x5)
    (hv14 : W (main_v14 : DevRef τ sig) = val_main_v14 x3 x4) :
    after opsC W (main_v21 : DevRef τ sig) = val_main_v21 x0 x3 x4 x5 := by
  after_results
  simp only [TRef.ofBuf, TRef.toBuf, cast_eq]
  rw [hv0, hv7, hv14]
  rfl

/-- Piece D leaves `q · kᵀ - s * logistic s`, with `s` the contraction, at `main_v30`. -/
theorem stageD (W : Valuation τ sig (Elt F)) (x0 x1 x3 x4 x5 : Arg F)
    (h0 : W (main_arg0 : DevRef τ sig) = x0) (h1 : W (main_arg1 : DevRef τ sig) = x1)
    (hv21 : W (main_v21 : DevRef τ sig) = val_main_v21 x0 x3 x4 x5) :
    after opsD W (main_v30 : DevRef τ sig) = val_main_v30 x0 x1 x3 x4 x5 := by
  after_results
  rw [h0, h1, hv21]
  rfl

/-- Piece E leaves that difference masked to `j ≤ i` (with `-∞` elsewhere) at `main_v36`. -/
theorem stageE (W : Valuation τ sig (Elt F)) (x0 x1 x3 x4 x5 : Arg F)
    (hv0 : W (main_v0 : DevRef τ sig) = val_main_v0)
    (hv30 : W (main_v30 : DevRef τ sig) = val_main_v30 x0 x1 x3 x4 x5) :
    after opsE W (main_v36 : DevRef τ sig) = val_main_v36 x0 x1 x3 x4 x5 := by
  after_results
  simp only [TRef.ofBuf, TRef.toBuf, cast_eq]
  rw [hv0, hv30]
  rfl

/-- Piece F leaves the exponential of the masked array less its row maximum at `main_v43`. -/
theorem stageF (W : Valuation τ sig (Elt F)) (x0 x1 x3 x4 x5 : Arg F)
    (hv36 : W (main_v36 : DevRef τ sig) = val_main_v36 x0 x1 x3 x4 x5) :
    after opsF W (main_v43 : DevRef τ sig) = val_main_v43 x0 x1 x3 x4 x5 := by
  after_results
  rw [hv36]
  rfl

/-- Piece G leaves the normalised rows times `v` at `main_v48`. -/
theorem stageG (W : Valuation τ sig (Elt F)) (x0 x1 x2 x3 x4 x5 : Arg F)
    (h2 : W (main_arg2 : DevRef τ sig) = x2)
    (hv43 : W (main_v43 : DevRef τ sig) = val_main_v43 x0 x1 x3 x4 x5) :
    after opsG W (main_v48 : DevRef τ sig) = val_main_v48 x0 x1 x2 x3 x4 x5 := by
  after_results
  rw [h2, hv43]
  rfl

/-! ## The chain

What the contents hold once the first pieces have run, as far as later pieces read them: the stages still to be
read, and the arguments still to be read. Each piece takes the record before it to the record after it. -/

/-- After piece A: the index row, the first masked product, and the arguments `q k v qu ku`. -/
structure AfterA (x0 x1 x2 x3 x4 x5 : Arg F) (W : Valuation τ sig (Elt F)) : Prop where
  v0 : W (main_v0 : DevRef τ sig) = val_main_v0
  v7 : W (main_v7 : DevRef τ sig) = val_main_v7 x0 x5
  a0 : W (main_arg0 : DevRef τ sig) = x0
  a1 : W (main_arg1 : DevRef τ sig) = x1
  a2 : W (main_arg2 : DevRef τ sig) = x2
  a3 : W (main_arg3 : DevRef τ sig) = x3
  a4 : W (main_arg4 : DevRef τ sig) = x4

/-- After piece B: also the logistic values; `qu ku` are read no more. -/
structure AfterB (x0 x1 x2 x3 x4 x5 : Arg F) (W : Valuation τ sig (Elt F)) : Prop where
  v0 : W (main_v0 : DevRef τ sig) = val_main_v0
  v7 : W (main_v7 : DevRef τ sig) = val_main_v7 x0 x5
  v14 : W (main_v14 : DevRef τ sig) = val_main_v14 x3 x4
  a0 : W (main_arg0 : DevRef τ sig) = x0
  a1 : W (main_arg1 : DevRef τ sig) = x1
  a2 : W (main_arg2 : DevRef τ sig) = x2

/-- After piece C: the index row, the contraction, and `q k v`. -/
structure AfterC (x0 x1 x2 x3 x4 x5 : Arg F) (W : Valuation τ sig (Elt F)) : Prop where
  v0 : W (main_v0 : DevRef τ sig) = val_main_v0
  v21 : W (main_v21 : DevRef τ sig) = val_main_v21 x0 x3 x4 x5
  a0 : W (main_arg0 : DevRef τ sig) = x0
  a1 : W (main_arg1 : DevRef τ sig) = x1
  a2 : W (main_arg2 : DevRef τ sig) = x2

/-- After piece D: the index row, the difference, and `v`. -/
structure AfterD (x0 x1 x2 x3 x4 x5 : Arg F) (W : Valuation τ sig (Elt F)) : Prop where
  v0 : W (main_v0 : DevRef τ sig) = val_main_v0
  v30 : W (main_v30 : DevRef τ sig) = val_main_v30 x0 x1 x3 x4 x5
  a2 : W (main_arg2 : DevRef τ sig) = x2

/-- After piece E: the masked difference, and `v`. -/
structure AfterE (x0 x1 x2 x3 x4 x5 : Arg F) (W : Valuation τ sig (Elt F)) : Prop where
  v36 : W (main_v36 : DevRef τ sig) = val_main_v36 x0 x1 x3 x4 x5
  a2 : W (main_arg2 : DevRef τ sig) = x2

/-- After piece F: the exponentials, and `v`. -/
structure AfterF (x0 x1 x2 x3 x4 x5 : Arg F) (W : Valuation τ sig (Elt F)) : Prop where
  v43 : W (main_v43 : DevRef τ sig) = val_main_v43 x0 x1 x3 x4 x5
  a2 : W (main_arg2 : DevRef τ sig) = x2

section Steps

variable {x0 x1 x2 x3 x4 x5 : Arg F} {W : Valuation τ sig (Elt F)}

theorem afterA (V : Valuation τ sig (Elt F)) :
    AfterA (V (main_arg0 : DevRef τ sig)) (V (main_arg1 : DevRef τ sig)) (V (main_arg2 : DevRef τ sig))
      (V (main_arg3 : DevRef τ sig)) (V (main_arg4 : DevRef τ sig)) (V (main_arg5 : DevRef τ sig)) (after opsA V) where
  v0 := stageA_v0 V
  v7 := stageA_v7 V _ _ rfl rfl
  a0 := frameA V (r := main_arg0) (by decide)
  a1 := frameA V (r := main_arg1) (by decide)
  a2 := frameA V (r := main_arg2) (by decide)
  a3 := frameA V (r := main_arg3) (by decide)
  a4 := frameA V (r := main_arg4) (by decide)

theorem afterB (h : AfterA x0 x1 x2 x3 x4 x5 W) : AfterB x0 x1 x2 x3 x4 x5 (after opsB W) where
  v0 := (frameB W (r := main_v0) (by decide)).trans h.v0
  v7 := (frameB W (r := main_v7) (by decide)).trans h.v7
  v14 := stageB W x3 x4 h.a3 h.a4
  a0 := (frameB W (r := main_arg0) (by decide)).trans h.a0
  a1 := (frameB W (r := main_arg1) (by decide)).trans h.a1
  a2 := (frameB W (r := main_arg2) (by decide)).trans h.a2

theorem afterC (h : AfterB x0 x1 x2 x3 x4 x5 W) : AfterC x0 x1 x2 x3 x4 x5 (after opsC W) where
  v0 := (frameC W (r := main_v0) (by decide)).trans h.v0
  v21 := stageC W x0 x3 x4 x5 h.v0 h.v7 h.v14
  a0 := (frameC W (r := main_arg0) (by decide)).trans h.a0
  a1 := (frameC W (r := main_arg1) (by decide)).trans h.a1
  a2 := (frameC W (r := main_arg2) (by decide)).trans h.a2

theorem afterD (h : AfterC x0 x1 x2 x3 x4 x5 W) : AfterD x0 x1 x2 x3 x4 x5 (after opsD W) where
  v0 := (frameD W (r := main_v0) (by decide)).trans h.v0
  v30 := stageD W x0 x1 x3 x4 x5 h.a0 h.a1 h.v21
  a2 := (frameD W (r := main_arg2) (by decide)).trans h.a2

theorem afterE (h : AfterD x0 x1 x2 x3 x4 x5 W) : AfterE x0 x1 x2 x3 x4 x5 (after opsE W) where
  v36 := stageE W x0 x1 x3 x4 x5 h.v0 h.v30
  a2 := (frameE W (r := main_arg2) (by decide)).trans h.a2

theorem afterF (h : AfterE x0 x1 x2 x3 x4 x5 W) : AfterF x0 x1 x2 x3 x4 x5 (after opsF W) where
  v43 := stageF W x0 x1 x3 x4 x5 h.v36
  a2 := (frameF W (r := main_arg2) (by decide)).trans h.a2

end Steps

/-- The whole line is its seven pieces in a row. -/
theorem after_ops (V : Valuation τ sig (Elt F)) :
    after ops V = after opsG (after opsF (after opsE (after opsD (after opsC (after opsB (after opsA V)))))) := by
  simp only [ops, after_append]

/-- After the whole line the result buffer holds its stage of the six arguments. -/
theorem result_eq (V : Valuation τ sig (Elt F)) :
    after ops V (main_v48 : DevRef τ sig)
      = val_main_v48 (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [after_ops]
  have h := afterF (afterE (afterD (afterC (afterB (afterA V)))))
  exact stageG _ _ _ _ _ _ _ h.a2 h.v43

/-- A buffer none of the seven pieces writes holds after the whole line what it held before. -/
theorem frame_ops (V : Valuation τ sig (Elt F)) {r : Ref sig .tc}
    (hr : r ∉ writesA ∧ r ∉ writesB ∧ r ∉ writesC ∧ r ∉ writesD ∧ r ∉ writesE ∧ r ∉ writesF ∧ r ∉ writesG) :
    after ops V (r : DevRef τ sig) = V (r : DevRef τ sig) := by
  rw [after_ops, frameG _ hr.2.2.2.2.2.2, frameF _ hr.2.2.2.2.2.1, frameE _ hr.2.2.2.2.1, frameD _ hr.2.2.2.1,
    frameC _ hr.2.2.1, frameB _ hr.2.1, frameA _ hr.1]

/-! ## The run -/

/-- On every device, from any memory with zero counters: every weakly fair execution of the reference's @main
    terminates with the result buffer at its stage of the six arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = val_main_v48 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v48).trans (result_eq (launchContents m c)),
      (h c main_arg0).trans (frame_ops (launchContents m c) (by decide)),
      (h c main_arg1).trans (frame_ops (launchContents m c) (by decide)),
      (h c main_arg2).trans (frame_ops (launchContents m c) (by decide)),
      (h c main_arg3).trans (frame_ops (launchContents m c) (by decide)),
      (h c main_arg4).trans (frame_ops (launchContents m c) (by decide)),
      (h c main_arg5).trans (frame_ops (launchContents m c) (by decide))⟩)
    (run_seq scopedRefs_eq scopedSems_eq defs main (fun _ => ops) main_eq (fun _ => ops_sub) m ρ (fun _ => ops_fresh))

end Cert.RefRun

end
-- ==== Proof.OutSpec.lean ====
/-
  The block-level statement: the output block the body leaves is the head formula of the six input blocks.

  Stated once as a proposition, so that what the array holds after the run can be derived from it without opening
  the body's arithmetic.
-/
import proofs.«415080_j88252987998455_3_alg».proof.Proof.Gen.KernelIdeal.Frame
import proofs.«415080_j88252987998455_3_alg».proof.Proof.Heads

noncomputable section

namespace Cert.KernelIdeal

open Cert.KernelIdeal.Gen Idealize.ShloMosaic Idealize.ShloMosaic.ValueIdx Cert.Attn

/-- For finite input blocks, entry (0, 0, i, d) of the output block the body leaves is `OUT` of the blocks' heads
    (in the program's order: x0 = q, x1 = k, x2 = v, x3 = qu, x4 = ku, x5 = vu). -/
def OutSpec : Prop :=
  ∀ (c : Dev nD) (i : grid0.Coords) (arg2 : Memref sig .tc .vmem S1x1x1024x64 .f32) (harg2 : arg2.IsWhole) (arg3 : Memref sig .tc .vmem S1x1x1024x64 .f32) (harg3 : arg3.IsWhole) (arg4 : Memref sig .tc .vmem S1x1x1024x64 .f32) (harg4 : arg4.IsWhole) (arg5 : Memref sig .tc .vmem S1x1x1024x64 .f32) (harg5 : arg5.IsWhole) (arg6 : Memref sig .tc .vmem S1x1x1024x64 .f32) (harg6 : arg6.IsWhole) (arg7 : Memref sig .tc .vmem S1x1x1024x64 .f32) (harg7 : arg7.IsWhole) (arg8 : Memref sig .tc .vmem S1x1x1024x64 .f32) (harg8 : arg8.IsWhole) (arg9 : Memref sig .tc .vmem S1024x1024 .bf16) (harg9 : arg9.IsWhole) (arg10 : Memref sig .tc .vmem S1024x1024 .bf16) (harg10 : arg10.IsWhole) (x0 : Vec Ideal S1x1x1024x64 .f32) (x1 : Vec Ideal S1x1x1024x64 .f32) (x2 : Vec Ideal S1x1x1024x64 .f32) (x3 : Vec Ideal S1x1x1024x64 .f32) (x4 : Vec Ideal S1x1x1024x64 .f32) (x5 : Vec Ideal S1x1x1024x64 .f32),
    IsReal (headOfBlock x0) → IsReal (headOfBlock x1) → IsReal (headOfBlock x2) →
    IsReal (headOfBlock x3) → IsReal (headOfBlock x4) → IsReal (headOfBlock x5) →
    ∀ (ii : Fin 1024) (d : Fin 64),
      out0_A_6 (F := Ideal) c i arg2 harg2 arg3 harg3 arg4 harg4 arg5 harg5 arg6 harg6 arg7 harg7 arg8 harg8 arg9 harg9 arg10 harg10 x0 x1 x2 x3 x4 x5 (ix4 (0 : Fin 1) (0 : Fin 1) ii d)
        = OUT (headOfBlock x0) (headOfBlock x1) (headOfBlock x2) (headOfBlock x3) (headOfBlock x4) (headOfBlock x5) ii d

end Cert.KernelIdeal

end
-- ==== Proof.Final.lean ====
/-
  The output array after the run: entry (z, h, i, d) is the head formula `OUT` of head (z, h) of the six arguments.

  The grid has one point per (batch, head) pair; the point for (z, h) stages block (z, h, ·, ·) of every argument,
  so the six blocks it computes on are heads (z, h) of the arguments, and it writes its output block back to block
  (z, h, ·, ·) of the result. Distinct points write disjoint blocks, so after the run block (z, h) of the result
  array is what that point wrote: by the block-level statement (taken here as a hypothesis), `OUT` of those heads.

  The 2 × 8 grid is numbered row-major, so the point of (z, h) is number 8·z + h, and at point t every one of the
  seven windows has block index (t / 8, t % 8, 0, 0). A block has sizes (1, 1, 1024, 64), and an element of a block sits
  in its array, on each axis, at block index × block size + its coordinate inside the block: element (0, 0, i, d) of
  the block at the point of (z, h) is element (z·1 + 0, h·1 + 0, 0·1024 + i, 0·64 + d) = (z, h, i, d) of the array.
-/
import proofs.«415080_j88252987998455_3_alg».proof.Proof.Gen.KernelIdeal.Value
import proofs.«415080_j88252987998455_3_alg».proof.Proof.Heads
import proofs.«415080_j88252987998455_3_alg».proof.Proof.OutSpec
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx Cert.Attn
open Idealize.ShloMosaic.Pipeline (Dat)

/-! ## The point of a (batch, head) pair and the windows' block indices there -/

/-- The grid point of batch `z` and head `h`: number 8·z + h of the 16 points of the 2 × 8 grid, in row-major order. -/
def pointOf (z : Fin 2) (h : Fin 8) : Fin cfg0.N := ⟨8 * z.val + h.val, by have := N_0; show _ < grid0.N; omega⟩

/-- At point `t` the block index of the window over `q` is (t / 8, t % 8, 0, 0): decided over the 16 points. -/
theorem index_q : ∀ t : Fin cfg0.N,
    win0_0.index t (0 : Fin 4) = t.val / 8 ∧ win0_0.index t (1 : Fin 4) = t.val % 8
      ∧ win0_0.index t (2 : Fin 4) = 0 ∧ win0_0.index t (3 : Fin 4) = 0 :=
  (by decide +kernel : ∀ t : Fin grid0.N, _)

/-- At point `t` the block index of the window over `k` is (t / 8, t % 8, 0, 0): decided over the 16 points. -/
theorem index_k : ∀ t : Fin cfg0.N,
    win0_1.index t (0 : Fin 4) = t.val / 8 ∧ win0_1.index t (1 : Fin 4) = t.val % 8
      ∧ win0_1.index t (2 : Fin 4) = 0 ∧ win0_1.index t (3 : Fin 4) = 0 :=
  (by decide +kernel : ∀ t : Fin grid0.N, _)

/-- At point `t` the block index of the window over `v` is (t / 8, t % 8, 0, 0): decided over the 16 points. -/
theorem index_v : ∀ t : Fin cfg0.N,
    win0_2.index t (0 : Fin 4) = t.val / 8 ∧ win0_2.index t (1 : Fin 4) = t.val % 8
      ∧ win0_2.index t (2 : Fin 4) = 0 ∧ win0_2.index t (3 : Fin 4) = 0 :=
  (by decide +kernel : ∀ t : Fin grid0.N, _)

/-- At point `t` the block index of the window over `qu` is (t / 8, t % 8, 0, 0): decided over the 16 points. -/
theorem index_qu : ∀ t : Fin cfg0.N,
    win0_3.index t (0 : Fin 4) = t.val / 8 ∧ win0_3.index t (1 : Fin 4) = t.val % 8
      ∧ win0_3.index t (2 : Fin 4) = 0 ∧ win0_3.index t (3 : Fin 4) = 0 :=
  (by decide +kernel : ∀ t : Fin grid0.N, _)

/-- At point `t` the block index of the window over `ku` is (t / 8, t % 8, 0, 0): decided over the 16 points. -/
theorem index_ku : ∀ t : Fin cfg0.N,
    win0_4.index t (0 : Fin 4) = t.val / 8 ∧ win0_4.index t (1 : Fin 4) = t.val % 8
      ∧ win0_4.index t (2 : Fin 4) = 0 ∧ win0_4.index t (3 : Fin 4) = 0 :=
  (by decide +kernel : ∀ t : Fin grid0.N, _)

/-- At point `t` the block index of the window over `vu` is (t / 8, t % 8, 0, 0): decided over the 16 points. -/
theorem index_vu : ∀ t : Fin cfg0.N,
    win0_5.index t (0 : Fin 4) = t.val / 8 ∧ win0_5.index t (1 : Fin 4) = t.val % 8
      ∧ win0_5.index t (2 : Fin 4) = 0 ∧ win0_5.index t (3 : Fin 4) = 0 :=
  (by decide +kernel : ∀ t : Fin grid0.N, _)

/-- At point `t` the block index of the window over `out` is (t / 8, t % 8, 0, 0): decided over the 16 points. -/
theorem index_out : ∀ t : Fin cfg0.N,
    win0_6.index t (0 : Fin 4) = t.val / 8 ∧ win0_6.index t (1 : Fin 4) = t.val % 8
      ∧ win0_6.index t (2 : Fin 4) = 0 ∧ win0_6.index t (3 : Fin 4) = 0 :=
  (by decide +kernel : ∀ t : Fin grid0.N, _)

/-! ## Where a block's elements sit in the array -/

/-- Element (0, 0, i, d) of the block of `q` at the point of (z, h) is element (z, h, i, d) of the array: on each axis,
    block index × block size + the coordinate inside the block, with (8·z + h) / 8 = z and (8·z + h) % 8 = h. -/
theorem emb_q (z : Fin 2) (h : Fin 8) (i : Fin 1024) (d : Fin 64) :
    ((cfg0.win 0).blk (pointOf z h)).view.emb (ix4 (0 : Fin 1) (0 : Fin 1) i d) = ix4 z h i d := by
  obtain ⟨e0, e1, e2, e3⟩ := index_q (pointOf z h)
  have hv : (pointOf z h).val = 8 * z.val + h.val := rfl
  have hz := z.isLt
  have hh := h.isLt
  funext a; apply Fin.ext
  match a with
  | ⟨0, _⟩ => show win0_0.index (pointOf z h) (0 : Fin 4) * 1 + 1 * (0 : Fin 1).val = z.val; simp only [Fin.val_zero]; omega
  | ⟨1, _⟩ => show win0_0.index (pointOf z h) (1 : Fin 4) * 1 + 1 * (0 : Fin 1).val = h.val; simp only [Fin.val_zero]; omega
  | ⟨2, _⟩ => show win0_0.index (pointOf z h) (2 : Fin 4) * 1024 + 1 * i.val = i.val; omega
  | ⟨3, _⟩ => show win0_0.index (pointOf z h) (3 : Fin 4) * 64 + 1 * d.val = d.val; omega

/-- Element (0, 0, i, d) of the block of `k` at the point of (z, h) is element (z, h, i, d) of the array: on each axis,
    block index × block size + the coordinate inside the block, with (8·z + h) / 8 = z and (8·z + h) % 8 = h. -/
theorem emb_k (z : Fin 2) (h : Fin 8) (i : Fin 1024) (d : Fin 64) :
    ((cfg0.win 1).blk (pointOf z h)).view.emb (ix4 (0 : Fin 1) (0 : Fin 1) i d) = ix4 z h i d := by
  obtain ⟨e0, e1, e2, e3⟩ := index_k (pointOf z h)
  have hv : (pointOf z h).val = 8 * z.val + h.val := rfl
  have hz := z.isLt
  have hh := h.isLt
  funext a; apply Fin.ext
  match a with
  | ⟨0, _⟩ => show win0_1.index (pointOf z h) (0 : Fin 4) * 1 + 1 * (0 : Fin 1).val = z.val; simp only [Fin.val_zero]; omega
  | ⟨1, _⟩ => show win0_1.index (pointOf z h) (1 : Fin 4) * 1 + 1 * (0 : Fin 1).val = h.val; simp only [Fin.val_zero]; omega
  | ⟨2, _⟩ => show win0_1.index (pointOf z h) (2 : Fin 4) * 1024 + 1 * i.val = i.val; omega
  | ⟨3, _⟩ => show win0_1.index (pointOf z h) (3 : Fin 4) * 64 + 1 * d.val = d.val; omega

/-- Element (0, 0, i, d) of the block of `v` at the point of (z, h) is element (z, h, i, d) of the array: on each axis,
    block index × block size + the coordinate inside the block, with (8·z + h) / 8 = z and (8·z + h) % 8 = h. -/
theorem emb_v (z : Fin 2) (h : Fin 8) (i : Fin 1024) (d : Fin 64) :
    ((cfg0.win 2).blk (pointOf z h)).view.emb (ix4 (0 : Fin 1) (0 : Fin 1) i d) = ix4 z h i d := by
  obtain ⟨e0, e1, e2, e3⟩ := index_v (pointOf z h)
  have hv : (pointOf z h).val = 8 * z.val + h.val := rfl
  have hz := z.isLt
  have hh := h.isLt
  funext a; apply Fin.ext
  match a with
  | ⟨0, _⟩ => show win0_2.index (pointOf z h) (0 : Fin 4) * 1 + 1 * (0 : Fin 1).val = z.val; simp only [Fin.val_zero]; omega
  | ⟨1, _⟩ => show win0_2.index (pointOf z h) (1 : Fin 4) * 1 + 1 * (0 : Fin 1).val = h.val; simp only [Fin.val_zero]; omega
  | ⟨2, _⟩ => show win0_2.index (pointOf z h) (2 : Fin 4) * 1024 + 1 * i.val = i.val; omega
  | ⟨3, _⟩ => show win0_2.index (pointOf z h) (3 : Fin 4) * 64 + 1 * d.val = d.val; omega

/-- Element (0, 0, i, d) of the block of `qu` at the point of (z, h) is element (z, h, i, d) of the array: on each axis,
    block index × block size + the coordinate inside the block, with (8·z + h) / 8 = z and (8·z + h) % 8 = h. -/
theorem emb_qu (z : Fin 2) (h : Fin 8) (i : Fin 1024) (d : Fin 64) :
    ((cfg0.win 3).blk (pointOf z h)).view.emb (ix4 (0 : Fin 1) (0 : Fin 1) i d) = ix4 z h i d := by
  obtain ⟨e0, e1, e2, e3⟩ := index_qu (pointOf z h)
  have hv : (pointOf z h).val = 8 * z.val + h.val := rfl
  have hz := z.isLt
  have hh := h.isLt
  funext a; apply Fin.ext
  match a with
  | ⟨0, _⟩ => show win0_3.index (pointOf z h) (0 : Fin 4) * 1 + 1 * (0 : Fin 1).val = z.val; simp only [Fin.val_zero]; omega
  | ⟨1, _⟩ => show win0_3.index (pointOf z h) (1 : Fin 4) * 1 + 1 * (0 : Fin 1).val = h.val; simp only [Fin.val_zero]; omega
  | ⟨2, _⟩ => show win0_3.index (pointOf z h) (2 : Fin 4) * 1024 + 1 * i.val = i.val; omega
  | ⟨3, _⟩ => show win0_3.index (pointOf z h) (3 : Fin 4) * 64 + 1 * d.val = d.val; omega

/-- Element (0, 0, i, d) of the block of `ku` at the point of (z, h) is element (z, h, i, d) of the array: on each axis,
    block index × block size + the coordinate inside the block, with (8·z + h) / 8 = z and (8·z + h) % 8 = h. -/
theorem emb_ku (z : Fin 2) (h : Fin 8) (i : Fin 1024) (d : Fin 64) :
    ((cfg0.win 4).blk (pointOf z h)).view.emb (ix4 (0 : Fin 1) (0 : Fin 1) i d) = ix4 z h i d := by
  obtain ⟨e0, e1, e2, e3⟩ := index_ku (pointOf z h)
  have hv : (pointOf z h).val = 8 * z.val + h.val := rfl
  have hz := z.isLt
  have hh := h.isLt
  funext a; apply Fin.ext
  match a with
  | ⟨0, _⟩ => show win0_4.index (pointOf z h) (0 : Fin 4) * 1 + 1 * (0 : Fin 1).val = z.val; simp only [Fin.val_zero]; omega
  | ⟨1, _⟩ => show win0_4.index (pointOf z h) (1 : Fin 4) * 1 + 1 * (0 : Fin 1).val = h.val; simp only [Fin.val_zero]; omega
  | ⟨2, _⟩ => show win0_4.index (pointOf z h) (2 : Fin 4) * 1024 + 1 * i.val = i.val; omega
  | ⟨3, _⟩ => show win0_4.index (pointOf z h) (3 : Fin 4) * 64 + 1 * d.val = d.val; omega

/-- Element (0, 0, i, d) of the block of `vu` at the point of (z, h) is element (z, h, i, d) of the array: on each axis,
    block index × block size + the coordinate inside the block, with (8·z + h) / 8 = z and (8·z + h) % 8 = h. -/
theorem emb_vu (z : Fin 2) (h : Fin 8) (i : Fin 1024) (d : Fin 64) :
    ((cfg0.win 5).blk (pointOf z h)).view.emb (ix4 (0 : Fin 1) (0 : Fin 1) i d) = ix4 z h i d := by
  obtain ⟨e0, e1, e2, e3⟩ := index_vu (pointOf z h)
  have hv : (pointOf z h).val = 8 * z.val + h.val := rfl
  have hz := z.isLt
  have hh := h.isLt
  funext a; apply Fin.ext
  match a with
  | ⟨0, _⟩ => show win0_5.index (pointOf z h) (0 : Fin 4) * 1 + 1 * (0 : Fin 1).val = z.val; simp only [Fin.val_zero]; omega
  | ⟨1, _⟩ => show win0_5.index (pointOf z h) (1 : Fin 4) * 1 + 1 * (0 : Fin 1).val = h.val; simp only [Fin.val_zero]; omega
  | ⟨2, _⟩ => show win0_5.index (pointOf z h) (2 : Fin 4) * 1024 + 1 * i.val = i.val; omega
  | ⟨3, _⟩ => show win0_5.index (pointOf z h) (3 : Fin 4) * 64 + 1 * d.val = d.val; omega

/-- Element (0, 0, i, d) of the block of `out` at the point of (z, h) is element (z, h, i, d) of the array: on each axis,
    block index × block size + the coordinate inside the block, with (8·z + h) / 8 = z and (8·z + h) % 8 = h. -/
theorem emb_out (z : Fin 2) (h : Fin 8) (i : Fin 1024) (d : Fin 64) :
    ((cfg0.win 6).blk (pointOf z h)).view.emb (ix4 (0 : Fin 1) (0 : Fin 1) i d) = ix4 z h i d := by
  obtain ⟨e0, e1, e2, e3⟩ := index_out (pointOf z h)
  have hv : (pointOf z h).val = 8 * z.val + h.val := rfl
  have hz := z.isLt
  have hh := h.isLt
  funext a; apply Fin.ext
  match a with
  | ⟨0, _⟩ => show win0_6.index (pointOf z h) (0 : Fin 4) * 1 + 1 * (0 : Fin 1).val = z.val; simp only [Fin.val_zero]; omega
  | ⟨1, _⟩ => show win0_6.index (pointOf z h) (1 : Fin 4) * 1 + 1 * (0 : Fin 1).val = h.val; simp only [Fin.val_zero]; omega
  | ⟨2, _⟩ => show win0_6.index (pointOf z h) (2 : Fin 4) * 1024 + 1 * i.val = i.val; omega
  | ⟨3, _⟩ => show win0_6.index (pointOf z h) (3 : Fin 4) * 64 + 1 * d.val = d.val; omega

/-! ## The six input blocks are heads of the arguments -/

/-- The block of `q` at the point of (z, h) holds head (z, h) of the argument. -/
theorem head_q (m : (ℓ : Loc nD τ sig) → Buf (Elt Ideal) ℓ) (c : Dev nD) (z : Fin 2) (h : Fin 8) :
    headOfBlock (iblk m c 0 (pointOf z h)) = headOf (m ((c : Thread nD τ).loc main_arg0)) z h := by
  funext i d
  show V m c (Pipeline.arrRef spec0 0) (((cfg0.win 0).blk (pointOf z h)).view.emb (ix4 (0 : Fin 1) (0 : Fin 1) i d))
    = m ((c : Thread nD τ).loc main_arg0) (ix4 z h i d)
  rw [emb_q]

/-- … so it is real-valued when the argument is. -/
theorem real_q (m : (ℓ : Loc nD τ sig) → Buf (Elt Ideal) ℓ) (c : Dev nD)
    (hr : ∀ j, ∃ r : ℝ, m ((c : Thread nD τ).loc main_arg0) j = (r : EReal)) (z : Fin 2) (h : Fin 8) :
    IsReal (headOfBlock (iblk m c 0 (pointOf z h))) := by
  rw [head_q]
  exact fun i d => hr (ix4 z h i d)

/-- The block of `k` at the point of (z, h) holds head (z, h) of the argument. -/
theorem head_k (m : (ℓ : Loc nD τ sig) → Buf (Elt Ideal) ℓ) (c : Dev nD) (z : Fin 2) (h : Fin 8) :
    headOfBlock (iblk m c 1 (pointOf z h)) = headOf (m ((c : Thread nD τ).loc main_arg1)) z h := by
  funext i d
  show V m c (Pipeline.arrRef spec0 1) (((cfg0.win 1).blk (pointOf z h)).view.emb (ix4 (0 : Fin 1) (0 : Fin 1) i d))
    = m ((c : Thread nD τ).loc main_arg1) (ix4 z h i d)
  rw [emb_k]

/-- … so it is real-valued when the argument is. -/
theorem real_k (m : (ℓ : Loc nD τ sig) → Buf (Elt Ideal) ℓ) (c : Dev nD)
    (hr : ∀ j, ∃ r : ℝ, m ((c : Thread nD τ).loc main_arg1) j = (r : EReal)) (z : Fin 2) (h : Fin 8) :
    IsReal (headOfBlock (iblk m c 1 (pointOf z h))) := by
  rw [head_k]
  exact fun i d => hr (ix4 z h i d)

/-- The block of `v` at the point of (z, h) holds head (z, h) of the argument. -/
theorem head_v (m : (ℓ : Loc nD τ sig) → Buf (Elt Ideal) ℓ) (c : Dev nD) (z : Fin 2) (h : Fin 8) :
    headOfBlock (iblk m c 2 (pointOf z h)) = headOf (m ((c : Thread nD τ).loc main_arg2)) z h := by
  funext i d
  show V m c (Pipeline.arrRef spec0 2) (((cfg0.win 2).blk (pointOf z h)).view.emb (ix4 (0 : Fin 1) (0 : Fin 1) i d))
    = m ((c : Thread nD τ).loc main_arg2) (ix4 z h i d)
  rw [emb_v]

/-- … so it is real-valued when the argument is. -/
theorem real_v (m : (ℓ : Loc nD τ sig) → Buf (Elt Ideal) ℓ) (c : Dev nD)
    (hr : ∀ j, ∃ r : ℝ, m ((c : Thread nD τ).loc main_arg2) j = (r : EReal)) (z : Fin 2) (h : Fin 8) :
    IsReal (headOfBlock (iblk m c 2 (pointOf z h))) := by
  rw [head_v]
  exact fun i d => hr (ix4 z h i d)

/-- The block of `qu` at the point of (z, h) holds head (z, h) of the argument. -/
theorem head_qu (m : (ℓ : Loc nD τ sig) → Buf (Elt Ideal) ℓ) (c : Dev nD) (z : Fin 2) (h : Fin 8) :
    headOfBlock (iblk m c 3 (pointOf z h)) = headOf (m ((c : Thread nD τ).loc main_arg3)) z h := by
  funext i d
  show V m c (Pipeline.arrRef spec0 3) (((cfg0.win 3).blk (pointOf z h)).view.emb (ix4 (0 : Fin 1) (0 : Fin 1) i d))
    = m ((c : Thread nD τ).loc main_arg3) (ix4 z h i d)
  rw [emb_qu]

/-- … so it is real-valued when the argument is. -/
theorem real_qu (m : (ℓ : Loc nD τ sig) → Buf (Elt Ideal) ℓ) (c : Dev nD)
    (hr : ∀ j, ∃ r : ℝ, m ((c : Thread nD τ).loc main_arg3) j = (r : EReal)) (z : Fin 2) (h : Fin 8) :
    IsReal (headOfBlock (iblk m c 3 (pointOf z h))) := by
  rw [head_qu]
  exact fun i d => hr (ix4 z h i d)

/-- The block of `ku` at the point of (z, h) holds head (z, h) of the argument. -/
theorem head_ku (m : (ℓ : Loc nD τ sig) → Buf (Elt Ideal) ℓ) (c : Dev nD) (z : Fin 2) (h : Fin 8) :
    headOfBlock (iblk m c 4 (pointOf z h)) = headOf (m ((c : Thread nD τ).loc main_arg4)) z h := by
  funext i d
  show V m c (Pipeline.arrRef spec0 4) (((cfg0.win 4).blk (pointOf z h)).view.emb (ix4 (0 : Fin 1) (0 : Fin 1) i d))
    = m ((c : Thread nD τ).loc main_arg4) (ix4 z h i d)
  rw [emb_ku]

/-- … so it is real-valued when the argument is. -/
theorem real_ku (m : (ℓ : Loc nD τ sig) → Buf (Elt Ideal) ℓ) (c : Dev nD)
    (hr : ∀ j, ∃ r : ℝ, m ((c : Thread nD τ).loc main_arg4) j = (r : EReal)) (z : Fin 2) (h : Fin 8) :
    IsReal (headOfBlock (iblk m c 4 (pointOf z h))) := by
  rw [head_ku]
  exact fun i d => hr (ix4 z h i d)

/-- The block of `vu` at the point of (z, h) holds head (z, h) of the argument. -/
theorem head_vu (m : (ℓ : Loc nD τ sig) → Buf (Elt Ideal) ℓ) (c : Dev nD) (z : Fin 2) (h : Fin 8) :
    headOfBlock (iblk m c 5 (pointOf z h)) = headOf (m ((c : Thread nD τ).loc main_arg5)) z h := by
  funext i d
  show V m c (Pipeline.arrRef spec0 5) (((cfg0.win 5).blk (pointOf z h)).view.emb (ix4 (0 : Fin 1) (0 : Fin 1) i d))
    = m ((c : Thread nD τ).loc main_arg5) (ix4 z h i d)
  rw [emb_vu]

/-- … so it is real-valued when the argument is. -/
theorem real_vu (m : (ℓ : Loc nD τ sig) → Buf (Elt Ideal) ℓ) (c : Dev nD)
    (hr : ∀ j, ∃ r : ℝ, m ((c : Thread nD τ).loc main_arg5) j = (r : EReal)) (z : Fin 2) (h : Fin 8) :
    IsReal (headOfBlock (iblk m c 5 (pointOf z h))) := by
  rw [head_vu]
  exact fun i d => hr (ix4 z h i d)

/-! ## The result array -/

/-- The result array after the frame run, at (z, h, i, d), when the six argument arrays hold reals. -/
theorem final_apply (hout : OutSpec) (m : (ℓ : Loc nD τ sig) → Buf (Elt Ideal) ℓ) (c : Dev nD)
    (hr0 : ∀ j, ∃ r : ℝ, m ((c : Thread nD τ).loc main_arg0) j = (r : EReal))
    (hr1 : ∀ j, ∃ r : ℝ, m ((c : Thread nD τ).loc main_arg1) j = (r : EReal))
    (hr2 : ∀ j, ∃ r : ℝ, m ((c : Thread nD τ).loc main_arg2) j = (r : EReal))
    (hr3 : ∀ j, ∃ r : ℝ, m ((c : Thread nD τ).loc main_arg3) j = (r : EReal))
    (hr4 : ∀ j, ∃ r : ℝ, m ((c : Thread nD τ).loc main_arg4) j = (r : EReal))
    (hr5 : ∀ j, ∃ r : ℝ, m ((c : Thread nD τ).loc main_arg5) j = (r : EReal))
    (z : Fin 2) (h : Fin 8) (i : Fin 1024) (d : Fin 64) :
    (dats m 0 c).arrAt 6 cfg0.N (ix4 z h i d)
      = OUT (headOf (m ((c : Thread nD τ).loc main_arg0)) z h) (headOf (m ((c : Thread nD τ).loc main_arg1)) z h)
          (headOf (m ((c : Thread nD τ).loc main_arg2)) z h) (headOf (m ((c : Thread nD τ).loc main_arg3)) z h)
          (headOf (m ((c : Thread nD τ).loc main_arg4)) z h) (headOf (m ((c : Thread nD τ).loc main_arg5)) z h) i d := by
  -- (z, h, i, d) is element (0, 0, i, d) of the output block of the point of (z, h); the points' output blocks are
  -- pairwise disjoint, so the array ends there at what that point wrote back
  have hb := (dats m 0 c).arrAt_emb_eq_flushed 6 Value.disjoint6 (pointOf z h) (flush0_6 (pointOf z h)) (ix4 (0 : Fin 1) (0 : Fin 1) i d)
  rw [emb_out] at hb
  rw [hb]
  show (dats m 0 c).flushed 6 (pointOf z h) (ix4 (0 : Fin 1) (0 : Fin 1) i d) = _
  -- what it wrote back is the body's output block on the six input blocks at that point
  rw [Value.flushed6_A]
  -- the block-level statement at those blocks, which are real-valued because the arguments are
  have key := hout c (grid0.coords (pointOf z h)) (ms0_0 (pointOf z h)) (hs0_0 (pointOf z h)) (ms0_1 (pointOf z h)) (hs0_1 (pointOf z h))
    (ms0_2 (pointOf z h)) (hs0_2 (pointOf z h)) (ms0_3 (pointOf z h)) (hs0_3 (pointOf z h)) (ms0_4 (pointOf z h)) (hs0_4 (pointOf z h))
    (ms0_5 (pointOf z h)) (hs0_5 (pointOf z h)) (ms0_6 (pointOf z h)) (hs0_6 (pointOf z h)) scM0_0 (Memref.isWhole_whole _) scM0_1 (Memref.isWhole_whole _)
    (iblk m c 0 (pointOf z h)) (iblk m c 1 (pointOf z h)) (iblk m c 2 (pointOf z h)) (iblk m c 3 (pointOf z h)) (iblk m c 4 (pointOf z h)) (iblk m c 5 (pointOf z h))
    (real_q m c hr0 z h) (real_k m c hr1 z h) (real_v m c hr2 z h) (real_qu m c hr3 z h) (real_ku m c hr4 z h) (real_vu m c hr5 z h) i d
  -- and the blocks' heads are heads (z, h) of the arguments
  rw [head_q, head_k, head_v, head_qu, head_ku, head_vu] at key
  exact key

end Cert.KernelIdeal.Final

end
-- ==== Proof.Math.lean ====
/-
  A row block's way of computing a head agrees with the whole-row formula.

  For a query row i inside the key prefix (i < n) and finite inputs:
  * t1 − t1 = 0 and la − la = 0 (finite values), so two of the three products vanish and the assembled su is
    Σ_{j<n} t1 i j · la k j; since t1 i j = 0 for j > i, and i < n, that is the sum over all j;
  * for k ≥ n the masked score is −∞, which is neutral for the maximum, and e^(−∞ − m) = 0, which is neutral for the
    sums over k; so the maximum and both sums over the prefix are those over all positions;
  * the diagonal score sc i i is finite, so the maximum m_i is finite and l_i ≥ e^(sc i i − m_i) > 0 is a positive
    real; dividing the finished sum by l_i is dividing each term (distributivity over finite values).
-/
import proofs.«415080_j88252987998455_3_alg».proof.Proof.Spec

noncomputable section

open scoped BigOperators

namespace Cert.Attn

open Idealize.ShloMosaic

/-! ## Finite values

An extended real is *finite* when it is the image of a real number. Finite values are closed under the
operations the head uses, and on them subtraction cancels: x − x = 0 (which fails at ±∞). -/

/-- `x` is the image of a real number. -/
private def IsR (x : EReal) : Prop := ∃ r : ℝ, x = (r : EReal)

private theorem isR_zero : IsR 0 := ⟨0, rfl⟩

private theorem isR_mul {x y : EReal} (hx : IsR x) (hy : IsR y) : IsR (x * y) := by
  obtain ⟨a, rfl⟩ := hx
  obtain ⟨b, rfl⟩ := hy
  exact ⟨a * b, (EReal.coe_mul a b).symm⟩

private theorem isR_sub {x y : EReal} (hx : IsR x) (hy : IsR y) : IsR (x - y) := by
  obtain ⟨a, rfl⟩ := hx
  obtain ⟨b, rfl⟩ := hy
  exact ⟨a - b, (EReal.coe_sub a b).symm⟩

/-- The logistic function of a real r is the real 1 / (1 + e^(−r)). -/
private theorem isR_logistic {x : EReal} (hx : IsR x) : IsR (Ideal.logistic x) := by
  obtain ⟨a, rfl⟩ := hx
  exact ⟨_, Ideal.logistic_coe a⟩

/-- A finite sum of finite values is finite. -/
private theorem isR_sum {ι : Type*} (s : Finset ι) (f : ι → EReal) (h : ∀ i ∈ s, IsR (f i)) :
    IsR (∑ i ∈ s, f i) := by
  classical
  induction s using Finset.induction_on with
  | empty => exact ⟨0, by simp⟩
  | insert a s ha ih =>
    obtain ⟨r, hr⟩ := ih (fun i hi => h i (Finset.mem_insert_of_mem hi))
    obtain ⟨b, hb⟩ := h a (Finset.mem_insert_self a s)
    exact ⟨b + r, by rw [Finset.sum_insert ha, hb, hr, EReal.coe_add]⟩

/-- On finite values subtraction cancels. -/
private theorem sub_self_of_isR {x : EReal} (hx : IsR x) : x - x = 0 := by
  obtain ⟨a, rfl⟩ := hx
  rw [← EReal.coe_sub, sub_self, EReal.coe_zero]

/-- The embedding of the reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A prefix against the whole range

A sum over the first n of m positions is the sum over all m when the summand vanishes from n on; likewise a
maximum folded from −∞ when the function is −∞ from n on. -/

private theorem sum_castLE {M : Type*} [AddCommMonoid M] {n m : ℕ} (hn : n ≤ m) (f : Fin m → M)
    (h0 : ∀ k : Fin m, n ≤ k.val → f k = 0) :
    ∑ k : Fin n, f (Fin.castLE hn k) = ∑ k : Fin m, f k := by
  have hmap : ∑ k : Fin n, f (Fin.castLE hn k) = ∑ k ∈ Finset.univ.map (Fin.castLEEmb hn), f k := by
    rw [Finset.sum_map]; rfl
  rw [hmap]
  apply Finset.sum_subset (Finset.subset_univ _)
  intro k _ hk
  apply h0
  by_contra hlt
  exact hk (Finset.mem_map.mpr ⟨⟨k.val, not_le.mp hlt⟩, Finset.mem_univ _, Fin.ext rfl⟩)

private theorem fold_max_castLE {n m : ℕ} (hn : n ≤ m) (f : Fin m → EReal)
    (h0 : ∀ k : Fin m, n ≤ k.val → f k = ⊥) :
    (Finset.univ : Finset (Fin n)).fold max ⊥ (fun k => f (Fin.castLE hn k))
      = (Finset.univ : Finset (Fin m)).fold max ⊥ f := by
  apply le_antisymm
  · rw [Finset.fold_max_le]
    refine ⟨bot_le, fun k _ => ?_⟩
    rw [Finset.le_fold_max]
    exact Or.inr ⟨Fin.castLE hn k, Finset.mem_univ _, le_rfl⟩
  · rw [Finset.fold_max_le]
    refine ⟨bot_le, fun k _ => ?_⟩
    by_cases hk : k.val < n
    · rw [Finset.le_fold_max]
      exact Or.inr ⟨⟨k.val, hk⟩, Finset.mem_univ _, le_of_eq (congrArg f (Fin.ext rfl))⟩
    · rw [h0 k (not_lt.mp hk)]
      exact bot_le

/-! ## The ingredients are finite -/

private theorem isR_dot64 {a b : Fin 64 → EReal} (ha : ∀ κ, IsR (a κ)) (hb : ∀ κ, IsR (b κ)) :
    IsR (dot64 a b) :=
  isR_sum _ _ (fun κ _ => isR_mul (ha κ) (hb κ))

private theorem isR_T1 {q vu : Head} (hq : IsReal q) (hvu : IsReal vu) (i j : Fin 1024) :
    IsR (T1 q vu i j) := by
  unfold T1
  split
  · exact isR_dot64 (hq i) (hvu j)
  · exact isR_zero

private theorem isR_LA {qu ku : Head} (hqu : IsReal qu) (hku : IsReal ku) (k j : Fin 1024) :
    IsR (LA qu ku k j) := by
  unfold LA
  split
  · exact isR_logistic (isR_dot64 (hqu k) (hku j))
  · exact isR_zero

private theorem isR_SU {q vu qu ku : Head} (hq : IsReal q) (hvu : IsReal vu) (hqu : IsReal qu)
    (hku : IsReal ku) (i k : Fin 1024) : IsR (SU q vu qu ku i k) :=
  isR_sum _ _ (fun j _ => isR_mul (isR_T1 hq hvu i j) (isR_LA hqu hku k j))

/-- On the causal part k ≤ i the score is finite. -/
private theorem isR_SC {q kk vu qu ku : Head} (hq : IsReal q) (hk : IsReal kk) (hvu : IsReal vu)
    (hqu : IsReal qu) (hku : IsReal ku) (i k : Fin 1024) (hki : k ≤ i) : IsR (SC q kk vu qu ku i k) := by
  unfold SC
  rw [if_pos hki]
  exact isR_sub (isR_dot64 (hq i) (hk k))
    (isR_mul (isR_SU hq hvu hqu hku i k) (isR_logistic (isR_SU hq hvu hqu hku i k)))

/-- After the causal part the score is −∞. -/
private theorem SC_eq_bot (q kk vu qu ku : Head) (i k : Fin 1024) (hki : ¬ k ≤ i) :
    SC q kk vu qu ku i k = ⊥ := by
  unfold SC
  rw [if_neg hki]

/-- The row maximum is finite: it is at least the finite diagonal score, and no score is +∞. -/
private theorem isR_MX {q kk vu qu ku : Head} (hq : IsReal q) (hk : IsReal kk) (hvu : IsReal vu)
    (hqu : IsReal qu) (hku : IsReal ku) (i : Fin 1024) : IsR (MX q kk vu qu ku i) := by
  have hne_bot : MX q kk vu qu ku i ≠ ⊥ := by
    obtain ⟨s, hs⟩ := isR_SC hq hk hvu hqu hku i i le_rfl
    have hle : (s : EReal) ≤ MX q kk vu qu ku i := by
      unfold MX
      rw [Finset.le_fold_max]
      exact Or.inr ⟨i, Finset.mem_univ i, hs.ge⟩
    intro h
    rw [h] at hle
    exact absurd hle (not_le.mpr (EReal.bot_lt_coe s))
  have hne_top : MX q kk vu qu ku i ≠ ⊤ := by
    have hlt : MX q kk vu qu ku i < ⊤ := by
      unfold MX
      rw [Finset.fold_max_lt]
      refine ⟨bot_lt_top, fun k _ => ?_⟩
      by_cases hki : k ≤ i
      · obtain ⟨s, hs⟩ := isR_SC hq hk hvu hqu hku i k hki
        rw [hs]
        exact EReal.coe_lt_top s
      · rw [SC_eq_bot q kk vu qu ku i k hki]
        exact bot_lt_top
    exact hlt.ne
  exact ⟨_, (EReal.coe_toReal hne_top hne_bot).symm⟩

/-- After the causal part the weight is e^(−∞ − m) = e^(−∞) = 0. -/
private theorem PU_eq_zero (q kk vu qu ku : Head) (i k : Fin 1024) (hki : ¬ k ≤ i) :
    PU q kk vu qu ku i k = 0 := by
  unfold PU
  rw [SC_eq_bot q kk vu qu ku i k hki, EReal.bot_sub, Ideal.exp_bot]

/-- Every weight is a nonnegative real, positive on the causal part. -/
private theorem PU_real {q kk vu qu ku : Head} (hq : IsReal q) (hk : IsReal kk) (hvu : IsReal vu)
    (hqu : IsReal qu) (hku : IsReal ku) (i k : Fin 1024) :
    ∃ p : ℝ, PU q kk vu qu ku i k = (p : EReal) ∧ 0 ≤ p ∧ (k ≤ i → 0 < p) := by
  obtain ⟨m, hm⟩ := isR_MX hq hk hvu hqu hku i
  by_cases hki : k ≤ i
  · obtain ⟨s, hs⟩ := isR_SC hq hk hvu hqu hku i k hki
    refine ⟨Real.exp (s - m), ?_, (Real.exp_pos _).le, fun _ => Real.exp_pos _⟩
    unfold PU
    rw [hs, hm, ← EReal.coe_sub, Ideal.exp_coe]
  · refine ⟨0, ?_, le_rfl, fun h => absurd h hki⟩
    rw [PU_eq_zero q kk vu qu ku i k hki, EReal.coe_zero]

/-! ## The prefix quantities are the whole-row quantities -/

section Prefix

variable (n : ℕ) (hn : n ≤ 1024) {q kk vu qu ku : Head}
  (hq : IsReal q) (hvu : IsReal vu) (hqu : IsReal qu) (hku : IsReal ku)
  (i : Fin 1024) (hi : i.val < n)

include hi in
/-- A position from n on lies after the causal part of row i. -/
private theorem not_le_of_prefix (k : Fin 1024) (hk : n ≤ k.val) : ¬ k ≤ i := by
  rw [Fin.le_def]
  omega

include hq hvu hqu hku hi in
/-- The two remainder products vanish and the leading one extends to all positions. -/
private theorem kSU_eq (k : Fin n) :
    kSU n hn q vu qu ku i k = SU q vu qu ku i (Fin.castLE hn k) := by
  have hLA : ∀ j : Fin n, LA qu ku (Fin.castLE hn k) (Fin.castLE hn j)
      - LA qu ku (Fin.castLE hn k) (Fin.castLE hn j) = 0 :=
    fun j => sub_self_of_isR (isR_LA hqu hku _ _)
  have hT1 : ∀ j : Fin n, T1 q vu i (Fin.castLE hn j) - T1 q vu i (Fin.castLE hn j) = 0 :=
    fun j => sub_self_of_isR (isR_T1 hq hvu _ _)
  unfold kSU SU
  simp only [hLA, hT1, mul_zero, zero_mul, Finset.sum_const_zero, add_zero]
  refine sum_castLE hn (fun j => T1 q vu i j * LA qu ku (Fin.castLE hn k) j) (fun j hj => ?_)
  have hji : ¬ j ≤ i := not_le_of_prefix n i hi j hj
  simp only [T1, if_neg hji, zero_mul]

include hq hvu hqu hku hi in
private theorem kSC_eq (k : Fin n) :
    kSC n hn q kk vu qu ku i k = SC q kk vu qu ku i (Fin.castLE hn k) := by
  unfold kSC SC
  rw [kSU_eq n hn hq hvu hqu hku i hi k]

include hq hvu hqu hku hi in
private theorem kMX_eq : kMX n hn q kk vu qu ku i = MX q kk vu qu ku i := by
  unfold kMX MX
  have hfun : kSC n hn q kk vu qu ku i = fun k => SC q kk vu qu ku i (Fin.castLE hn k) :=
    funext (fun k => kSC_eq n hn hq hvu hqu hku i hi k)
  rw [hfun]
  exact fold_max_castLE hn _ (fun k hk => SC_eq_bot q kk vu qu ku i k (not_le_of_prefix n i hi k hk))

include hq hvu hqu hku hi in
private theorem kPU_eq (k : Fin n) :
    kPU n hn q kk vu qu ku i k = PU q kk vu qu ku i (Fin.castLE hn k) := by
  unfold kPU PU
  rw [kSC_eq n hn hq hvu hqu hku i hi k, kMX_eq n hn hq hvu hqu hku i hi]

include hq hvu hqu hku hi in
private theorem kLS_eq : kLS n hn q kk vu qu ku i = LS q kk vu qu ku i := by
  unfold kLS LS
  simp only [kPU_eq n hn hq hvu hqu hku i hi]
  exact sum_castLE hn _ (fun k hk => PU_eq_zero q kk vu qu ku i k (not_le_of_prefix n i hi k hk))

include hq hvu hqu hku hi in
private theorem kNum_eq (v : Head) (d : Fin 64) :
    ∑ k : Fin n, kPU n hn q kk vu qu ku i k * v (Fin.castLE hn k) d
      = ∑ k : Fin 1024, PU q kk vu qu ku i k * v k d := by
  simp only [kPU_eq n hn hq hvu hqu hku i hi]
  refine sum_castLE hn (fun k => PU q kk vu qu ku i k * v k d) (fun k hk => ?_)
  simp only [PU_eq_zero q kk vu qu ku i k (not_le_of_prefix n i hi k hk), zero_mul]

end Prefix

/-- The row block's result over the key prefix n is the head's result, for a row inside the prefix and finite inputs. -/
theorem kOUT_eq_OUT (n : ℕ) (hn : n ≤ 1024) (q kk v qu ku vu : Head)
    (hq : IsReal q) (hk : IsReal kk) (hv : IsReal v) (hqu : IsReal qu) (hku : IsReal ku) (hvu : IsReal vu)
    (i : Fin 1024) (hi : i.val < n) (d : Fin 64) :
    kOUT n hn q kk v qu ku vu i d = OUT q kk v qu ku vu i d := by
  unfold kOUT OUT
  rw [kNum_eq n hn hq hvu hqu hku i hi v d, kLS_eq n hn hq hvu hqu hku i hi]
  -- real witnesses: the weights p k ≥ 0 with p i > 0, the values w k d, the normaliser L = Σ p k > 0
  choose p hp hp0 hppos using PU_real hq hk hvu hqu hku i
  choose w hw using hv
  have hLS : LS q kk vu qu ku i = ((∑ k, p k : ℝ) : EReal) := by
    unfold LS
    rw [coe_sum]
    exact Finset.sum_congr rfl (fun k _ => hp k)
  have hL : (∑ k, p k) ≠ 0 :=
    (Finset.sum_pos' (fun k _ => hp0 k) ⟨i, Finset.mem_univ i, hppos i le_rfl⟩).ne'
  rw [hLS]
  simp only [hp, hw, Ideal.div_coe hL, ← EReal.coe_mul, ← coe_sum]
  rw [EReal.coe_eq_coe_iff, Finset.sum_mul]
  exact Finset.sum_congr rfl (fun k _ => by ring)

end Cert.Attn

end
-- ==== Proof.Loads.lean ====
/-
  What the body's loads read, as entries of the blocks.

  Each input's staging buffer holds that input's block, so a load of rows [o, o + n) of it reads those rows of the
  block: entry (0, 0, r, κ) of the load is entry (0, 0, o + r, κ) of the block. A scratch buffer that was stored whole
  and is then read back on the leading n × n square returns the stored value's entries there.
-/
import proofs.«415080_j88252987998455_3_alg».proof.Proof.Gen.KernelIdeal.Frame
import Idealize.ShloMosaic.Lib.WholeRead
import Idealize.ShloMosaic.Lib.ValueIdx

set_option maxRecDepth 16384

noncomputable section

namespace Cert.KernelIdeal.Loads

open Cert.KernelIdeal Cert.KernelIdeal.Gen Idealize.ShloMosaic Idealize.ShloMosaic.ValueIdx

theorem zero4 : (![0, 0, 0, 0] : Fin 4 → Nat) = fun _ => 0 := funext fun a => by fin_cases a <;> rfl
theorem zero2 : (![0, 0] : Fin 2 → Nat) = fun _ => 0 := funext fun a => by fin_cases a <;> rfl

/-- A load of the whole block reads the block. -/
theorem load_whole (arg : Memref sig .tc .vmem S1x1x1024x64 .f32) (harg : arg.IsWhole) (x : Vec Ideal S1x1x1024x64 .f32)
    (inb : ∀ a, (![0, 0, 0, 0] : Fin 4 → Nat) a + S1x1x1024x64.size a ≤ S1x1x1024x64.size a) :
    View.readAt (Elt Ideal) arg.view (Rect.unit (s := S1x1x1024x64) ![0, 0, 0, 0] S1x1x1024x64.size inb).toLoadRect
        (harg.unread x) = x := by
  rw [View.readAt_eq_ld, harg.read_unread, View.ld_unit_zero zero4]

/-- A load of rows [o, o + n): entry (0, 0, r, κ) is the block's entry (0, 0, o + r, κ). -/
theorem load_rows (arg : Memref sig .tc .vmem S1x1x1024x64 .f32) (harg : arg.IsWhole) (x : Vec Ideal S1x1x1024x64 .f32)
    (o n : Nat) (inb : ∀ a, (![0, 0, o, 0] : Fin 4 → Nat) a + (![1, 1, n, 64] : Fin 4 → Nat) a ≤ S1x1x1024x64.size a)
    (r : Fin n) (κ : Fin 64) (h : o + r.val < 1024) :
    View.readAt (Elt Ideal) arg.view (Rect.unit (s := S1x1x1024x64) ![0, 0, o, 0] ![1, 1, n, 64] inb).toLoadRect
        (harg.unread x) (ix4 (0 : Fin 1) (0 : Fin 1) r κ)
      = x (ix4 (0 : Fin 1) (0 : Fin 1) ⟨o + r.val, h⟩ κ) := by
  rw [harg.readAt_unread]
  refine congrArg x (funext fun a => Fin.ext ?_)
  match a with
  | ⟨0, _⟩ => rfl
  | ⟨1, _⟩ => rfl
  | ⟨2, _⟩ => show o + 1 * r.val = o + r.val; omega
  | ⟨3, _⟩ => show 0 + 1 * κ.val = κ.val; omega

/-- A scratch buffer stored whole with P and read back on the leading n × n square: entry (k, j) is P's. -/
theorem readback (arg : Memref sig .tc .vmem S1024x1024 .bf16) (P : Vec Ideal S1024x1024 .bf16) (n : Nat) (hn : n ≤ 1024)
    (inbW : ∀ a, (![0, 0] : Fin 2 → Nat) a + S1024x1024.size a ≤ S1024x1024.size a)
    (inb : ∀ a, (![0, 0] : Fin 2 → Nat) a + (![n, n] : Fin 2 → Nat) a ≤ S1024x1024.size a) (k j : Fin n) :
    arg.view.readCov [⟨Rect.unit (s := S1024x1024) ![0, 0] S1024x1024.size inbW, P⟩]
        (Rect.unit (s := S1024x1024) ![0, 0] ![n, n] inb).toLoadRect (ix2 k j)
      = P (ix2 (Fin.castLE hn k) (Fin.castLE hn j)) := by
  rw [View.readCov_eq_canon']
  show View.canon _ _ = _
  rw [View.canon_unit_zero zero2]
  refine congrArg P (funext fun a => Fin.ext ?_)
  match a with
  | ⟨0, _⟩ => show 0 + 1 * k.val = k.val; omega
  | ⟨1, _⟩ => show 0 + 1 * j.val = j.val; omega

end Cert.KernelIdeal.Loads

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.LibDotT.lean ====
/-
  The product of an N × K matrix by the TRANSPOSE of an M × K matrix, read at an index.

  A product whose dimension numbers contract axis 1 of the left operand with axis 1 of the right, keep axis 0 of each
  and carry no batch axis has, at (n, j), the value Σ_κ l (n, κ) · r (j, κ): row n of the left operand against row j
  of the right. Stated for any dimension-numbers record whose lists have those values, generically in the sizes and
  the operands' formats, at the ideal values (a float is an extended real): for the host product, for the
  accumulating block product (also into the zero splat), and for the bare sum over the record's contraction index
  that they all reduce to.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- A product record of an N × K by an M × K matrix whose lists are those of the product with the right operand
    contracted on its last axis is that product's record: the lists agree and the well-formedness is a proposition. -/
theorem dot_eq_transposedRhs {N K M : Nat} (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = []) :
    d = DotDims.transposedRhs N K M := by
  cases d
  simp only at hlc hrc hln hrn hlb hrb
  subst hlc hrc hln hrn hlb hrb
  rfl

/-- The contraction's sum of the record itself at (n, j): the contraction index is one coordinate κ < K, the left
    operand is read at (n, κ) and the right at (j, κ). -/
theorem transposedRhs_contr_sum {N K M : Nat} {φ₁ φ₂ : FTy}
    (l : FVec Ideal ⟨2, ![N, K]⟩ φ₁) (r : FVec Ideal ⟨2, ![M, K]⟩ φ₂) (n : Fin N) (j : Fin M) :
    ∑ k : (DotDims.transposedRhs N K M).contr.Idx,
        l ((DotDims.transposedRhs N K M).lhsIdx (ix2 n j) k) * r ((DotDims.transposedRhs N K M).rhsIdx (ix2 n j) k)
      = ∑ κ : Fin K, l (ix2 n κ) * r (ix2 j κ) := by
  rw [← Equiv.sum_comp (contrEquiv1 (DotDims.transposedRhs N K M) K rfl rfl).symm]
  refine Finset.sum_congr rfl fun c _ => ?_
  have c2 := contrEquiv1_symm_val (DotDims.transposedRhs N K M) K rfl rfl c
  have l2 : (DotDims.transposedRhs N K M).lhsIdx (ix2 n j) ((contrEquiv1 _ K rfl rfl).symm c) = ix2 n c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs N K M).rhsIdx (ix2 n j) ((contrEquiv1 _ K rfl rfl).symm c) = ix2 j c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- THE CONTRACTION'S SUM AT (n, j), for any record with those lists: Σ_κ l (n, κ) · r (j, κ). -/
theorem contr_sum_rowsT {N K M : Nat} {φ₁ φ₂ : FTy} (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = [])
    (l : FVec Ideal ⟨2, ![N, K]⟩ φ₁) (r : FVec Ideal ⟨2, ![M, K]⟩ φ₂) (n : Fin N) (j : Fin M) :
    ∑ k : d.contr.Idx, l (d.lhsIdx (ix2 n j) k) * r (d.rhsIdx (ix2 n j) k) = ∑ κ : Fin K, l (ix2 n κ) * r (ix2 j κ) := by
  rw [dot_eq_transposedRhs d hlc hrc hln hrn hlb hrb]
  exact transposedRhs_contr_sum l r n j

/-- THE HOST PRODUCT READ AT (n, j): Σ_κ l (n, κ) · r (j, κ). -/
theorem dot_rowsT_apply {N K M : Nat} {φ₁ φ₂ : FTy} (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![N, K]⟩ φ₁) (r : FVec Ideal ⟨2, ![M, K]⟩ φ₂) (n : Fin N) (j : Fin M) :
    Host.dotGeneral (F := Ideal) d prec l r (ix2 n j) = ∑ κ : Fin K, l (ix2 n κ) * r (ix2 j κ) := by
  show FloatOps.dotGeneral d prec .single l r (ix2 n j) = _
  rw [Ideal.dotGeneral_apply]
  exact contr_sum_rowsT d hlc hrc hln hrn hlb hrb l r n j

/-- THE ACCUMULATING BLOCK PRODUCT READ AT (n, j): the accumulator's entry plus Σ_κ l (n, κ) · r (j, κ). -/
theorem matmul_rowsT_apply {N K M : Nat} {φ₁ φ₂ : FTy} (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![N, K]⟩ φ₁) (r : FVec Ideal ⟨2, ![M, K]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 j κ) := by
  rw [Ideal.matmul_apply]
  exact congrArg (acc (ix2 n j) + ·) (contr_sum_rowsT d hlc hrc hln hrn hlb hrb l r n j)

/-- THE BLOCK PRODUCT INTO THE ZERO SPLAT READ AT (n, j): just Σ_κ l (n, κ) · r (j, κ). -/
theorem matmul_zero_rowsT_apply {N K M : Nat} {φ₁ φ₂ : FTy} (d : DotDims ⟨2, ![N, K]⟩ ⟨2, ![M, K]⟩ ⟨2, ![N, M]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![N, K]⟩ φ₁) (r : FVec Ideal ⟨2, ![M, K]⟩ φ₂) (n : Fin N) (j : Fin M) :
    FloatOps.matmul d prec l r (constant ⟨2, ![N, M]⟩ .f32 0x00000000#32) (ix2 n j)
      = ∑ κ : Fin K, l (ix2 n κ) * r (ix2 j κ) := by
  rw [Ideal.matmul_constant_zero_apply]
  exact contr_sum_rowsT d hlc hrc hln hrn hlb hrb l r n j

end Cert.LibDotT

end
-- ==== Proof.LaPhase.lean ====
/-
  What the kernel's first phase leaves, entry by entry.

  The look-ahead gate la k j = σ (qu_k · ku_j) for k < j, else 0, is computed once for the whole head: a product of
  the qu block with the transposed ku block, the logistic function, and a select on the column-greater-than-row mask.
  It is stored twice: rounded to the short format (the identity on extended reals), and as the remainder
  la − round (la) = la − la. The k, v blocks are rounded to the short format and reshaped from [1, 1, 1024, 64] to
  [1024, 64]: the same entries.
-/
import proofs.«415080_j88252987998455_3_alg».proof.Proof.Gen.KernelIdeal.Skeleton
import proofs.«415080_j88252987998455_3_alg».proof.Proof.Heads
import proofs.«415080_j88252987998455_3_alg».proof.Proof.LibDot
import proofs.«415080_j88252987998455_3_alg».proof.Proof.LibDotT
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open scoped BigOperators

namespace Cert.KernelIdeal.LaPhase

open Cert.KernelIdeal Cert.KernelIdeal.Gen Idealize.ShloMosaic Idealize.ShloMosaic.ValueIdx Cert.Attn

/-- A [1, 1, a, b] array cast to [a, b] reads, at (i, j), the operand at (0, 0, i, j): both indices have the
    row-major position i · b + j. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The column-greater-than-row mask at (k, j) is set exactly when k < j: both coordinates are below 1024 < 2³¹, so
    the signed comparison of the two 32-bit words is the order of the naturals. -/
theorem mask_apply (k j : Fin 1024) :
    cmpi .sgt (iota .tc S1024x1024 32 [1] iota_S1024x1024_d1_w32) (iota .tc S1024x1024 32 [0] iota_S1024x1024_d0_w32)
        (ix2 k j) = 1#1 ↔ k < j := by
  show IntOp.cmpi .sgt (iota .tc S1024x1024 32 [1] iota_S1024x1024_d1_w32 (ix2 k j))
      (iota .tc S1024x1024 32 [0] iota_S1024x1024_d0_w32 (ix2 k j)) = 1#1 ↔ k < j
  rw [iota_single_apply, iota_single_apply]
  show IntOp.cmpi .sgt (BitVec.ofNat 32 j.val) (BitVec.ofNat 32 k.val) = 1#1 ↔ k < j
  have hk : (BitVec.ofNat 32 k.val).toNat = k.val := by
    rw [BitVec.toNat_ofNat]; exact Nat.mod_eq_of_lt (by omega)
  have hj : (BitVec.ofNat 32 j.val).toNat = j.val := by
    rw [BitVec.toNat_ofNat]; exact Nat.mod_eq_of_lt (by omega)
  rw [StableHlo.Predicate.sgt_iff_toNat (by rw [hj]; omega) (by rw [hk]; omega), hk, hj]
  exact Fin.lt_def.symm

/-- The gate before it is stored: la k j. (v0 = the qu block, v2 = the ku block.) -/
theorem pay2_apply (v0 v2 : Vec Ideal S1x1x1024x64 .f32) (k j : Fin 1024) :
    k0_pay2 (F := Ideal) v0 v2 (ix2 k j) = LA (headOfBlock v0) (headOfBlock v2) k j := by
  unfold k0_pay2 LA
  simp only [select_apply]
  by_cases h : k < j
  · rw [(mask_apply k j).mpr h, select_one, if_pos h]
    show FloatOps.logistic (F := Ideal) (φ := .f32) (FloatOps.matmul (F := Ideal) dot_S1024x64_S1024x64_S1024x1024_1_1_0_0_n_n (some ContractPrecision.fp32)
        (shapeCast S1024x64 v0 shapeCasts_S1x1x1024x64_S1024x64)
        (shapeCast S1024x64 v2 shapeCasts_S1x1x1024x64_S1024x64) (constant (F := Ideal) S1024x1024 .f32 0x00000000#32) (ix2 k j))
      = Ideal.logistic (dot64 (headOfBlock v0 k) (headOfBlock v2 j))
    rw [Ideal.logistic_def, Cert.LibDotT.matmul_zero_rowsT_apply _ rfl rfl rfl rfl rfl rfl]
    refine congrArg Ideal.logistic (Finset.sum_congr rfl fun κ _ => ?_)
    rw [shapeCast_11ab_ab_apply, shapeCast_11ab_ab_apply]
    rfl
  · rw [eq_zero_of_ne_one (mt (mask_apply k j).mp h), select_zero, if_neg h]
    exact Ideal.ofBits_zero_f32

/-- The gate as stored in the first scratch buffer: la k j. (v0 = the qu block, v2 = the ku block.) -/
theorem pay3_apply (v0 v2 : Vec Ideal S1x1x1024x64 .f32) (k j : Fin 1024) :
    k0_pay3 (F := Ideal) v0 v2 (ix2 k j) = LA (headOfBlock v0) (headOfBlock v2) k j := by
  unfold k0_pay3
  rw [shapeCast_self]
  exact pay2_apply v0 v2 k j

/-- The remainder stored in the second scratch buffer: la k j − la k j. -/
theorem pay4_apply (v0 v2 : Vec Ideal S1x1x1024x64 .f32) (k j : Fin 1024) :
    k0_pay4 (F := Ideal) v0 v2 (ix2 k j)
      = LA (headOfBlock v0) (headOfBlock v2) k j - LA (headOfBlock v0) (headOfBlock v2) k j := by
  unfold k0_pay4
  rw [shapeCast_self]
  show k0_pay2 (F := Ideal) v0 v2 (ix2 k j) - k0_pay2 (F := Ideal) v0 v2 (ix2 k j) = _
  rw [pay2_apply]

/-- The k block, rounded and reshaped: the same entries. -/
theorem pay5_apply (v21 : Vec Ideal S1x1x1024x64 .f32) (c : Fin 1024) (κ : Fin 64) :
    k0_pay5 (F := Ideal) v21 (ix2 c κ) = v21 (ix4 (0 : Fin 1) (0 : Fin 1) c κ) := by
  unfold k0_pay5
  exact shapeCast_11ab_ab_apply v21 shapeCasts_S1x1x1024x64_S1024x64 c κ

/-- The v block, rounded and reshaped: the same entries. -/
theorem pay6_apply (v24 : Vec Ideal S1x1x1024x64 .f32) (c : Fin 1024) (κ : Fin 64) :
    k0_pay6 (F := Ideal) v24 (ix2 c κ) = v24 (ix4 (0 : Fin 1) (0 : Fin 1) c κ) := by
  unfold k0_pay6
  exact shapeCast_11ab_ab_apply v24 shapeCasts_S1x1x1024x64_S1024x64 c κ

end Cert.KernelIdeal.LaPhase

end
-- ==== Proof.Block0.lean ====
/-
  Row block 0 of a head: query rows 0 to 255 against the first 256 key positions.

  The block's stored value at (r, d) is, operation by operation: the causally masked product of the 256 query rows
  with the first 256 rows of vu (t1), split into its rounding and the remainder t1 − t1; the three products of those
  with the stored gate and its remainder, added (su); the scores q · k − su · σ (su), masked to −∞ off the causal
  triangle; the row maximum, the exponentials, their row sum; the product of the exponentials with the first 256 rows of
  v, divided by the row sum. Roundings to the short format are the identity on extended reals, a block product into the
  zero accumulator is the plain sum over the contracted coordinate, a lane reduction is the fold or the sum over the
  row, and the named fill value is −∞: so the value is `kOUT 256` at row 0 + r.
-/
import proofs.«415080_j88252987998455_3_alg».proof.Proof.Gen.KernelIdeal.Skeleton
import proofs.«415080_j88252987998455_3_alg».proof.Proof.Heads
import proofs.«415080_j88252987998455_3_alg».proof.Proof.LibDot
import proofs.«415080_j88252987998455_3_alg».proof.Proof.LibDotT
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block0

open Cert.KernelIdeal Cert.KernelIdeal.Gen Idealize.ShloMosaic Idealize.ShloMosaic.ValueIdx Cert.Attn

/-! ## The block's intermediate values, one definition per stage -/

/-- The causal mask of the block: bit (r, j) compares row 0 + r with column j. -/
def maskv : IVec S256x256 1 :=
  cmpi .sge (addi (iota .tc S256x256 32 [0] iota_S256x256_d0_w32) (broadcast S256x256 0#32))
    (iota .tc S256x256 32 [1] iota_S256x256_d1_w32)

/-- t1: the product of the query rows with the vu rows, kept on the mask, zero off it. -/
def t1v (a b : FVec Ideal S256x64 .f32) : FVec Ideal S256x256 .f32 :=
  select maskv (matmul dot_S256x64_S256x64_S256x256_1_1_0_0_n_n (some .fp32) a b (constant S256x256 .f32 0x00000000#32))
    (broadcast S256x256 (Scalar.ofBits .f32 0x00000000#32))

/-- su: the three products of t1 and its remainder with the gate and its remainder, added. -/
def suv (t : FVec Ideal S256x256 .f32) (g g' : FVec Ideal S256x256 .bf16) : FVec Ideal S256x256 .f32 :=
  addf (addf
      (matmul dot_S256x256_S256x256_S256x256_1_1_0_0_n_n none (truncf .bf16 t bitsLt_bf16_f32) g (constant S256x256 .f32 0x00000000#32))
      (matmul dot_S256x256_S256x256_S256x256_1_1_0_0_n_n none (truncf .bf16 t bitsLt_bf16_f32) g' (constant S256x256 .f32 0x00000000#32)))
    (matmul dot_S256x256_S256x256_S256x256_1_1_0_0_n_n none (truncf .bf16 (subf t t) bitsLt_bf16_f32) g (constant S256x256 .f32 0x00000000#32))

/-- The masked score: q · k − su · σ (su) on the mask, the named fill value off it. -/
def scv (s : FVec Ideal S256x256 .f32) (a b : FVec Ideal S256x64 .bf16) : FVec Ideal S256x256 .f32 :=
  select maskv
    (subf (matmul dot_S256x64_S256x64_S256x256_1_1_0_0_n_n none a b (constant S256x256 .f32 0x00000000#32)) (mulf s (logistic s)))
    (broadcast S256x256 (Named.named κ "neg_big" (0xF149F2CA#32 : BitVec (FTy.bits .f32))))

/-- The row maximum. -/
def mxv (s : FVec Ideal S256x256 .f32) : FVec Ideal S256 .f32 :=
  multiReduction .maximumf [1] S256 s 0xFF800000#32 reduces_S256x256_S256 (.inl rfl) rfl

/-- The exponentials e^(sc − m). -/
def pv (s : FVec Ideal S256x256 .f32) : FVec Ideal S256x256 .f32 :=
  exp (subf s (broadcastTo S256x256 (shapeCast S256x1 (mxv s) shapeCasts_S256_S256x1) broadcasts_S256x1_S256x256))

/-- The row sum. -/
def lsv (p : FVec Ideal S256x256 .f32) : FVec Ideal S256 .f32 :=
  multiReduction .add [1] S256 p 0x00000000#32 reduces_S256x256_S256 (.inl rfl) rfl

/-- The product with v divided by the row sum. -/
def outv (p : FVec Ideal S256x256 .f32) (w : FVec Ideal S256x64 .bf16) : FVec Ideal S256x64 .f32 :=
  divf (matmul dot_S256x256_S256x64_S256x64_1_0_0_1_n_n none (truncf .bf16 p bitsLt_bf16_f32) w (constant S256x64 .f32 0x00000000#32))
    (broadcastTo S256x64 (shapeCast S256x1 (lsv p) shapeCasts_S256_S256x1) broadcasts_S256x1_S256x64)

/-- The block's value is the composition of the stages. -/
theorem pay9_eq (v23 v26 : FVec Ideal S1024x64 .bf16) (v28 : FVec Ideal S256x64 .f32) (v29 : FVec Ideal S256x64 .bf16)
    (v30 : Vec Ideal S1x1x256x64 .f32) (v34 v35 : Vec Ideal S256x256 .bf16) :
    k0_pay9 (F := Ideal) v23 v26 v28 v29 v30 v34 v35
      = outv (pv (scv (suv (t1v v28 (shapeCast S256x64 v30 shapeCasts_S1x1x256x64_S256x64)) v34 v35) v29
                (extractStridedSlice S256x64 ![0, 0] v23 slices_S1024x64_o0_0_S256x64)))
          (extractStridedSlice S256x64 ![0, 0] v26 slices_S1024x64_o0_0_S256x64) := rfl

/-- A natural number below 2³¹, as a 32-bit word, reads back as itself when the word is read signed. -/
theorem toInt_ofNat_small (n : Nat) (hn : n < 2 ^ 31) : (BitVec.ofNat 32 n).toInt = (n : Int) := by
  have h : (BitVec.ofNat 32 n).toNat = n := by
    rw [BitVec.toNat_ofNat]; exact Nat.mod_eq_of_lt (by omega)
  rw [BitVec.toInt_eq_toNat_of_lt (by rw [h]; omega), h]

/-- So on such numbers the signed comparison of the words is the order of the naturals. -/
theorem sle_ofNat_small (a b : Nat) (ha : a < 2 ^ 31) (hb : b < 2 ^ 31) :
    (BitVec.ofNat 32 b).sle (BitVec.ofNat 32 a) = decide (b ≤ a) := by
  rw [BitVec.sle_eq_decide, toInt_ofNat_small a ha, toInt_ofNat_small b hb]
  exact decide_eq_decide.mpr Int.ofNat_le

/-- Bit (r, j) of the mask is set exactly when j ≤ r. -/
theorem maskv_apply (r j : Fin 256) : maskv (ix2 r j) = BitVec.ofBool (decide (j.val ≤ r.val)) := by
  unfold maskv
  show IntOp.cmpi .sge (IntOp.addi (iota .tc S256x256 32 [0] iota_S256x256_d0_w32 (ix2 r j)) 0#32)
      (iota .tc S256x256 32 [1] iota_S256x256_d1_w32 (ix2 r j)) = _
  rw [iota_single_apply, iota_single_apply]
  show BitVec.ofBool ((BitVec.ofNat 32 j.val).sle (BitVec.ofNat 32 r.val + 0#32)) = _
  rw [BitVec.add_zero, sle_ofNat_small r.val j.val (by have := r.isLt; omega) (by have := j.isLt; omega)]

/-- A select on a decided condition's bit is the `if`. -/
theorem select_ofBool_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- t1 at (r, j): row r of the left operand against row j of the right for j ≤ r, zero after. -/
theorem t1v_apply (a b : FVec Ideal S256x64 .f32) (r j : Fin 256) :
    t1v a b (ix2 r j) = if j.val ≤ r.val then ∑ κ : Fin 64, a (ix2 r κ) * b (ix2 j κ) else 0 := by
  unfold t1v
  rw [select_apply, maskv_apply, select_ofBool_decide, broadcast_apply]
  refine if_congr Iff.rfl ?_ ?_
  · exact Cert.LibDotT.matmul_zero_rowsT_apply dot_S256x64_S256x64_S256x256_1_1_0_0_n_n rfl rfl rfl rfl rfl rfl (some .fp32) a b r j
  · exact Ideal.ofBits_zero_f32

/-- su at (r, k): the three sums over the contracted column j. -/
theorem suv_apply (t : FVec Ideal S256x256 .f32) (g g' : FVec Ideal S256x256 .bf16) (r k : Fin 256) :
    suv t g g' (ix2 r k)
      = (∑ j : Fin 256, t (ix2 r j) * g (ix2 k j) + ∑ j : Fin 256, t (ix2 r j) * g' (ix2 k j))
        + ∑ j : Fin 256, (t (ix2 r j) - t (ix2 r j)) * g (ix2 k j) := by
  unfold suv
  rw [addf_apply, addf_apply]
  refine congrArg₂ (· + ·) (congrArg₂ (· + ·) ?_ ?_) ?_
  · exact Cert.LibDotT.matmul_zero_rowsT_apply dot_S256x256_S256x256_S256x256_1_1_0_0_n_n rfl rfl rfl rfl rfl rfl none
      (truncf .bf16 t bitsLt_bf16_f32) g r k
  · exact Cert.LibDotT.matmul_zero_rowsT_apply dot_S256x256_S256x256_S256x256_1_1_0_0_n_n rfl rfl rfl rfl rfl rfl none
      (truncf .bf16 t bitsLt_bf16_f32) g' r k
  · exact Cert.LibDotT.matmul_zero_rowsT_apply dot_S256x256_S256x256_S256x256_1_1_0_0_n_n rfl rfl rfl rfl rfl rfl none
      (truncf .bf16 (subf t t) bitsLt_bf16_f32) g r k

/-- The named fill value is −∞. -/
theorem neg_big_eq : Named.named (F := Ideal) κ "neg_big" (φ := .f32) 0xF149F2CA#32 = (⊥ : EReal) :=
  IdealRules.named_const.ideal_named_scalar _ _ _ _ rfl

/-- The masked score at (r, k). -/
theorem scv_apply (s : FVec Ideal S256x256 .f32) (a b : FVec Ideal S256x64 .bf16) (r k : Fin 256) :
    scv s a b (ix2 r k)
      = if k.val ≤ r.val then
          (∑ κ : Fin 64, a (ix2 r κ) * b (ix2 k κ)) - s (ix2 r k) * Ideal.logistic (s (ix2 r k))
        else ⊥ := by
  unfold scv
  rw [select_apply, maskv_apply, select_ofBool_decide, broadcast_apply]
  refine if_congr Iff.rfl ?_ neg_big_eq
  rw [subf_apply]
  exact congrArg (· - s (ix2 r k) * Ideal.logistic (s (ix2 r k)))
    (Cert.LibDotT.matmul_zero_rowsT_apply dot_S256x64_S256x64_S256x256_1_1_0_0_n_n rfl rfl rfl rfl rfl rfl none a b r k)

/-- The bit pattern of the maximum's accumulator is −∞. -/
theorem ofBits_neg_inf : Ideal.ofBits .f32 0xFF800000#32 = (⊥ : EReal) := by simp [Ideal.ofBits, Ideal.ieee]

/-- The reduction over the columns inserts the column coordinate after the row's. -/
theorem lift_ix1 (r k : Fin 256) : reduces_S256x256_S256.lift (ix1 r) k = ix2 r k := by
  funext c
  match c with
  | ⟨0, _⟩ => exact Fin.ext rfl
  | ⟨1, _⟩ => exact Fin.ext rfl

/-- The row maximum at r: the fold of max over the row's columns from −∞. -/
theorem mxv_apply (s : FVec Ideal S256x256 .f32) (r : Fin 256) :
    mxv s (ix1 r) = (Finset.univ : Finset (Fin 256)).fold max ⊥ (fun k => s (ix2 r k)) := by
  unfold mxv
  refine (Ideal.multiReduction_maximumf_single s 0xFF800000#32 reduces_S256x256_S256 (.inl rfl) rfl (ix1 r)).trans ?_
  have hf : (s ∘ reduces_S256x256_S256.lift (ix1 r)) = fun k : Fin 256 => s (ix2 r k) :=
    funext fun k => congrArg s (lift_ix1 r k)
  rw [hf]
  exact congrArg (fun b => (Finset.univ : Finset (Fin 256)).fold max b (fun k => s (ix2 r k))) ofBits_neg_inf

/-- The row sum at r. -/
theorem lsv_apply (p : FVec Ideal S256x256 .f32) (r : Fin 256) :
    lsv p (ix1 r) = ∑ k : Fin 256, p (ix2 r k) := by
  unfold lsv
  refine (Ideal.multiReduction_add_single p 0x00000000#32 reduces_S256x256_S256 (.inl rfl) rfl (ix1 r)).trans ?_
  exact Finset.sum_congr rfl fun k _ => congrArg p (lift_ix1 r k)

/-- A vector viewed as a column: entry (i, 0) of the column is entry i of the vector. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows: entry (p, c) is the column's entry (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential at (r, k): e^(score − row maximum). -/
theorem pv_apply (s : FVec Ideal S256x256 .f32) (r k : Fin 256) :
    pv s (ix2 r k)
      = Ideal.exp (s (ix2 r k) - (Finset.univ : Finset (Fin 256)).fold max ⊥ (fun k' => s (ix2 r k'))) := by
  unfold pv
  show Ideal.exp (s (ix2 r k)
    - broadcastTo S256x256 (shapeCast S256x1 (mxv s) shapeCasts_S256_S256x1) broadcasts_S256x1_S256x256 (ix2 r k)) = _
  rw [broadcastTo_a1_ab_apply, shapeCast_a_a1_apply, mxv_apply]

/-- The block's quotient at (r, d): the product of the exponentials with w over the row sum. -/
theorem outv_apply (p : FVec Ideal S256x256 .f32) (w : FVec Ideal S256x64 .bf16) (r : Fin 256) (d : Fin 64) :
    outv p w (ix2 r d) = Ideal.div (∑ k : Fin 256, p (ix2 r k) * w (ix2 k d)) (∑ k : Fin 256, p (ix2 r k)) := by
  unfold outv
  rw [divf_apply, broadcastTo_a1_ab_apply, shapeCast_a_a1_apply, lsv_apply]
  refine congrArg (fun x => Ideal.div x (∑ k : Fin 256, p (ix2 r k))) ?_
  refine (Cert.LibDot.matmul_rows_apply dot_S256x256_S256x64_S256x64_1_0_0_1_n_n rfl rfl rfl rfl rfl rfl none
    (truncf .bf16 p bitsLt_bf16_f32) w (constant S256x64 .f32 0x00000000#32) r d).trans ?_
  rw [constant_apply, Ideal.ofBits_zero_f32, zero_add]
  rfl

/-- The query block viewed as a matrix: entry (r, κ) is the block's entry (0, 0, r, κ). -/
theorem pay7_apply (v27 : Vec Ideal S1x1x256x64 .f32) (r : Fin 256) (κ : Fin 64) :
    k0_pay7 (F := Ideal) v27 (ix2 r κ) = v27 (ix4 (0 : Fin 1) (0 : Fin 1) r κ) := by
  unfold k0_pay7
  refine shapeCast_apply _ _ _ _ ?_
  rw [Shape.rowMajor_val_four, Shape.rowMajor_val_two]
  show ((0 * 1 + 0) * 256 + r.val) * 64 + κ.val = r.val * 64 + κ.val
  omega

/-- The same view of any [1, 1, 256, 64] block. -/
theorem cast4_apply (x : Vec Ideal S1x1x256x64 .f32) (r : Fin 256) (κ : Fin 64) :
    shapeCast S256x64 x shapeCasts_S1x1x256x64_S256x64 (ix2 r κ) = x (ix4 (0 : Fin 1) (0 : Fin 1) r κ) := by
  refine shapeCast_apply _ _ _ _ ?_
  rw [Shape.rowMajor_val_four, Shape.rowMajor_val_two]
  show ((0 * 1 + 0) * 256 + r.val) * 64 + κ.val = r.val * 64 + κ.val
  omega

/-- The result matrix stored as a block: the block's entry (0, 0, r, d) is the matrix's entry (r, d). -/
theorem pay10_apply (x : FVec Ideal S256x64 .f32) (r : Fin 256) (d : Fin 64) :
    k0_pay10 (F := Ideal) x (ix4 (0 : Fin 1) (0 : Fin 1) r d) = x (ix2 r d) := by
  unfold k0_pay10
  refine shapeCast_apply _ _ _ _ ?_
  rw [Shape.rowMajor_val_four, Shape.rowMajor_val_two]
  show r.val * 64 + d.val = ((0 * 1 + 0) * 256 + r.val) * 64 + d.val
  omega

/-- The leading 256 rows of a [1024, 64] matrix. -/
theorem rows256_apply (x : FVec Ideal S1024x64 .bf16) (c : Fin 256) (κ : Fin 64) :
    extractStridedSlice S256x64 ![0, 0] x slices_S1024x64_o0_0_S256x64 (ix2 c κ) = x (ix2 (Fin.castLE (by decide) c) κ) :=
  slice2_axis0_apply 0 x slices_S1024x64_o0_0_S256x64 c κ (Fin.castLE (by decide) c) (Nat.zero_add _).symm

/-! ## The stages against the head's functions -/

/-- t1 of the block at (r, j) is the head's causal history T1 at row r, column j. -/
theorem t1_eq (q vu : Head) (a b : FVec Ideal S256x64 .f32) (r : Fin 256)
    (ha : ∀ κ : Fin 64, a (ix2 r κ) = q ⟨r.val, by omega⟩ κ)
    (hb : ∀ (c : Fin 256) (κ : Fin 64), b (ix2 c κ) = vu (Fin.castLE (by decide) c) κ) (j : Fin 256) :
    t1v a b (ix2 r j) = T1 q vu ⟨r.val, by omega⟩ (Fin.castLE (by decide) j) := by
  rw [t1v_apply]
  unfold T1 dot64
  refine if_congr Iff.rfl (Finset.sum_congr rfl fun κ _ => ?_) rfl
  rw [ha, hb]

/-- su of the block at (r, k) is the head's three-product sum over the key prefix. -/
theorem su_eq (q vu qu ku : Head) (t : FVec Ideal S256x256 .f32) (g g' : FVec Ideal S256x256 .bf16) (r : Fin 256)
    (ht : ∀ j : Fin 256, t (ix2 r j) = T1 q vu ⟨r.val, by omega⟩ (Fin.castLE (by decide) j))
    (hg : ∀ k j : Fin 256, g (ix2 k j) = LA qu ku (Fin.castLE (by decide) k) (Fin.castLE (by decide) j))
    (hg' : ∀ k j : Fin 256, g' (ix2 k j)
      = LA qu ku (Fin.castLE (by decide) k) (Fin.castLE (by decide) j) - LA qu ku (Fin.castLE (by decide) k) (Fin.castLE (by decide) j))
    (k : Fin 256) :
    suv t g g' (ix2 r k) = kSU 256 (by decide) q vu qu ku ⟨r.val, by omega⟩ k := by
  rw [suv_apply]
  unfold kSU
  refine congrArg₂ (· + ·) (congrArg₂ (· + ·) (Finset.sum_congr rfl fun j _ => ?_) (Finset.sum_congr rfl fun j _ => ?_))
    (Finset.sum_congr rfl fun j _ => ?_)
  · rw [ht, hg]
  · rw [ht, hg']
  · rw [ht, hg]

/-- The block's masked score at (r, k) is the head's masked score over the key prefix. -/
theorem sc_eq (q kk vu qu ku : Head) (s : FVec Ideal S256x256 .f32) (a b : FVec Ideal S256x64 .bf16) (r : Fin 256)
    (hs : ∀ k : Fin 256, s (ix2 r k) = kSU 256 (by decide) q vu qu ku ⟨r.val, by omega⟩ k)
    (ha : ∀ κ : Fin 64, a (ix2 r κ) = q ⟨r.val, by omega⟩ κ)
    (hb : ∀ (c : Fin 256) (κ : Fin 64), b (ix2 c κ) = kk (Fin.castLE (by decide) c) κ) (k : Fin 256) :
    scv s a b (ix2 r k) = kSC 256 (by decide) q kk vu qu ku ⟨r.val, by omega⟩ k := by
  rw [scv_apply]
  unfold kSC dot64
  refine if_congr Iff.rfl ?_ rfl
  rw [hs]
  exact congrArg (· - _) (Finset.sum_congr rfl fun κ _ => by rw [ha, hb])

/-- The block's exponential at (r, k) is the head's unnormalised weight over the key prefix. -/
theorem pu_eq (q kk vu qu ku : Head) (s : FVec Ideal S256x256 .f32) (r : Fin 256)
    (hs : ∀ k : Fin 256, s (ix2 r k) = kSC 256 (by decide) q kk vu qu ku ⟨r.val, by omega⟩ k) (k : Fin 256) :
    pv s (ix2 r k) = kPU 256 (by decide) q kk vu qu ku ⟨r.val, by omega⟩ k := by
  rw [pv_apply]
  unfold kPU kMX
  rw [show (fun k' : Fin 256 => s (ix2 r k')) = kSC 256 (by decide) q kk vu qu ku ⟨r.val, by omega⟩ from funext hs, hs]

/-- Row block 0. v23, v26: the k and v blocks (short format, [1024, 64]); v27: query rows 0‥255; v30: vu rows 0‥255;
    v34, v35: the stored gate and its remainder on [0, 256)². -/
theorem block0_apply (q kk v qu ku vu : Head)
    (v23 v26 : FVec Ideal S1024x64 .bf16) (v27 v30 : Vec Ideal S1x1x256x64 .f32) (v34 v35 : Vec Ideal S256x256 .bf16)
    (h23 : ∀ (c : Fin 1024) (κ : Fin 64), v23 (ix2 c κ) = kk c κ)
    (h26 : ∀ (c : Fin 1024) (κ : Fin 64), v26 (ix2 c κ) = v c κ)
    (h27 : ∀ (r : Fin 256) (κ : Fin 64), v27 (ix4 (0 : Fin 1) (0 : Fin 1) r κ) = q ⟨r.val, by omega⟩ κ)
    (h30 : ∀ (c : Fin 256) (κ : Fin 64), v30 (ix4 (0 : Fin 1) (0 : Fin 1) c κ) = vu (Fin.castLE (by decide) c) κ)
    (h34 : ∀ (k j : Fin 256), v34 (ix2 k j) = LA qu ku (Fin.castLE (by decide) k) (Fin.castLE (by decide) j))
    (h35 : ∀ (k j : Fin 256), v35 (ix2 k j)
      = LA qu ku (Fin.castLE (by decide) k) (Fin.castLE (by decide) j) - LA qu ku (Fin.castLE (by decide) k) (Fin.castLE (by decide) j))
    (r : Fin 256) (d : Fin 64) :
    k0_pay10 (F := Ideal) (k0_pay9 v23 v26 (k0_pay7 v27) (k0_pay8 v27) v30 v34 v35) (ix4 (0 : Fin 1) (0 : Fin 1) r d)
      = kOUT 256 (by decide) q kk v qu ku vu ⟨r.val, by omega⟩ d := by
  -- the operands of the products, entry by entry
  have hq : ∀ κ : Fin 64, k0_pay7 (F := Ideal) v27 (ix2 r κ) = q ⟨r.val, by omega⟩ κ :=
    fun κ => (pay7_apply v27 r κ).trans (h27 r κ)
  have hq' : ∀ κ : Fin 64, k0_pay8 (F := Ideal) v27 (ix2 r κ) = q ⟨r.val, by omega⟩ κ := hq
  have hvu : ∀ (c : Fin 256) (κ : Fin 64),
      shapeCast S256x64 v30 shapeCasts_S1x1x256x64_S256x64 (ix2 c κ) = vu (Fin.castLE (by decide) c) κ :=
    fun c κ => (cast4_apply v30 c κ).trans (h30 c κ)
  have hk : ∀ (c : Fin 256) (κ : Fin 64),
      extractStridedSlice S256x64 ![0, 0] v23 slices_S1024x64_o0_0_S256x64 (ix2 c κ) = kk (Fin.castLE (by decide) c) κ :=
    fun c κ => (rows256_apply v23 c κ).trans (h23 _ κ)
  have hv : ∀ (c : Fin 256) (κ : Fin 64),
      extractStridedSlice S256x64 ![0, 0] v26 slices_S1024x64_o0_0_S256x64 (ix2 c κ) = v (Fin.castLE (by decide) c) κ :=
    fun c κ => (rows256_apply v26 c κ).trans (h26 _ κ)
  -- the stages, each against the head's function
  have hp := pu_eq q kk vu qu ku _ r
    (sc_eq q kk vu qu ku _ _ _ r
      (su_eq q vu qu ku _ v34 v35 r (t1_eq q vu _ _ r hq hvu) h34 h35) hq' hk)
  refine (pay10_apply _ r d).trans ?_
  rw [pay9_eq, outv_apply]
  unfold kOUT kLS
  refine congrArg₂ Ideal.div (Finset.sum_congr rfl fun k _ => ?_) (Finset.sum_congr rfl fun k _ => hp k)
  rw [hp k, hv k d]

end Cert.KernelIdeal.Block0

end
-- ==== Proof.Block1.lean ====
/-
  Row block 1 of a head: query rows 256 to 511 against the first 512 key positions.

  The block's stored value at (r, d) is, operation by operation: the causally masked product of the 256 query rows
  with the first 512 rows of vu (t1), split into its rounding and the remainder t1 − t1; the three products of those
  with the stored gate and its remainder, added (su); the scores q · k − su · σ (su), masked to −∞ off the causal
  triangle; the row maximum, the exponentials, their row sum; the product of the exponentials with the first 512 rows of
  v, divided by the row sum. Roundings to the short format are the identity on extended reals, a block product into the
  zero accumulator is the plain sum over the contracted coordinate, a lane reduction is the fold or the sum over the
  row, and the named fill value is −∞: so the value is `kOUT 512` at row 256 + r.

  The argument reads each intermediate value at an index, in the order above. The mask bit at (r, j) is a signed
  comparison of the words 256 + r and j, both below 2^31, hence the order j ≤ 256 + r on the naturals: the causal
  triangle of head row 256 + r. With it t1 at (r, j) is `T1` at (256 + r, j), the three products sum to `kSU`, and
  the masked score is `kSC`; the row maximum, the weights, the normaliser and the weighted sum against v are then
  `kMX`, `kPU`, `kLS` and the numerator of `kOUT`, each by rewriting under the fold or the sum.
-/
import proofs.«415080_j88252987998455_3_alg».proof.Proof.Gen.KernelIdeal.Skeleton
import proofs.«415080_j88252987998455_3_alg».proof.Proof.Heads
import proofs.«415080_j88252987998455_3_alg».proof.Proof.LibDot
import proofs.«415080_j88252987998455_3_alg».proof.Proof.LibDotT
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block1

open Cert.KernelIdeal Cert.KernelIdeal.Gen Idealize.ShloMosaic Idealize.ShloMosaic.ValueIdx Cert.Attn

/-! ## Words: the causal mask's bit -/

/-- A natural below 2^31, as a 32-bit word, reads back as itself when the word is taken signed. -/
theorem toInt_small (j : Nat) (hj : j < 2 ^ 31) : (BitVec.ofNat 32 j).toInt = (j : Int) := by
  have h1 : (BitVec.ofNat 32 j).toNat = j := by
    rw [BitVec.toNat_ofNat]; exact Nat.mod_eq_of_lt (by omega)
  rw [BitVec.toInt_eq_toNat_of_lt (by rw [h1]; omega), h1]

/-- So the signed comparison of two such words is the order on the naturals. -/
theorem sle_small (j x : Nat) (hj : j < 2 ^ 31) (hx : x < 2 ^ 31) :
    (BitVec.ofNat 32 j).sle (BitVec.ofNat 32 x) = decide (j ≤ x) := by
  rw [BitVec.sle_eq_decide, toInt_small j hj, toInt_small x hx]
  exact decide_eq_decide.mpr Int.ofNat_le

/-- The mask bit at (r, j): row r of the block is global row 256 + r, and the bit is set exactly on the causal
    history j ≤ 256 + r. -/
theorem mask_bit (r : Fin 256) (j : Fin 512) :
    IntOp.cmpi .sge (IntOp.addi (BitVec.ofNat 32 r.val) 256#32) (BitVec.ofNat 32 j.val)
      = if j.val ≤ 256 + r.val then 1#1 else 0#1 := by
  have hx : IntOp.addi (BitVec.ofNat 32 r.val) 256#32 = BitVec.ofNat 32 (256 + r.val) := by
    show BitVec.ofNat 32 r.val + BitVec.ofNat 32 256 = _
    rw [BitVec.ofNat_add_ofNat, Nat.add_comm]
  rw [hx]
  show BitVec.ofBool ((BitVec.ofNat 32 j.val).sle (BitVec.ofNat 32 (256 + r.val))) = _
  rw [sle_small _ _ (by omega) (by omega)]
  by_cases h : j.val ≤ 256 + r.val
  · rw [if_pos h, decide_eq_true h]; rfl
  · rw [if_neg h, decide_eq_false h]; rfl

/-! ## Layout operations at an index given by coordinates -/

section Layout
variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, u', i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

/-- An [a] array cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Lane reductions of a [256, 512] block at a row -/

/-- The index over row r with lane k inserted is (r, k). -/
theorem lift_row (h : S256x512.Reduces [1] S256) (r : Fin 256) (k : Fin 512) : h.lift (ix1 r) k = ix2 r k := by
  funext c
  apply Fin.ext
  match c with
  | ⟨0, _⟩ => rfl
  | ⟨1, _⟩ => rfl

/-- The −∞ pattern of the long format denotes −∞. -/
theorem ofBits_neg_inf : Ideal.ofBits .f32 0xFF800000#32 = ⊥ := by simp [Ideal.ofBits, Ideal.ieee]

/-- A lane sum of a [256, 512] block at row r is the sum of the row. -/
theorem rowSum_apply (src : FVec Ideal S256x512 .f32) (h : S256x512.Reduces [1] S256) (hφ : FKind.Formats .f32)
    (hacc : (0x00000000#32 : BitVec 32) = 0x00000000#32) (r : Fin 256) :
    multiReduction (F := Ideal) .add [1] S256 src 0x00000000#32 h hφ hacc (ix1 r) = ∑ k : Fin 512, src (ix2 r k) := by
  refine (Ideal.multiReduction_add_single src 0x00000000#32 h hφ hacc (ix1 r)).trans ?_
  exact Finset.sum_congr rfl fun k _ => congrArg src (lift_row h r k)

/-- A lane maximum of a [256, 512] block at row r is the fold of max over the row, from −∞. -/
theorem rowMax_apply (src : FVec Ideal S256x512 .f32) (h : S256x512.Reduces [1] S256) (hφ : FKind.Formats .f32)
    (hacc : (0xFF800000#32 : BitVec 32) = 0xFF800000#32) (r : Fin 256) :
    multiReduction (F := Ideal) .maximumf [1] S256 src 0xFF800000#32 h hφ hacc (ix1 r)
      = (Finset.univ : Finset (Fin 512)).fold max ⊥ (fun k => src (ix2 r k)) := by
  refine (Ideal.multiReduction_maximumf_single src 0xFF800000#32 h hφ hacc (ix1 r)).trans ?_
  show (Finset.univ : Finset (Fin 512)).fold max (Ideal.ofBits .f32 0xFF800000#32) (src ∘ h.lift (ix1 r)) = _
  rw [ofBits_neg_inf]
  exact Finset.fold_congr fun k _ => congrArg src (lift_row h r k)

/-! ## The block's coordinates in the head -/

/-- Row r of the block as a row of the head: 256 + r. -/
abbrev grow (r : Fin 256) : Fin 1024 := ⟨256 + r.val, by omega⟩
/-- A position of the key prefix as a position of the head. -/
abbrev gcol (c : Fin 512) : Fin 1024 := Fin.castLE (by decide) c

/-- The fill value's name denotes −∞. -/
theorem neg_big : Named.named (F := Ideal) κ "neg_big" (φ := .f32) 0xF149F2CA#32 = (⊥ : EReal) :=
  IdealRules.named_const.ideal_named_scalar _ _ _ _ rfl

/-! ## The scores, value by value -/

/-- The causal mask at (r, j): the row coordinate plus 256 compared with the column coordinate. -/
theorem mask_apply (h0 : S256x512.Iotas .tc 32 [0]) (h1 : S256x512.Iotas .tc 32 [1]) (r : Fin 256) (j : Fin 512) :
    cmpi .sge (addi (iota .tc S256x512 32 [0] h0) (broadcast S256x512 256#32)) (iota .tc S256x512 32 [1] h1) (ix2 r j)
      = if j.val ≤ 256 + r.val then 1#1 else 0#1 := by
  show IntOp.cmpi .sge (IntOp.addi (iota .tc S256x512 32 [0] h0 (ix2 r j)) 256#32) (iota .tc S256x512 32 [1] h1 (ix2 r j)) = _
  rw [iota_single_apply, iota_single_apply]
  exact mask_bit r j

/-- A product of 256 block rows with the transpose of 512 prefix rows, over the 64 features, at (r, j): the inner
    product of head row 256 + r of the left array with head row j of the right. -/
theorem qdot_apply (φ₁ φ₂ : FTy) (a b : Head) (prec : Option ContractPrecision)
    (l : FVec Ideal S256x64 φ₁) (rr : FVec Ideal S512x64 φ₂)
    (hl : ∀ (r : Fin 256) (κ : Fin 64), l (ix2 r κ) = a (grow r) κ)
    (hr : ∀ (c : Fin 512) (κ : Fin 64), rr (ix2 c κ) = b (gcol c) κ) (r : Fin 256) (j : Fin 512) :
    matmul (φ₁ := φ₁) (φ₂ := φ₂) dot_S256x64_S512x64_S256x512_1_1_0_0_n_n prec l rr
        (constant (F := Ideal) S256x512 .f32 0x00000000#32) (ix2 r j)
      = dot64 (a (grow r)) (b (gcol j)) := by
  refine (Cert.LibDotT.matmul_zero_rowsT_apply dot_S256x64_S512x64_S256x512_1_1_0_0_n_n rfl rfl rfl rfl rfl rfl
    prec l rr r j).trans ?_
  unfold dot64
  exact Finset.sum_congr rfl fun κ _ => by rw [hl, hr]

/-- t1 at (r, j): the product where the mask is set, zero elsewhere. -/
theorem t1_apply (q vu : Head) (m : IVec S256x512 1) (p : FVec Ideal S256x512 .f32)
    (hm : ∀ (r : Fin 256) (j : Fin 512), m (ix2 r j) = if j.val ≤ 256 + r.val then 1#1 else 0#1)
    (hp : ∀ (r : Fin 256) (j : Fin 512), p (ix2 r j) = dot64 (q (grow r)) (vu (gcol j)))
    (r : Fin 256) (j : Fin 512) :
    select m p (broadcast S256x512 (Scalar.ofBits (F := Ideal) .f32 0x00000000#32)) (ix2 r j) = T1 q vu (grow r) (gcol j) := by
  show Scalar.select (m (ix2 r j)) (p (ix2 r j)) (Ideal.ofBits .f32 0x00000000#32) = _
  rw [hm, hp, Ideal.ofBits_zero_f32]
  unfold T1
  by_cases h : j.val ≤ 256 + r.val
  · rw [if_pos h, select_one, if_pos (show gcol j ≤ grow r from h)]
  · rw [if_neg h, select_zero, if_neg (show ¬ gcol j ≤ grow r from h)]

/-- su at (r, k): the three products of t1 and its remainder with the gate and its remainder, added. -/
theorem su_apply (q vu qu ku : Head) (t : FVec Ideal S256x512 .f32) (hb : FTy.bits .bf16 < FTy.bits .f32)
    (g g' : FVec Ideal S512x512 .bf16)
    (ht : ∀ (r : Fin 256) (j : Fin 512), t (ix2 r j) = T1 q vu (grow r) (gcol j))
    (hg : ∀ (k j : Fin 512), g (ix2 k j) = LA qu ku (gcol k) (gcol j))
    (hg' : ∀ (k j : Fin 512), g' (ix2 k j) = LA qu ku (gcol k) (gcol j) - LA qu ku (gcol k) (gcol j))
    (r : Fin 256) (k : Fin 512) :
    addf (addf
        (matmul (φ₁ := .bf16) (φ₂ := .bf16) dot_S256x512_S512x512_S256x512_1_1_0_0_n_n none (truncf .bf16 t hb) g (constant (F := Ideal) S256x512 .f32 0x00000000#32))
        (matmul (φ₁ := .bf16) (φ₂ := .bf16) dot_S256x512_S512x512_S256x512_1_1_0_0_n_n none (truncf .bf16 t hb) g' (constant (F := Ideal) S256x512 .f32 0x00000000#32)))
        (matmul (φ₁ := .bf16) (φ₂ := .bf16) dot_S256x512_S512x512_S256x512_1_1_0_0_n_n none (truncf .bf16 (subf t t) hb) g (constant (F := Ideal) S256x512 .f32 0x00000000#32))
        (ix2 r k)
      = kSU 512 (by decide) q vu qu ku (grow r) k := by
  have e1 := Cert.LibDotT.matmul_zero_rowsT_apply (φ₁ := .bf16) (φ₂ := .bf16) dot_S256x512_S512x512_S256x512_1_1_0_0_n_n rfl rfl rfl rfl rfl rfl
    none (truncf (F := Ideal) .bf16 t hb) g r k
  have e2 := Cert.LibDotT.matmul_zero_rowsT_apply (φ₁ := .bf16) (φ₂ := .bf16) dot_S256x512_S512x512_S256x512_1_1_0_0_n_n rfl rfl rfl rfl rfl rfl
    none (truncf (F := Ideal) .bf16 t hb) g' r k
  have e3 := Cert.LibDotT.matmul_zero_rowsT_apply (φ₁ := .bf16) (φ₂ := .bf16) dot_S256x512_S512x512_S256x512_1_1_0_0_n_n rfl rfl rfl rfl rfl rfl
    none (truncf (F := Ideal) .bf16 (subf t t) hb) g r k
  unfold kSU
  refine (congrArg₂ (· + ·) (congrArg₂ (· + ·) e1 e2) e3).trans ?_
  refine congrArg₂ (· + ·) (congrArg₂ (· + ·) ?_ ?_) ?_
  · exact Finset.sum_congr rfl fun j _ => by
      show t (ix2 r j) * g (ix2 k j) = _
      rw [ht, hg]
  · exact Finset.sum_congr rfl fun j _ => by
      show t (ix2 r j) * g' (ix2 k j) = _
      rw [ht, hg']
  · exact Finset.sum_congr rfl fun j _ => by
      show (t (ix2 r j) - t (ix2 r j)) * g (ix2 k j) = _
      rw [ht, hg]

/-- The masked score at (r, k): q · k − su · σ (su) where the mask is set, −∞ elsewhere. -/
theorem score_apply (q kk vu qu ku : Head) (m : IVec S256x512 1) (s p : FVec Ideal S256x512 .f32)
    (hm : ∀ (r : Fin 256) (j : Fin 512), m (ix2 r j) = if j.val ≤ 256 + r.val then 1#1 else 0#1)
    (hs : ∀ (r : Fin 256) (k : Fin 512), s (ix2 r k) = kSU 512 (by decide) q vu qu ku (grow r) k)
    (hp : ∀ (r : Fin 256) (k : Fin 512), p (ix2 r k) = dot64 (q (grow r)) (kk (gcol k)))
    (r : Fin 256) (k : Fin 512) :
    select m (subf p (mulf s (logistic s)))
        (broadcast S256x512 (Named.named (F := Ideal) κ "neg_big" (φ := .f32) 0xF149F2CA#32)) (ix2 r k)
      = kSC 512 (by decide) q kk vu qu ku (grow r) k := by
  show Scalar.select (m (ix2 r k)) (p (ix2 r k) - s (ix2 r k) * Ideal.logistic (s (ix2 r k)))
    (Named.named (F := Ideal) κ "neg_big" (φ := .f32) 0xF149F2CA#32) = _
  rw [hm, hs, hp, neg_big]
  unfold kSC
  by_cases h : k.val ≤ 256 + r.val
  · rw [if_pos h, select_one, if_pos (show gcol k ≤ grow r from h)]
  · rw [if_neg h, select_zero, if_neg (show ¬ gcol k ≤ grow r from h)]

/-- THE BLOCK'S SCORE VALUE AT (r, k): the masked score of head row 256 + r against key position k of the prefix. -/
theorem pay12_apply (q kk vu qu ku : Head)
    (v23 : FVec Ideal S1024x64 .bf16) (v73 : Vec Ideal S1x1x256x64 .f32) (v76 : Vec Ideal S1x1x512x64 .f32)
    (v80 v81 : Vec Ideal S512x512 .bf16)
    (h23 : ∀ (c : Fin 1024) (κ : Fin 64), v23 (ix2 c κ) = kk c κ)
    (h73 : ∀ (r : Fin 256) (κ : Fin 64), v73 (ix4 (0 : Fin 1) (0 : Fin 1) r κ) = q (grow r) κ)
    (h76 : ∀ (c : Fin 512) (κ : Fin 64), v76 (ix4 (0 : Fin 1) (0 : Fin 1) c κ) = vu (gcol c) κ)
    (h80 : ∀ (k j : Fin 512), v80 (ix2 k j) = LA qu ku (gcol k) (gcol j))
    (h81 : ∀ (k j : Fin 512), v81 (ix2 k j) = LA qu ku (gcol k) (gcol j) - LA qu ku (gcol k) (gcol j))
    (r : Fin 256) (k : Fin 512) :
    k0_pay12 (F := Ideal) v23 v73 v76 v80 v81 (ix2 r k) = kSC 512 (by decide) q kk vu qu ku (grow r) k := by
  have h74 : ∀ (r : Fin 256) (κ : Fin 64),
      shapeCast S256x64 v73 shapeCasts_S1x1x256x64_S256x64 (ix2 r κ) = q (grow r) κ :=
    fun r κ => (shapeCast_11ab_ab_apply v73 _ r κ).trans (h73 r κ)
  have h77 : ∀ (c : Fin 512) (κ : Fin 64),
      shapeCast S512x64 v76 shapeCasts_S1x1x512x64_S512x64 (ix2 c κ) = vu (gcol c) κ :=
    fun c κ => (shapeCast_11ab_ab_apply v76 _ c κ).trans (h76 c κ)
  have h78 : ∀ (c : Fin 512) (κ : Fin 64),
      extractStridedSlice S512x64 ![0, 0] v23 slices_S1024x64_o0_0_S512x64 (ix2 c κ) = kk (gcol c) κ :=
    fun c κ => (slice2_axis0_apply 0 v23 _ c κ (gcol c) (Nat.zero_add _).symm).trans (h23 _ κ)
  have hm := mask_apply iota_S256x512_d0_w32 iota_S256x512_d1_w32
  have h89 := t1_apply q vu _ _ hm (qdot_apply .f32 .f32 q vu (some .fp32) _ _ h74 h77)
  unfold k0_pay12
  refine score_apply q kk vu qu ku _ _ _ hm ?_ ?_ r k
  · exact su_apply q vu qu ku _ bitsLt_bf16_f32 v80 v81 h89 h80 h81
  · exact qdot_apply .bf16 .bf16 q kk none _ _ (fun r κ => h74 r κ) h78

/-! ## The softmax against v, value by value -/

/-- A [a] vector made a column and broadcast along the lanes reads, at (p, c), the vector at p. -/
theorem keepdims_apply {α : Type} {a b : ℕ} (x : (⟨1, ![a]⟩ : Shape).Idx → α)
    (hsc : (⟨1, ![a]⟩ : Shape).ShapeCasts ⟨2, ![a, 1]⟩) (hbc : (⟨2, ![a, 1]⟩ : Shape).Broadcasts ⟨2, ![a, b]⟩)
    (p : Fin a) (c : Fin b) :
    broadcastTo ⟨2, ![a, b]⟩ (shapeCast ⟨2, ![a, 1]⟩ x hsc) hbc (ix2 p c) = x (ix1 p) :=
  (broadcastTo_a1_ab_apply _ hbc p c).trans (shapeCast_a_a1_apply x hsc p 0)

/-- The unnormalised weight at (r, k): the exponential of the score less the row's maximum. -/
theorem pu_apply (q kk vu qu ku : Head) (w : FVec Ideal S256x512 .f32)
    (hw : ∀ (r : Fin 256) (k : Fin 512), w (ix2 r k) = kSC 512 (by decide) q kk vu qu ku (grow r) k)
    (hred : S256x512.Reduces [1] S256) (hφ : FKind.Formats .f32) (hacc : (0xFF800000#32 : BitVec 32) = 0xFF800000#32)
    (hsc : S256.ShapeCasts S256x1) (hbc : S256x1.Broadcasts S256x512) (r : Fin 256) (k : Fin 512) :
    exp (subf w (broadcastTo S256x512
        (shapeCast S256x1 (multiReduction (F := Ideal) .maximumf [1] S256 w 0xFF800000#32 hred hφ hacc) hsc) hbc)) (ix2 r k)
      = kPU 512 (by decide) q kk vu qu ku (grow r) k := by
  show Ideal.exp (w (ix2 r k) - broadcastTo S256x512
    (shapeCast S256x1 (multiReduction (F := Ideal) .maximumf [1] S256 w 0xFF800000#32 hred hφ hacc) hsc) hbc (ix2 r k)) = _
  rw [keepdims_apply, rowMax_apply, hw]
  unfold kPU kMX
  exact congrArg (fun f => Ideal.exp (kSC 512 (by decide) q kk vu qu ku (grow r) k
    - (Finset.univ : Finset (Fin 512)).fold max ⊥ f)) (funext fun k' => hw r k')

/-- The normaliser at row r: the sum of the row's weights. -/
theorem ls_apply (q kk vu qu ku : Head) (e : FVec Ideal S256x512 .f32)
    (he : ∀ (r : Fin 256) (k : Fin 512), e (ix2 r k) = kPU 512 (by decide) q kk vu qu ku (grow r) k)
    (hred : S256x512.Reduces [1] S256) (hφ : FKind.Formats .f32) (hacc : (0x00000000#32 : BitVec 32) = 0x00000000#32)
    (r : Fin 256) :
    multiReduction (F := Ideal) .add [1] S256 e 0x00000000#32 hred hφ hacc (ix1 r) = kLS 512 (by decide) q kk vu qu ku (grow r) := by
  refine (rowSum_apply e hred hφ hacc r).trans ?_
  unfold kLS
  exact Finset.sum_congr rfl fun k _ => he r k

/-- The product of the weights with the first 512 rows of v at (r, d). -/
theorem pv_apply (q kk v vu qu ku : Head) (e : FVec Ideal S256x512 .f32) (hb : FTy.bits .bf16 < FTy.bits .f32)
    (x : FVec Ideal S512x64 .bf16)
    (he : ∀ (r : Fin 256) (k : Fin 512), e (ix2 r k) = kPU 512 (by decide) q kk vu qu ku (grow r) k)
    (hx : ∀ (k : Fin 512) (d : Fin 64), x (ix2 k d) = v (gcol k) d) (r : Fin 256) (d : Fin 64) :
    matmul (φ₁ := .bf16) (φ₂ := .bf16) dot_S256x512_S512x64_S256x64_1_0_0_1_n_n none (truncf .bf16 e hb) x
        (constant (F := Ideal) S256x64 .f32 0x00000000#32) (ix2 r d)
      = ∑ k : Fin 512, kPU 512 (by decide) q kk vu qu ku (grow r) k * v (gcol k) d := by
  refine (Cert.LibDot.matmul_rows_apply (φ₁ := .bf16) (φ₂ := .bf16) dot_S256x512_S512x64_S256x64_1_0_0_1_n_n
    rfl rfl rfl rfl rfl rfl none (truncf (F := Ideal) .bf16 e hb) x (constant (F := Ideal) S256x64 .f32 0x00000000#32) r d).trans ?_
  show Ideal.ofBits .f32 0x00000000#32 + ∑ k : Fin 512, e (ix2 r k) * x (ix2 k d) = _
  rw [Ideal.ofBits_zero_f32, zero_add]
  exact Finset.sum_congr rfl fun k _ => by rw [he, hx]

/-- THE BLOCK'S STORED VALUE AT (0, 0, r, d), over any score block that holds the masked scores of rows 256 + r and any
    block that holds the first 512 rows of v. -/
theorem pay13_apply (q kk v qu ku vu : Head) (v79 : FVec Ideal S512x64 .bf16) (v104 : FVec Ideal S256x512 .f32)
    (h79 : ∀ (k : Fin 512) (d : Fin 64), v79 (ix2 k d) = v (gcol k) d)
    (h104 : ∀ (r : Fin 256) (k : Fin 512), v104 (ix2 r k) = kSC 512 (by decide) q kk vu qu ku (grow r) k)
    (r : Fin 256) (d : Fin 64) :
    k0_pay13 (F := Ideal) v79 v104 (ix4 (0 : Fin 1) (0 : Fin 1) r d) = kOUT 512 (by decide) q kk v qu ku vu (grow r) d := by
  have h109 := pu_apply q kk vu qu ku v104 h104 reduces_S256x512_S256 (.inl rfl) rfl shapeCasts_S256_S256x1
    broadcasts_S256x1_S256x512
  unfold k0_pay13
  refine (shapeCast_ab_11ab_apply _ shapeCasts_S256x64_S1x1x256x64 0 0 r d).trans ?_
  refine (divf_apply _ _ _).trans ?_
  unfold kOUT
  refine congrArg₂ Ideal.div ?_ ?_
  · exact pv_apply q kk v vu qu ku _ bitsLt_bf16_f32 v79 h109 h79 r d
  · exact (keepdims_apply _ shapeCasts_S256_S256x1 broadcasts_S256x1_S256x64 r d).trans
      (ls_apply q kk vu qu ku _ h109 reduces_S256x512_S256 (.inl rfl) rfl r)

/-- Row block 1. v23, v26: the k and v blocks (short format, [1024, 64]); v73: query rows 256‥511; v76: vu rows 0‥511;
    v80, v81: the stored gate and its remainder on [0, 512)². -/
theorem block1_apply (q kk v qu ku vu : Head)
    (v23 v26 : FVec Ideal S1024x64 .bf16) (v73 : Vec Ideal S1x1x256x64 .f32) (v76 : Vec Ideal S1x1x512x64 .f32)
    (v80 v81 : Vec Ideal S512x512 .bf16)
    (h23 : ∀ (c : Fin 1024) (κ : Fin 64), v23 (ix2 c κ) = kk c κ)
    (h26 : ∀ (c : Fin 1024) (κ : Fin 64), v26 (ix2 c κ) = v c κ)
    (h73 : ∀ (r : Fin 256) (κ : Fin 64), v73 (ix4 (0 : Fin 1) (0 : Fin 1) r κ) = q ⟨256 + r.val, by omega⟩ κ)
    (h76 : ∀ (c : Fin 512) (κ : Fin 64), v76 (ix4 (0 : Fin 1) (0 : Fin 1) c κ) = vu (Fin.castLE (by decide) c) κ)
    (h80 : ∀ (k j : Fin 512), v80 (ix2 k j) = LA qu ku (Fin.castLE (by decide) k) (Fin.castLE (by decide) j))
    (h81 : ∀ (k j : Fin 512), v81 (ix2 k j)
      = LA qu ku (Fin.castLE (by decide) k) (Fin.castLE (by decide) j) - LA qu ku (Fin.castLE (by decide) k) (Fin.castLE (by decide) j))
    (r : Fin 256) (d : Fin 64) :
    k0_pay13 (F := Ideal) (k0_pay11 v26) (k0_pay12 v23 v73 v76 v80 v81) (ix4 (0 : Fin 1) (0 : Fin 1) r d)
      = kOUT 512 (by decide) q kk v qu ku vu ⟨256 + r.val, by omega⟩ d := by
  have h79 : ∀ (k : Fin 512) (d : Fin 64), k0_pay11 (F := Ideal) v26 (ix2 k d) = v (gcol k) d := fun k d => by
    unfold k0_pay11
    exact (slice2_axis0_apply 0 v26 slices_S1024x64_o0_0_S512x64 k d (gcol k) (Nat.zero_add _).symm).trans (h26 _ d)
  exact pay13_apply q kk v qu ku vu _ _ h79 (pay12_apply q kk vu qu ku v23 v73 v76 v80 v81 h23 h73 h76 h80 h81) r d

end Cert.KernelIdeal.Block1

end
-- ==== Proof.Block2.lean ====
/-
  Row block 2 of a head: query rows 512 to 767 against the first 768 key positions.

  The block's stored value at (r, d) is, operation by operation: the causally masked product of the 256 query rows
  with the first 768 rows of vu (t1), split into its rounding and the remainder t1 − t1; the three products of those
  with the stored gate and its remainder, added (su); the scores q · k − su · σ (su), masked to −∞ off the causal
  triangle; the row maximum, the exponentials, their row sum; the product of the exponentials with the first 768 rows of
  v, divided by the row sum. Roundings to the short format are the identity on extended reals, a block product into the
  zero accumulator is the plain sum over the contracted coordinate, a lane reduction is the fold or the sum over the
  row, and the named fill value is −∞: so the value is `kOUT 768` at row 512 + r.

  The stored value is written as a composition of stages — su, the masked score, the row maximum, the weights
  e^(score − maximum), their row sum, and the quotient — and each stage is read at an index: su at (r, k) is
  Σ_j t1·la + Σ_j t1·(la − la) + Σ_j (t1 − t1)·la over the 768 columns j, which is `kSU 768`; the masked score is
  `kSC 768` (the mask bit at (r, k) is set exactly when k ≤ 512 + r, the comparison of two words below 2³¹); the row
  maximum is the fold of max from −∞ over the row, `kMX 768`; the weights are `kPU 768`, their sum `kLS 768`; and the
  product with the first 768 rows of v divided by that sum is `kOUT 768`.
-/
import proofs.«415080_j88252987998455_3_alg».proof.Proof.Gen.KernelIdeal.Skeleton
import proofs.«415080_j88252987998455_3_alg».proof.Proof.Heads
import proofs.«415080_j88252987998455_3_alg».proof.Proof.LibDot
import proofs.«415080_j88252987998455_3_alg».proof.Proof.LibDotT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Block2

open Cert.KernelIdeal Cert.KernelIdeal.Gen Idealize.ShloMosaic Idealize.ShloMosaic.ValueIdx Cert.Attn

/-! ## The stages of the stored value -/

/-- su: the first product t1·la (given, v140) plus t1·(la − la) plus (t1 − t1)·la, each a product of a 256 × 768 block
    with the transpose of a 768 × 768 block into the zero accumulator. -/
def suV (v126 v127 : FVec Ideal S768x768 .bf16) (v136 v139 : FVec Ideal S256x768 .bf16)
    (v140 cst : FVec Ideal S256x768 .f32) : FVec Ideal S256x768 .f32 :=
  addf (addf v140 (matmul dot_S256x768_S768x768_S256x768_1_1_0_0_n_n none v136 v127 cst))
    (matmul dot_S256x768_S768x768_S256x768_1_1_0_0_n_n none v139 v126 (constant S256x768 .f32 0x00000000#32))

/-- The masked score: q·k − su·σ(su) where the mask bit is set, the named fill value elsewhere. -/
def scV (v121 : FVec Ideal S256x64 .bf16) (v124 : FVec Ideal S768x64 .bf16) (v132 : IVec S256x768 1)
    (su : FVec Ideal S256x768 .f32) : FVec Ideal S256x768 .f32 :=
  select v132
    (subf (matmul dot_S256x64_S768x64_S256x768_1_1_0_0_n_n none v121 v124 (constant S256x768 .f32 0x00000000#32))
      (mulf su (logistic su)))
    (broadcast S256x768 (Named.named κ "neg_big" (φ := .f32) 0xF149F2CA#32))

/-- The row maximum, folded from the word of −∞. -/
def mxV (sc : FVec Ideal S256x768 .f32) : FVec Ideal S256 .f32 :=
  multiReduction .maximumf [1] S256 sc 0xFF800000#32 reduces_S256x768_S256 (.inl rfl) rfl

/-- The unnormalised weights e^(score − row maximum), the maximum spread back over the row. -/
def puV (sc : FVec Ideal S256x768 .f32) : FVec Ideal S256x768 .f32 :=
  exp (subf sc (broadcastTo S256x768 (shapeCast S256x1 (mxV sc) shapeCasts_S256_S256x1) broadcasts_S256x1_S256x768))

/-- The weights' row sum. -/
def lsV (pu : FVec Ideal S256x768 .f32) : FVec Ideal S256 .f32 :=
  multiReduction .add [1] S256 pu 0x00000000#32 reduces_S256x768_S256 (.inl rfl) rfl

/-- The weights' product with the value rows, divided by the row sum spread over the 64 features, as a
    [1, 1, 256, 64] block. -/
def outV (v125 : FVec Ideal S768x64 .bf16) (pu : FVec Ideal S256x768 .f32) : FVec Ideal S1x1x256x64 .f32 :=
  shapeCast S1x1x256x64
    (divf (matmul dot_S256x768_S768x64_S256x64_1_0_0_1_n_n none (truncf .bf16 pu bitsLt_bf16_f32) v125
        (constant S256x64 .f32 0x00000000#32))
      (broadcastTo S256x64 (shapeCast S256x1 (lsV pu) shapeCasts_S256_S256x1) broadcasts_S256x1_S256x64))
    shapeCasts_S256x64_S1x1x256x64

/-- The stored value is the composition of those stages (by unfolding). -/
theorem pay23_eq (v121 : FVec Ideal S256x64 .bf16) (v124 v125 : FVec Ideal S768x64 .bf16)
    (v126 v127 : Vec Ideal S768x768 .bf16) (v132 : IVec S256x768 1) (v136 v139 : FVec Ideal S256x768 .bf16)
    (v140 cst : FVec Ideal S256x768 .f32) :
    k0_pay23 (F := Ideal) v121 v124 v125 v126 v127 v132 v136 v139 v140 cst
      = outV v125 (puV (scV v121 v124 v132 (suV v126 v127 v136 v139 v140 cst))) := rfl

/-! ## Layout: two leading unit axes, and a column kept by a row reduction -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The causal mask of the block -/

/-- Below 2³¹ the signed order of 32-bit words is the order of the naturals: column `a < 768` against row
    `512 + b`, `b < 256`. -/
theorem sle_small (a b : ℕ) (ha : a < 768) (hb : b < 256) :
    (BitVec.ofNat 32 a).sle (BitVec.ofNat 32 b + 512#32) = decide (a ≤ 512 + b) := by
  rw [BitVec.sle_eq_decide]
  have h1 : (BitVec.ofNat 32 a).toNat = a := by rw [BitVec.toNat_ofNat]; omega
  have h2 : (BitVec.ofNat 32 b + 512#32).toNat = b + 512 := by
    rw [BitVec.toNat_add, BitVec.toNat_ofNat, BitVec.toNat_ofNat]; omega
  rw [BitVec.toInt_eq_toNat_of_lt (by rw [h1]; omega), BitVec.toInt_eq_toNat_of_lt (by rw [h2]; omega), h1, h2]
  congr 1
  apply propext
  constructor <;> intro h <;> omega

/-- The mask at (r, j) is set exactly when column j is at most the row's global position 512 + r. -/
theorem mask_apply (r : Fin 256) (j : Fin 768) :
    k0_pay18 (ix2 r j) = if j.val ≤ 512 + r.val then 1#1 else 0#1 := by
  unfold k0_pay18
  show IntOp.cmpi .sge (IntOp.addi (iota .tc S256x768 32 [0] iota_S256x768_d0_w32 (ix2 r j)) 512#32)
      (iota .tc S256x768 32 [1] iota_S256x768_d1_w32 (ix2 r j)) = _
  rw [iota_single_apply, iota_single_apply]
  show BitVec.ofBool ((BitVec.ofNat 32 j.val).sle (BitVec.ofNat 32 r.val + 512#32)) = _
  rw [sle_small _ _ j.isLt r.isLt]
  by_cases h : j.val ≤ 512 + r.val
  · rw [if_pos h, decide_eq_true h]; rfl
  · rw [if_neg h, decide_eq_false h]; rfl

/-! ## Two constants -/

/-- The named fill value is −∞. -/
theorem neg_big_eq : Named.named (F := Ideal) κ "neg_big" (φ := .f32) 0xF149F2CA#32 = (⊥ : EReal) :=
  IdealRules.named_const.ideal_named_scalar _ _ _ _ rfl

/-- The maximum's starting word is −∞. -/
theorem ofBits_neg_inf : Ideal.ofBits .f32 0xFF800000#32 = (⊥ : EReal) := by simp [Ideal.ofBits, Ideal.ieee]

/-! ## The two row reductions of a 256 × 768 block -/

/-- The row maximum at r: the fold of max from −∞ over the row's 768 entries. -/
theorem rowmax_apply (x : FVec Ideal S256x768 .f32) (r : Fin 256) :
    mxV x (ix1 r) = (Finset.univ : Finset (Fin 768)).fold max ⊥ (fun k => x (ix2 r k)) := by
  unfold mxV
  refine (Ideal.multiReduction_maximumf_single x 0xFF800000#32 reduces_S256x768_S256 (.inl rfl) rfl (ix1 r)).trans ?_
  show (Finset.univ : Finset (Fin 768)).fold max (Ideal.ofBits .f32 0xFF800000#32)
      (fun k => x (reduces_S256x768_S256.lift (ix1 r) k)) = _
  rw [ofBits_neg_inf]
  refine congrArg (fun f => Finset.fold max ⊥ f (Finset.univ : Finset (Fin 768))) (funext fun k => congrArg x ?_)
  funext a
  match a with
  | ⟨0, _⟩ => rfl
  | ⟨1, _⟩ => rfl

/-- The row sum at r: the sum of the row's 768 entries. -/
theorem rowsum_apply (x : FVec Ideal S256x768 .f32) (r : Fin 256) :
    lsV x (ix1 r) = ∑ k : Fin 768, x (ix2 r k) := by
  unfold lsV
  refine (Ideal.multiReduction_add_single x 0x00000000#32 reduces_S256x768_S256 (.inl rfl) rfl (ix1 r)).trans ?_
  show ∑ k : Fin 768, x (reduces_S256x768_S256.lift (ix1 r) k) = _
  refine Finset.sum_congr rfl fun k _ => congrArg x ?_
  funext a
  match a with
  | ⟨0, _⟩ => rfl
  | ⟨1, _⟩ => rfl

/-! ## The stages of the block, each read at an index -/

/-- The three added products at (r, k), for a left operand T, its remainder T − T, a right operand L and its
    remainder L − L: Σ T·L + Σ T·(L − L) + Σ (T − T)·L, each sum over the 768 contracted columns. -/
theorem su_apply (T : Fin 256 → Fin 768 → EReal) (L : Fin 768 → Fin 768 → EReal)
    (v126 v127 : FVec Ideal S768x768 .bf16) (v136 v139 : FVec Ideal S256x768 .bf16) (v140 : FVec Ideal S256x768 .f32)
    (h126 : ∀ k j, v126 (ix2 k j) = L k j) (h127 : ∀ k j, v127 (ix2 k j) = L k j - L k j)
    (h136 : ∀ r j, v136 (ix2 r j) = T r j) (h139 : ∀ r j, v139 (ix2 r j) = T r j - T r j)
    (h140 : ∀ r k, v140 (ix2 r k) = ∑ j : Fin 768, T r j * L k j) (r : Fin 256) (k : Fin 768) :
    suV v126 v127 v136 v139 v140 (constant S256x768 .f32 0x00000000#32) (ix2 r k)
      = (∑ j : Fin 768, T r j * L k j + ∑ j : Fin 768, T r j * (L k j - L k j))
        + ∑ j : Fin 768, (T r j - T r j) * L k j := by
  have e1 := Cert.LibDotT.matmul_zero_rowsT_apply dot_S256x768_S768x768_S256x768_1_1_0_0_n_n rfl rfl rfl rfl rfl rfl
    none v136 v127 r k
  have e2 := Cert.LibDotT.matmul_zero_rowsT_apply dot_S256x768_S768x768_S256x768_1_1_0_0_n_n rfl rfl rfl rfl rfl rfl
    none v139 v126 r k
  show (v140 (ix2 r k)
        + FloatOps.matmul dot_S256x768_S768x768_S256x768_1_1_0_0_n_n none v136 v127
            (constant S256x768 .f32 0x00000000#32) (ix2 r k))
      + FloatOps.matmul dot_S256x768_S768x768_S256x768_1_1_0_0_n_n none v139 v126
            (constant S256x768 .f32 0x00000000#32) (ix2 r k) = _
  rw [e1, e2, h140]
  simp only [h126, h127, h136, h139]

/-- The masked score at (r, k): inside the causal triangle the row products' difference q·k − su·σ(su), outside −∞. -/
theorem sc_apply (Q : Fin 256 → Fin 64 → EReal) (K : Fin 768 → Fin 64 → EReal) (SUf : Fin 256 → Fin 768 → EReal)
    (v121 : FVec Ideal S256x64 .bf16) (v124 : FVec Ideal S768x64 .bf16) (v132 : IVec S256x768 1)
    (su : FVec Ideal S256x768 .f32)
    (h121 : ∀ r κ, v121 (ix2 r κ) = Q r κ) (h124 : ∀ k κ, v124 (ix2 k κ) = K k κ)
    (h132 : ∀ (r : Fin 256) (k : Fin 768), v132 (ix2 r k) = if k.val ≤ 512 + r.val then 1#1 else 0#1)
    (hsu : ∀ r k, su (ix2 r k) = SUf r k) (r : Fin 256) (k : Fin 768) :
    scV v121 v124 v132 su (ix2 r k)
      = if k.val ≤ 512 + r.val then (∑ κ : Fin 64, Q r κ * K k κ) - SUf r k * Ideal.logistic (SUf r k) else ⊥ := by
  have e1 := Cert.LibDotT.matmul_zero_rowsT_apply dot_S256x64_S768x64_S256x768_1_1_0_0_n_n rfl rfl rfl rfl rfl rfl
    none v121 v124 r k
  show Scalar.select (v132 (ix2 r k))
      (FloatOps.matmul dot_S256x64_S768x64_S256x768_1_1_0_0_n_n none v121 v124
          (constant S256x768 .f32 0x00000000#32) (ix2 r k)
        - su (ix2 r k) * Ideal.logistic (su (ix2 r k)))
      (Named.named (F := Ideal) κ "neg_big" (φ := .f32) 0xF149F2CA#32) = _
  rw [h132 r k, e1, hsu r k, neg_big_eq]
  by_cases h : k.val ≤ 512 + r.val
  · rw [if_pos h, if_pos h, select_one]
    simp only [h121, h124]
  · rw [if_neg h, if_neg h, select_zero]

/-- The unnormalised weight at (r, k): e^(score − row maximum). -/
theorem pu_apply (sc : FVec Ideal S256x768 .f32) (r : Fin 256) (k : Fin 768) :
    puV sc (ix2 r k)
      = Ideal.exp (sc (ix2 r k) - (Finset.univ : Finset (Fin 768)).fold max ⊥ (fun k' => sc (ix2 r k'))) := by
  show Ideal.exp (sc (ix2 r k)
      - broadcastTo S256x768 (shapeCast S256x1 (mxV sc) shapeCasts_S256_S256x1) broadcasts_S256x1_S256x768 (ix2 r k)) = _
  rw [broadcastTo_a1_ab_apply, shapeCast_a_a1_apply, rowmax_apply]

/-- The block's result at (0, 0, r, d): the weights' product with the value rows, divided by the weights' row sum. -/
theorem out_apply (V : Fin 768 → Fin 64 → EReal) (v125 : FVec Ideal S768x64 .bf16) (pu : FVec Ideal S256x768 .f32)
    (h125 : ∀ k d, v125 (ix2 k d) = V k d) (r : Fin 256) (d : Fin 64) :
    outV v125 pu (ix4 (0 : Fin 1) (0 : Fin 1) r d)
      = Ideal.div (∑ k : Fin 768, pu (ix2 r k) * V k d) (∑ k : Fin 768, pu (ix2 r k)) := by
  unfold outV
  refine (shapeCast_ab_11ab_apply _ shapeCasts_S256x64_S1x1x256x64 (0 : Fin 1) (0 : Fin 1) r d).trans ?_
  have e1 := Cert.LibDot.matmul_rows_apply dot_S256x768_S768x64_S256x64_1_0_0_1_n_n rfl rfl rfl rfl rfl rfl
    none (truncf .bf16 pu bitsLt_bf16_f32) v125 (constant S256x64 .f32 0x00000000#32) r d
  show Ideal.div
      (FloatOps.matmul dot_S256x768_S768x64_S256x64_1_0_0_1_n_n none (truncf .bf16 pu bitsLt_bf16_f32) v125
        (constant S256x64 .f32 0x00000000#32) (ix2 r d))
      (broadcastTo S256x64 (shapeCast S256x1 (lsV pu) shapeCasts_S256_S256x1) broadcasts_S256x1_S256x64 (ix2 r d)) = _
  rw [e1, broadcastTo_a1_ab_apply, shapeCast_a_a1_apply, rowsum_apply]
  show Ideal.div (Ideal.ofBits .f32 0x00000000#32 + ∑ κ : Fin 768, pu (ix2 r κ) * v125 (ix2 κ d)) _ = _
  rw [Ideal.ofBits_zero_f32, zero_add]
  simp only [h125]

/-! ## The block's operands, entry by entry -/

section Operands

variable (q kk v qu ku vu : Head)
  (v23 v26 : FVec Ideal S1024x64 .bf16) (v119 : Vec Ideal S1x1x256x64 .f32) (v122 : Vec Ideal S1x1x768x64 .f32)

/-- The query rows in short format: row r of the block is global row 512 + r of q. -/
theorem pay15_apply
    (h119 : ∀ (r : Fin 256) (κ : Fin 64), v119 (ix4 (0 : Fin 1) (0 : Fin 1) r κ) = q ⟨512 + r.val, by omega⟩ κ)
    (r : Fin 256) (κ : Fin 64) : k0_pay15 (F := Ideal) v119 (ix2 r κ) = q ⟨512 + r.val, by omega⟩ κ :=
  (shapeCast_11ab_ab_apply v119 shapeCasts_S1x1x256x64_S256x64 r κ).trans (h119 r κ)

/-- The first 768 rows of a 1024 × 64 array: row c of the cut is row c of the array. -/
theorem rows768_apply (x : FVec Ideal S1024x64 .bf16) (c : Fin 768) (κ : Fin 64) :
    extractStridedSlice S768x64 ![0, 0] x slices_S1024x64_o0_0_S768x64 (ix2 c κ)
      = x (ix2 (Fin.castLE (by decide) c) κ) :=
  slice2_axis0_apply 0 x slices_S1024x64_o0_0_S768x64 c κ (Fin.castLE (by decide) c) (Nat.zero_add _).symm

/-- The key rows of the block. -/
theorem pay16_apply (h23 : ∀ (c : Fin 1024) (κ : Fin 64), v23 (ix2 c κ) = kk c κ) (c : Fin 768) (κ : Fin 64) :
    k0_pay16 (F := Ideal) v23 (ix2 c κ) = kk (Fin.castLE (by decide) c) κ :=
  (rows768_apply v23 c κ).trans (h23 _ κ)

/-- The value rows of the block. -/
theorem pay17_apply (h26 : ∀ (c : Fin 1024) (κ : Fin 64), v26 (ix2 c κ) = v c κ) (c : Fin 768) (κ : Fin 64) :
    k0_pay17 (F := Ideal) v26 (ix2 c κ) = v (Fin.castLE (by decide) c) κ :=
  (rows768_apply v26 c κ).trans (h26 _ κ)

/-- t1 at (r, j): the inner product of query row 512 + r with row j of vu on the causal history, zero after it. -/
theorem pay19_apply
    (h119 : ∀ (r : Fin 256) (κ : Fin 64), v119 (ix4 (0 : Fin 1) (0 : Fin 1) r κ) = q ⟨512 + r.val, by omega⟩ κ)
    (h122 : ∀ (c : Fin 768) (κ : Fin 64), v122 (ix4 (0 : Fin 1) (0 : Fin 1) c κ) = vu (Fin.castLE (by decide) c) κ)
    (r : Fin 256) (j : Fin 768) :
    k0_pay19 (F := Ideal) v119 v122 (ix2 r j) = T1 q vu ⟨512 + r.val, by omega⟩ (Fin.castLE (by decide) j) := by
  have e1 := Cert.LibDotT.matmul_zero_rowsT_apply dot_S256x64_S768x64_S256x768_1_1_0_0_n_n rfl rfl rfl rfl rfl rfl
    (some .fp32) (show FVec Ideal S256x64 .f32 from shapeCast S256x64 v119 shapeCasts_S1x1x256x64_S256x64)
    (show FVec Ideal S768x64 .f32 from shapeCast S768x64 v122 shapeCasts_S1x1x768x64_S768x64) r j
  have e2 : ∑ κ : Fin 64, (show FVec Ideal S256x64 .f32 from shapeCast S256x64 v119 shapeCasts_S1x1x256x64_S256x64) (ix2 r κ)
        * (show FVec Ideal S768x64 .f32 from shapeCast S768x64 v122 shapeCasts_S1x1x768x64_S768x64) (ix2 j κ)
      = dot64 (q ⟨512 + r.val, by omega⟩) (vu (Fin.castLE (by decide) j)) :=
    Finset.sum_congr rfl fun κ _ => congrArg₂ (· * ·)
      ((shapeCast_11ab_ab_apply v119 shapeCasts_S1x1x256x64_S256x64 r κ).trans (h119 r κ))
      ((shapeCast_11ab_ab_apply v122 shapeCasts_S1x1x768x64_S768x64 j κ).trans (h122 j κ))
  show Scalar.select (k0_pay18 (ix2 r j))
      (FloatOps.matmul dot_S256x64_S768x64_S256x768_1_1_0_0_n_n (some .fp32)
        (show FVec Ideal S256x64 .f32 from shapeCast S256x64 v119 shapeCasts_S1x1x256x64_S256x64)
        (show FVec Ideal S768x64 .f32 from shapeCast S768x64 v122 shapeCasts_S1x1x768x64_S768x64)
        (constant S256x768 .f32 0x00000000#32) (ix2 r j))
      (Ideal.ofBits .f32 0x00000000#32) = _
  rw [mask_apply r j, e1, e2, Ideal.ofBits_zero_f32]
  unfold T1
  by_cases h : j.val ≤ 512 + r.val
  · rw [if_pos h, select_one, if_pos (show Fin.castLE (by decide) j ≤ (⟨512 + r.val, by omega⟩ : Fin 1024) from h)]
  · rw [if_neg h, select_zero, if_neg (show ¬ Fin.castLE (by decide) j ≤ (⟨512 + r.val, by omega⟩ : Fin 1024) from h)]

/-- The first of the three products at (r, k): Σ_j t1 (r, j) · la (k, j) over the 768 columns. -/
theorem pay22_apply (v126 : Vec Ideal S768x768 .bf16)
    (h119 : ∀ (r : Fin 256) (κ : Fin 64), v119 (ix4 (0 : Fin 1) (0 : Fin 1) r κ) = q ⟨512 + r.val, by omega⟩ κ)
    (h122 : ∀ (c : Fin 768) (κ : Fin 64), v122 (ix4 (0 : Fin 1) (0 : Fin 1) c κ) = vu (Fin.castLE (by decide) c) κ)
    (h126 : ∀ (k j : Fin 768), v126 (ix2 k j) = LA qu ku (Fin.castLE (by decide) k) (Fin.castLE (by decide) j))
    (r : Fin 256) (k : Fin 768) :
    k0_pay22 (F := Ideal) v119 v122 v126 (ix2 r k)
      = ∑ j : Fin 768, T1 q vu ⟨512 + r.val, by omega⟩ (Fin.castLE (by decide) j)
          * LA qu ku (Fin.castLE (by decide) k) (Fin.castLE (by decide) j) := by
  have e1 := Cert.LibDotT.matmul_zero_rowsT_apply dot_S256x768_S768x768_S256x768_1_1_0_0_n_n rfl rfl rfl rfl rfl rfl
    none (k0_pay20 (F := Ideal) v119 v122) (show FVec Ideal S768x768 .bf16 from v126) r k
  refine e1.trans (Finset.sum_congr rfl fun j _ => congrArg₂ (· * ·) ?_ (h126 k j))
  exact pay19_apply q vu v119 v122 h119 h122 r j

end Operands

section Rounded

variable (v119 : Vec Ideal S1x1x256x64 .f32) (v122 : Vec Ideal S1x1x768x64 .f32)

/-- The rounding of t1 to the short format is t1 itself. -/
theorem pay20_apply (i : S256x768.Idx) :
    k0_pay20 (F := Ideal) v119 v122 i = k0_pay19 (F := Ideal) v119 v122 i := by
  unfold k0_pay20
  exact truncf_apply (k0_pay19 (F := Ideal) v119 v122) bitsLt_bf16_f32 i

/-- The remainder of t1 after its rounding is t1 − t1. -/
theorem pay21_apply (i : S256x768.Idx) :
    k0_pay21 (F := Ideal) v119 v122 i
      = k0_pay19 (F := Ideal) v119 v122 i - k0_pay19 (F := Ideal) v119 v122 i := by
  unfold k0_pay21
  exact (truncf_apply (subf (k0_pay19 (F := Ideal) v119 v122) (k0_pay19 (F := Ideal) v119 v122)) bitsLt_bf16_f32 i).trans
    (subf_apply (k0_pay19 (F := Ideal) v119 v122) (k0_pay19 (F := Ideal) v119 v122) i)

end Rounded

/-- From the masked scores on: if the score block holds SC entry by entry and the value rows hold V, the stored value
    at (0, 0, r, d) is Σ_k e^(SC r k − m_r) · V k d divided by Σ_k e^(SC r k − m_r), m_r the fold of max over row r. -/
theorem out_of_sc (SC : Fin 256 → Fin 768 → EReal) (V : Fin 768 → Fin 64 → EReal)
    (sc : FVec Ideal S256x768 .f32) (v125 : FVec Ideal S768x64 .bf16)
    (hsc : ∀ r k, sc (ix2 r k) = SC r k) (h125 : ∀ k d, v125 (ix2 k d) = V k d) (r : Fin 256) (d : Fin 64) :
    outV v125 (puV sc) (ix4 (0 : Fin 1) (0 : Fin 1) r d)
      = Ideal.div
          (∑ k : Fin 768, Ideal.exp (SC r k - (Finset.univ : Finset (Fin 768)).fold max ⊥ (SC r)) * V k d)
          (∑ k : Fin 768, Ideal.exp (SC r k - (Finset.univ : Finset (Fin 768)).fold max ⊥ (SC r))) := by
  refine (out_apply V v125 (puV sc) h125 r d).trans ?_
  have hp : ∀ k : Fin 768, puV sc (ix2 r k)
      = Ideal.exp (SC r k - (Finset.univ : Finset (Fin 768)).fold max ⊥ (SC r)) := fun k => by
    refine (pu_apply sc r k).trans ?_
    rw [hsc r k, show (fun k' => sc (ix2 r k')) = SC r from funext fun k' => hsc r k']
  simp only [hp]

/-- Row block 2. v23, v26: the k and v blocks (short format, [1024, 64]); v119: query rows 512‥767; v122: vu rows
    0‥767; v126, v127: the stored gate and its remainder on [0, 768)². -/
theorem block2_apply (q kk v qu ku vu : Head)
    (v23 v26 : FVec Ideal S1024x64 .bf16) (v119 : Vec Ideal S1x1x256x64 .f32) (v122 : Vec Ideal S1x1x768x64 .f32)
    (v126 v127 : Vec Ideal S768x768 .bf16)
    (h23 : ∀ (c : Fin 1024) (κ : Fin 64), v23 (ix2 c κ) = kk c κ)
    (h26 : ∀ (c : Fin 1024) (κ : Fin 64), v26 (ix2 c κ) = v c κ)
    (h119 : ∀ (r : Fin 256) (κ : Fin 64), v119 (ix4 (0 : Fin 1) (0 : Fin 1) r κ) = q ⟨512 + r.val, by omega⟩ κ)
    (h122 : ∀ (c : Fin 768) (κ : Fin 64), v122 (ix4 (0 : Fin 1) (0 : Fin 1) c κ) = vu (Fin.castLE (by decide) c) κ)
    (h126 : ∀ (k j : Fin 768), v126 (ix2 k j) = LA qu ku (Fin.castLE (by decide) k) (Fin.castLE (by decide) j))
    (h127 : ∀ (k j : Fin 768), v127 (ix2 k j)
      = LA qu ku (Fin.castLE (by decide) k) (Fin.castLE (by decide) j) - LA qu ku (Fin.castLE (by decide) k) (Fin.castLE (by decide) j))
    (r : Fin 256) (d : Fin 64) :
    k0_pay23 (F := Ideal) (k0_pay15 v119) (k0_pay16 v23) (k0_pay17 v26) v126 v127 k0_pay18 (k0_pay20 v119 v122)
        (k0_pay21 v119 v122) (k0_pay22 v119 v122 v126) (constant S256x768 .f32 0x00000000#32)
        (ix4 (0 : Fin 1) (0 : Fin 1) r d)
      = kOUT 768 (by decide) q kk v qu ku vu ⟨512 + r.val, by omega⟩ d := by
  -- t1 and its remainder, entry by entry
  have hT := pay19_apply q vu v119 v122 h119 h122
  -- the three added products are the prefix's su
  have hsu : ∀ (r : Fin 256) (k : Fin 768),
      suV v126 v127 (k0_pay20 v119 v122) (k0_pay21 v119 v122) (k0_pay22 v119 v122 v126)
          (constant S256x768 .f32 0x00000000#32) (ix2 r k)
        = kSU 768 (by decide) q vu qu ku ⟨512 + r.val, by omega⟩ k := fun r k =>
    su_apply (fun r j => T1 q vu ⟨512 + r.val, by omega⟩ (Fin.castLE (by decide) j))
      (fun k j => LA qu ku (Fin.castLE (by decide) k) (Fin.castLE (by decide) j))
      v126 v127 (k0_pay20 v119 v122) (k0_pay21 v119 v122) (k0_pay22 v119 v122 v126) h126 h127
      (fun r j => (pay20_apply v119 v122 (ix2 r j)).trans (hT r j))
      (fun r j => (pay21_apply v119 v122 (ix2 r j)).trans (congrArg₂ (· - ·) (hT r j) (hT r j)))
      (pay22_apply q qu ku vu v119 v122 v126 h119 h122 h126) r k
  -- the masked scores are the prefix's scores
  have hsc : ∀ (r : Fin 256) (k : Fin 768),
      scV (k0_pay15 v119) (k0_pay16 v23) k0_pay18
          (suV v126 v127 (k0_pay20 v119 v122) (k0_pay21 v119 v122) (k0_pay22 v119 v122 v126)
            (constant S256x768 .f32 0x00000000#32)) (ix2 r k)
        = kSC 768 (by decide) q kk vu qu ku ⟨512 + r.val, by omega⟩ k := fun r k => by
    refine (sc_apply (fun r κ => q ⟨512 + r.val, by omega⟩ κ) (fun k κ => kk (Fin.castLE (by decide) k) κ)
      (fun r k => kSU 768 (by decide) q vu qu ku ⟨512 + r.val, by omega⟩ k) _ _ _ _
      (pay15_apply q v119 h119) (pay16_apply kk v23 h23) mask_apply hsu r k).trans ?_
    unfold kSC dot64
    by_cases h : k.val ≤ 512 + r.val
    · rw [if_pos h, if_pos (show Fin.castLE (by decide) k ≤ (⟨512 + r.val, by omega⟩ : Fin 1024) from h)]
    · rw [if_neg h, if_neg (show ¬ Fin.castLE (by decide) k ≤ (⟨512 + r.val, by omega⟩ : Fin 1024) from h)]
  -- softmax against v, normalised once
  refine (congrFun (pay23_eq _ _ _ v126 v127 _ _ _ _ _) _).trans ?_
  refine (out_of_sc (fun r k => kSC 768 (by decide) q kk vu qu ku ⟨512 + r.val, by omega⟩ k)
    (fun k d => v (Fin.castLE (by decide) k) d) _ _ hsc (pay17_apply v v26 h26) r d).trans ?_
  rfl

end Cert.KernelIdeal.Block2

end
-- ==== Proof.Block3.lean ====
/-
  Row block 3 of a head: query rows 768 to 1023 against the first 1024 key positions.

  The block's stored value at (r, d) is, operation by operation: the causally masked product of the 256 query rows
  with the first 1024 rows of vu (t1), split into its rounding and the remainder t1 − t1; the three products of those
  with the stored gate and its remainder, added (su); the scores q · k − su · σ (su), masked to −∞ off the causal
  triangle; the row maximum, the exponentials, their row sum; the product of the exponentials with the first 1024 rows of
  v, divided by the row sum. Roundings to the short format are the identity on extended reals, a block product into the
  zero accumulator is the plain sum over the contracted coordinate, a lane reduction is the fold or the sum over the
  row, and the named fill value is −∞: so the value is `kOUT 1024` at row 768 + r.
-/
import proofs.«415080_j88252987998455_3_alg».proof.Proof.Gen.KernelIdeal.Skeleton
import proofs.«415080_j88252987998455_3_alg».proof.Proof.Heads
import proofs.«415080_j88252987998455_3_alg».proof.Proof.LibDot
import proofs.«415080_j88252987998455_3_alg».proof.Proof.LibDotT
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block3

open Cert.KernelIdeal Cert.KernelIdeal.Gen Idealize.ShloMosaic Idealize.ShloMosaic.ValueIdx Cert.Attn

/-! ## The causal mask of the block -/

/-- Signed comparison of two small words is the order of the naturals they encode. -/
theorem sle_small (r j : Nat) (hr : r < 256) (hj : j < 1024) :
    (BitVec.ofNat 32 j).sle (BitVec.ofNat 32 r + 768#32) = decide (j ≤ 768 + r) := by
  simp only [BitVec.sle, BitVec.toInt_eq_toNat_cond, BitVec.toNat_add, BitVec.toNat_ofNat]
  have h1 : j % 2 ^ 32 = j := Nat.mod_eq_of_lt (by omega)
  have h2 : (r % 2 ^ 32 + 768 % 2 ^ 32) % 2 ^ 32 = 768 + r := by omega
  rw [h1, h2]
  have h3 : 2 * j < 2 ^ 32 := by omega
  have h4 : 2 * (768 + r) < 2 ^ 32 := by omega
  rw [if_pos h3, if_pos h4, decide_eq_decide]
  omega

/-- The block's mask at (r, j): set exactly when key position j is not after query row 768 + r. -/
theorem mask_apply (r : Fin 256) (j : Fin 1024) :
    k0_pay27 (ix2 r j) = if j.val ≤ 768 + r.val then 1#1 else 0#1 := by
  unfold k0_pay27
  show IntOp.cmpi .sge (IntOp.addi (iota .tc S256x1024 32 [0] Facts₀.iota_S256x1024_d0_w32 (ix2 r j)) 768#32)
      (iota .tc S256x1024 32 [1] Facts₀.iota_S256x1024_d1_w32 (ix2 r j)) = _
  rw [iota_single_apply, iota_single_apply]
  show BitVec.ofBool ((BitVec.ofNat 32 j.val).sle (BitVec.ofNat 32 r.val + 768#32)) = _
  rw [sle_small r.val j.val r.isLt j.isLt]
  by_cases h : j.val ≤ 768 + r.val
  · rw [if_pos h]; simp [h]
  · rw [if_neg h]; simp [h]

/-! ## The block's arithmetic, one value at a time -/

/-- t1: the product of the query rows with the rows of vu, zeroed off the mask. -/
def t1v (v166 : FVec Ideal S256x64 .f32) (v169 : FVec Ideal S1024x64 .f32) (m : IVec S256x1024 1) :
    FVec Ideal S256x1024 .f32 :=
  select m
    (matmul dot_S256x64_S1024x64_S256x1024_1_1_0_0_n_n (some .fp32) v166 v169 (constant S256x1024 .f32 0x00000000#32))
    (broadcast S256x1024 (Scalar.ofBits .f32 0x00000000#32))

/-- su: the three products of t1 and its remainder t1 − t1 with the gate and its remainder, added. -/
def suv (t1 : FVec Ideal S256x1024 .f32) (v170 v171 : FVec Ideal S1024x1024 .bf16) : FVec Ideal S256x1024 .f32 :=
  addf
    (addf
      (matmul dot_S256x1024_S1024x1024_S256x1024_1_1_0_0_n_n none (truncf .bf16 t1 Facts₀.bitsLt_bf16_f32) v170
        (constant S256x1024 .f32 0x00000000#32))
      (matmul dot_S256x1024_S1024x1024_S256x1024_1_1_0_0_n_n none (truncf .bf16 t1 Facts₀.bitsLt_bf16_f32) v171
        (constant S256x1024 .f32 0x00000000#32)))
    (matmul dot_S256x1024_S1024x1024_S256x1024_1_1_0_0_n_n none
      (truncf .bf16 (subf t1 t1) Facts₀.bitsLt_bf16_f32) v170 (constant S256x1024 .f32 0x00000000#32))

/-- sc: the score q · k − su · σ (su), −∞ off the mask. -/
def scv (su : FVec Ideal S256x1024 .f32) (v167 : FVec Ideal S256x64 .bf16) (v23 : FVec Ideal S1024x64 .bf16)
    (m : IVec S256x1024 1) : FVec Ideal S256x1024 .f32 :=
  select m
    (subf (matmul dot_S256x64_S1024x64_S256x1024_1_1_0_0_n_n none v167 v23 (constant S256x1024 .f32 0x00000000#32))
      (mulf su (logistic su)))
    (broadcast S256x1024 (Named.named κ "neg_big" (0xF149F2CA#32 : BitVec (FTy.bits .f32))))

/-- The row maximum of the scores, spread back over the row. -/
def mxv (sc : FVec Ideal S256x1024 .f32) : FVec Ideal S256x1024 .f32 :=
  broadcastTo S256x1024
    (shapeCast S256x1 (multiReduction .maximumf [1] S256 sc 0xFF800000#32 Facts₀.reduces_S256x1024_S256 (.inl rfl) rfl)
      Facts₀.shapeCasts_S256_S256x1)
    Facts₀.broadcasts_S256x1_S256x1024

/-- The exponentials e^(sc − max). -/
def puv (sc : FVec Ideal S256x1024 .f32) : FVec Ideal S256x1024 .f32 := exp (subf sc (mxv sc))

/-- The block's stored value: the exponentials against v, divided by their row sum. -/
def outv (pu : FVec Ideal S256x1024 .f32) (v26 : FVec Ideal S1024x64 .bf16) : FVec Ideal S1x1x256x64 .f32 :=
  shapeCast S1x1x256x64
    (divf
      (matmul dot_S256x1024_S1024x64_S256x64_1_0_0_1_n_n none (truncf .bf16 pu Facts₀.bitsLt_bf16_f32) v26
        (constant S256x64 .f32 0x00000000#32))
      (broadcastTo S256x64
        (shapeCast S256x1 (multiReduction .add [1] S256 pu 0x00000000#32 Facts₀.reduces_S256x1024_S256 (.inl rfl) rfl)
          Facts₀.shapeCasts_S256_S256x1)
        Facts₀.broadcasts_S256x1_S256x64))
    Facts₀.shapeCasts_S256x64_S1x1x256x64

/-- The block's stored term is the composition of those values, step for step. -/
theorem pay1_eq (v23 v26 : FVec Ideal S1024x64 .bf16) (v166 : FVec Ideal S256x64 .f32) (v167 : FVec Ideal S256x64 .bf16)
    (v169 : FVec Ideal S1024x64 .f32) (v170 v171 : FVec Ideal S1024x1024 .bf16) (m : IVec S256x1024 1) :
    k0_pay1 (F := Ideal) v23 v26 v166 v167 v169 v170 v171 m
      = outv (puv (scv (suv (t1v v166 v169 m) v170 v171) v167 v23 m)) v26 := rfl

/-! ## Each value read at an index -/

/-- A select on the block's mask reads its first operand on the causal triangle and its second off it. -/
theorem select_mask_apply {α : Type} (m : IVec S256x1024 1)
    (hm : ∀ (r : Fin 256) (j : Fin 1024), m (ix2 r j) = if j.val ≤ 768 + r.val then 1#1 else 0#1)
    (a b : S256x1024.Idx → α) (r : Fin 256) (j : Fin 1024) :
    select m a b (ix2 r j) = if j.val ≤ 768 + r.val then a (ix2 r j) else b (ix2 r j) := by
  refine (select_apply m a b (ix2 r j)).trans ?_
  rw [hm r j]
  by_cases h : j.val ≤ 768 + r.val
  · rw [if_pos h, if_pos h, select_one]
  · rw [if_neg h, if_neg h, select_zero]

/-- The pattern of the f32 −∞ denotes ⊥. -/
theorem ofBits_negInf_f32 : Ideal.ofBits .f32 0xFF800000#32 = ⊥ := by simp [Ideal.ofBits, Ideal.ieee]

/-- The named fill value is ⊥. -/
theorem neg_big_eq : Named.named (F := Ideal) κ "neg_big" (φ := .f32) 0xF149F2CA#32 = (⊥ : EReal) :=
  IdealRules.named_const.ideal_named_scalar _ _ _ _ rfl

/-- t1 at (r, j): the inner product of query row r with row j of the right operand where j ≤ 768 + r, else 0. -/
theorem t1v_apply (v166 : FVec Ideal S256x64 .f32) (v169 : FVec Ideal S1024x64 .f32) (m : IVec S256x1024 1)
    (hm : ∀ (r : Fin 256) (j : Fin 1024), m (ix2 r j) = if j.val ≤ 768 + r.val then 1#1 else 0#1)
    (r : Fin 256) (j : Fin 1024) :
    t1v v166 v169 m (ix2 r j)
      = if j.val ≤ 768 + r.val then ∑ κ : Fin 64, v166 (ix2 r κ) * v169 (ix2 j κ) else 0 := by
  unfold t1v
  refine (select_mask_apply m hm _ _ r j).trans ?_
  by_cases h : j.val ≤ 768 + r.val
  · rw [if_pos h, if_pos h]
    exact Cert.LibDotT.matmul_zero_rowsT_apply dot_S256x64_S1024x64_S256x1024_1_1_0_0_n_n rfl rfl rfl rfl rfl rfl
      (some .fp32) v166 v169 r j
  · rw [if_neg h, if_neg h]
    exact Ideal.ofBits_zero_f32

/-- su at (r, k): the three sums over the key positions. -/
theorem suv_apply (t1 : FVec Ideal S256x1024 .f32) (v170 v171 : FVec Ideal S1024x1024 .bf16) (r : Fin 256) (k : Fin 1024) :
    suv t1 v170 v171 (ix2 r k)
      = (∑ j : Fin 1024, t1 (ix2 r j) * v170 (ix2 k j) + ∑ j : Fin 1024, t1 (ix2 r j) * v171 (ix2 k j))
        + ∑ j : Fin 1024, (t1 (ix2 r j) - t1 (ix2 r j)) * v170 (ix2 k j) := by
  unfold suv
  refine (addf_apply _ _ _).trans (congrArg₂ (· + ·) ((addf_apply _ _ _).trans (congrArg₂ (· + ·) ?_ ?_)) ?_)
  · exact Cert.LibDotT.matmul_zero_rowsT_apply dot_S256x1024_S1024x1024_S256x1024_1_1_0_0_n_n rfl rfl rfl rfl rfl rfl
      none (truncf .bf16 t1 Facts₀.bitsLt_bf16_f32) v170 r k
  · exact Cert.LibDotT.matmul_zero_rowsT_apply dot_S256x1024_S1024x1024_S256x1024_1_1_0_0_n_n rfl rfl rfl rfl rfl rfl
      none (truncf .bf16 t1 Facts₀.bitsLt_bf16_f32) v171 r k
  · exact Cert.LibDotT.matmul_zero_rowsT_apply dot_S256x1024_S1024x1024_S256x1024_1_1_0_0_n_n rfl rfl rfl rfl rfl rfl
      none (truncf .bf16 (subf t1 t1) Facts₀.bitsLt_bf16_f32) v170 r k

/-- sc at (r, k): q · k − su · σ (su) where k ≤ 768 + r, else ⊥. -/
theorem scv_apply (su : FVec Ideal S256x1024 .f32) (v167 : FVec Ideal S256x64 .bf16) (v23 : FVec Ideal S1024x64 .bf16)
    (m : IVec S256x1024 1)
    (hm : ∀ (r : Fin 256) (j : Fin 1024), m (ix2 r j) = if j.val ≤ 768 + r.val then 1#1 else 0#1)
    (r : Fin 256) (k : Fin 1024) :
    scv su v167 v23 m (ix2 r k)
      = if k.val ≤ 768 + r.val then
          (∑ κ : Fin 64, v167 (ix2 r κ) * v23 (ix2 k κ)) - su (ix2 r k) * Ideal.logistic (su (ix2 r k))
        else ⊥ := by
  unfold scv
  refine (select_mask_apply m hm _ _ r k).trans ?_
  by_cases h : k.val ≤ 768 + r.val
  · rw [if_pos h, if_pos h]
    refine (subf_apply _ _ _).trans (congrArg₂ (· - ·) ?_ rfl)
    exact Cert.LibDotT.matmul_zero_rowsT_apply dot_S256x64_S1024x64_S256x1024_1_1_0_0_n_n rfl rfl rfl rfl rfl rfl
      none v167 v23 r k
  · rw [if_neg h, if_neg h]
    exact neg_big_eq

/-! ## Layout steps: a column kept by a row reduction, and the block's two leading unit axes -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` block cast to `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

/-- The source index of a row reduction over result row r with column c inserted is (r, c). -/
theorem lift_row (h : S256x1024.Reduces [1] S256) (r : Fin 256) (c : Fin 1024) : h.lift (ix1 r) c = ix2 r c := by
  funext ax
  match ax with
  | ⟨0, _⟩ => exact Fin.ext rfl
  | ⟨1, _⟩ => exact Fin.ext rfl

/-- A row maximum from −∞ at row r is the fold of max from ⊥ over the row. -/
theorem rowMax_apply (src : FVec Ideal S256x1024 .f32) (h : S256x1024.Reduces [1] S256) (hφ : FKind.Formats .f32)
    (hacc : (0xFF800000#32 : BitVec (FTy.bits .f32)) = FKind.maximumf.neutral .f32 hφ) (r : Fin 256) :
    multiReduction .maximumf [1] S256 src 0xFF800000#32 h hφ hacc (ix1 r)
      = (Finset.univ : Finset (Fin 1024)).fold max ⊥ (fun c => src (ix2 r c)) := by
  refine (Ideal.multiReduction_maximumf_single src 0xFF800000#32 h hφ hacc (ix1 r)).trans ?_
  have e1 : (FloatOps.ofBits .f32 0xFF800000#32 : Ideal .f32) = ⊥ := ofBits_negInf_f32
  have e2 : (src ∘ h.lift (ix1 r)) = fun c : Fin 1024 => src (ix2 r c) :=
    funext fun c => congrArg src (lift_row h r c)
  rw [e1, e2]
  rfl

/-- A row sum at row r is the sum over the row. -/
theorem rowSum_apply (src : FVec Ideal S256x1024 .f32) (h : S256x1024.Reduces [1] S256) (hφ : FKind.Formats .f32)
    (hacc : (0x00000000#32 : BitVec (FTy.bits .f32)) = FKind.add.neutral .f32 hφ) (r : Fin 256) :
    multiReduction .add [1] S256 src 0x00000000#32 h hφ hacc (ix1 r) = ∑ c : Fin 1024, src (ix2 r c) := by
  refine (Ideal.multiReduction_add_single src 0x00000000#32 h hφ hacc (ix1 r)).trans ?_
  exact Finset.sum_congr rfl fun c _ => congrArg src (lift_row h r c)

/-- The spread row maximum at (r, k): the fold of max from ⊥ over row r. -/
theorem mxv_apply (sc : FVec Ideal S256x1024 .f32) (r : Fin 256) (k : Fin 1024) :
    mxv sc (ix2 r k) = (Finset.univ : Finset (Fin 1024)).fold max ⊥ (fun c => sc (ix2 r c)) := by
  unfold mxv
  refine (broadcastTo_a1_ab_apply _ Facts₀.broadcasts_S256x1_S256x1024 r k).trans ?_
  refine (shapeCast_a_a1_apply _ Facts₀.shapeCasts_S256_S256x1 r (0 : Fin 1)).trans ?_
  exact rowMax_apply sc _ _ _ r

/-- The exponential at (r, k). -/
theorem puv_apply (sc : FVec Ideal S256x1024 .f32) (r : Fin 256) (k : Fin 1024) :
    puv sc (ix2 r k)
      = Ideal.exp (sc (ix2 r k) - (Finset.univ : Finset (Fin 1024)).fold max ⊥ (fun c => sc (ix2 r c))) := by
  unfold puv
  show Ideal.exp (sc (ix2 r k) - mxv sc (ix2 r k)) = _
  rw [mxv_apply]

/-- The stored value at (0, 0, r, d): the exponentials of row r against column d of v, divided by their sum. -/
theorem outv_apply (pu : FVec Ideal S256x1024 .f32) (v26 : FVec Ideal S1024x64 .bf16) (r : Fin 256) (d : Fin 64) :
    outv pu v26 (ix4 (0 : Fin 1) (0 : Fin 1) r d)
      = Ideal.div (∑ k : Fin 1024, pu (ix2 r k) * v26 (ix2 k d)) (∑ k : Fin 1024, pu (ix2 r k)) := by
  unfold outv
  refine (shapeCast_ab_11ab_apply _ Facts₀.shapeCasts_S256x64_S1x1x256x64 (0 : Fin 1) (0 : Fin 1) r d).trans ?_
  refine (divf_apply _ _ _).trans (congrArg₂ Ideal.div ?_ ?_)
  · refine (Cert.LibDot.matmul_rows_apply dot_S256x1024_S1024x64_S256x64_1_0_0_1_n_n rfl rfl rfl rfl rfl rfl none
      (truncf .bf16 pu Facts₀.bitsLt_bf16_f32) v26 (constant S256x64 .f32 0x00000000#32) r d).trans ?_
    have e0 : constant (F := Ideal) S256x64 .f32 0x00000000#32 (ix2 r d) = 0 := Ideal.ofBits_zero_f32
    rw [e0, zero_add]
    rfl
  · refine (broadcastTo_a1_ab_apply _ Facts₀.broadcasts_S256x1_S256x64 r d).trans ?_
    refine (shapeCast_a_a1_apply _ Facts₀.shapeCasts_S256_S256x1 r (0 : Fin 1)).trans ?_
    exact rowSum_apply pu _ _ _ r

/-! ## The values are the row block's functions of the head -/

/-- Query row r of the block is row 768 + r of the head. -/
abbrev row (r : Fin 256) : Fin 1024 := ⟨768 + r.val, by omega⟩

/-- The query block recast to [256, 64] reads the block's rows. -/
theorem pay24_apply (v165 : Vec Ideal S1x1x256x64 .f32) (r : Fin 256) (κ : Fin 64) :
    k0_pay24 (F := Ideal) v165 (ix2 r κ) = v165 (ix4 (0 : Fin 1) (0 : Fin 1) r κ) := by
  unfold k0_pay24
  exact shapeCast_11ab_ab_apply v165 Facts₀.shapeCasts_S1x1x256x64_S256x64 r κ

/-- Its rounding to the short format reads the same rows. -/
theorem pay25_apply (v165 : Vec Ideal S1x1x256x64 .f32) (r : Fin 256) (κ : Fin 64) :
    k0_pay25 (F := Ideal) v165 (ix2 r κ) = v165 (ix4 (0 : Fin 1) (0 : Fin 1) r κ) := by
  unfold k0_pay25
  exact pay24_apply v165 r κ

/-- The vu block recast to [1024, 64] reads the block's rows. -/
theorem pay26_apply (v168 : Vec Ideal S1x1x1024x64 .f32) (c : Fin 1024) (κ : Fin 64) :
    k0_pay26 (F := Ideal) v168 (ix2 c κ) = v168 (ix4 (0 : Fin 1) (0 : Fin 1) c κ) := by
  unfold k0_pay26
  exact shapeCast_11ab_ab_apply v168 Facts₀.shapeCasts_S1x1x1024x64_S1024x64 c κ

/-- t1 at (r, j) is the causal history T1 of row 768 + r at key position j. -/
theorem t1_eq (q vu : Head) (v166 : FVec Ideal S256x64 .f32) (v169 : FVec Ideal S1024x64 .f32) (m : IVec S256x1024 1)
    (hm : ∀ (r : Fin 256) (j : Fin 1024), m (ix2 r j) = if j.val ≤ 768 + r.val then 1#1 else 0#1)
    (r : Fin 256) (h166 : ∀ κ : Fin 64, v166 (ix2 r κ) = q (row r) κ)
    (h169 : ∀ (c : Fin 1024) (κ : Fin 64), v169 (ix2 c κ) = vu (Fin.castLE (le_refl 1024) c) κ) (j : Fin 1024) :
    t1v v166 v169 m (ix2 r j) = T1 q vu (row r) (Fin.castLE (le_refl 1024) j) := by
  refine (t1v_apply v166 v169 m hm r j).trans ?_
  unfold T1 dot64
  by_cases h : j.val ≤ 768 + r.val
  · rw [if_pos h, if_pos (show Fin.castLE (le_refl 1024) j ≤ row r from h)]
    exact Finset.sum_congr rfl fun κ _ => congrArg₂ (· * ·) (h166 κ) (h169 j κ)
  · rw [if_neg h, if_neg (show ¬ Fin.castLE (le_refl 1024) j ≤ row r from h)]

/-- su at (r, k) is kSU of row 768 + r at key position k: the three sums term by term. -/
theorem su_eq (q vu qu ku : Head) (t1 : FVec Ideal S256x1024 .f32) (v170 v171 : FVec Ideal S1024x1024 .bf16) (r : Fin 256)
    (hT : ∀ j : Fin 1024, t1 (ix2 r j) = T1 q vu (row r) (Fin.castLE (le_refl 1024) j))
    (h170 : ∀ (k j : Fin 1024), v170 (ix2 k j) = LA qu ku (Fin.castLE (le_refl 1024) k) (Fin.castLE (le_refl 1024) j))
    (h171 : ∀ (k j : Fin 1024), v171 (ix2 k j)
      = LA qu ku (Fin.castLE (le_refl 1024) k) (Fin.castLE (le_refl 1024) j)
        - LA qu ku (Fin.castLE (le_refl 1024) k) (Fin.castLE (le_refl 1024) j))
    (k : Fin 1024) :
    suv t1 v170 v171 (ix2 r k) = kSU 1024 (le_refl 1024) q vu qu ku (row r) k := by
  refine (suv_apply t1 v170 v171 r k).trans ?_
  unfold kSU
  refine congrArg₂ (· + ·) (congrArg₂ (· + ·) ?_ ?_) ?_
  · exact Finset.sum_congr rfl fun j _ => congrArg₂ (· * ·) (hT j) (h170 k j)
  · exact Finset.sum_congr rfl fun j _ => congrArg₂ (· * ·) (hT j) (h171 k j)
  · exact Finset.sum_congr rfl fun j _ => congrArg₂ (· * ·) (congrArg₂ (· - ·) (hT j) (hT j)) (h170 k j)

/-- sc at (r, k) is the masked score kSC of row 768 + r at key position k. -/
theorem sc_eq (q kk vu qu ku : Head) (su : FVec Ideal S256x1024 .f32) (v167 : FVec Ideal S256x64 .bf16)
    (v23 : FVec Ideal S1024x64 .bf16) (m : IVec S256x1024 1)
    (hm : ∀ (r : Fin 256) (j : Fin 1024), m (ix2 r j) = if j.val ≤ 768 + r.val then 1#1 else 0#1)
    (r : Fin 256) (hS : ∀ k : Fin 1024, su (ix2 r k) = kSU 1024 (le_refl 1024) q vu qu ku (row r) k)
    (h167 : ∀ κ : Fin 64, v167 (ix2 r κ) = q (row r) κ)
    (h23 : ∀ (c : Fin 1024) (κ : Fin 64), v23 (ix2 c κ) = kk c κ) (k : Fin 1024) :
    scv su v167 v23 m (ix2 r k) = kSC 1024 (le_refl 1024) q kk vu qu ku (row r) k := by
  refine (scv_apply su v167 v23 m hm r k).trans ?_
  unfold kSC dot64
  by_cases h : k.val ≤ 768 + r.val
  · rw [if_pos h, if_pos (show Fin.castLE (le_refl 1024) k ≤ row r from h), hS k]
    refine congrArg₂ (· - ·) ?_ rfl
    exact Finset.sum_congr rfl fun κ _ => congrArg₂ (· * ·) (h167 κ) (h23 k κ)
  · rw [if_neg h, if_neg (show ¬ Fin.castLE (le_refl 1024) k ≤ row r from h)]

/-- The exponential at (r, k) is the unnormalised weight kPU. -/
theorem pu_eq (q kk vu qu ku : Head) (sc : FVec Ideal S256x1024 .f32) (r : Fin 256)
    (hC : ∀ k : Fin 1024, sc (ix2 r k) = kSC 1024 (le_refl 1024) q kk vu qu ku (row r) k) (k : Fin 1024) :
    puv sc (ix2 r k) = kPU 1024 (le_refl 1024) q kk vu qu ku (row r) k := by
  refine (puv_apply sc r k).trans ?_
  unfold kPU kMX
  have e : (fun c : Fin 1024 => sc (ix2 r c)) = kSC 1024 (le_refl 1024) q kk vu qu ku (row r) := funext hC
  rw [e, hC k]

/-- The stored value at (0, 0, r, d) is kOUT of row 768 + r at feature d. -/
theorem out_eq (q kk v qu ku vu : Head) (pu : FVec Ideal S256x1024 .f32) (v26 : FVec Ideal S1024x64 .bf16) (r : Fin 256)
    (hP : ∀ k : Fin 1024, pu (ix2 r k) = kPU 1024 (le_refl 1024) q kk vu qu ku (row r) k)
    (h26 : ∀ (c : Fin 1024) (κ : Fin 64), v26 (ix2 c κ) = v c κ) (d : Fin 64) :
    outv pu v26 (ix4 (0 : Fin 1) (0 : Fin 1) r d) = kOUT 1024 (le_refl 1024) q kk v qu ku vu (row r) d := by
  refine (outv_apply pu v26 r d).trans ?_
  unfold kOUT kLS
  refine congrArg₂ Ideal.div ?_ ?_
  · exact Finset.sum_congr rfl fun k _ => congrArg₂ (· * ·) (hP k) (h26 k d)
  · exact Finset.sum_congr rfl fun k _ => hP k

/-- Row block 3. v23, v26: the k and v blocks (short format, [1024, 64]); v165: query rows 768‥1023; v168: the whole
    vu block; v170, v171: the stored gate and its remainder, whole. -/
theorem block3_apply (q kk v qu ku vu : Head)
    (v23 v26 : FVec Ideal S1024x64 .bf16) (v165 : Vec Ideal S1x1x256x64 .f32) (v168 : Vec Ideal S1x1x1024x64 .f32)
    (v170 v171 : Vec Ideal S1024x1024 .bf16)
    (h23 : ∀ (c : Fin 1024) (κ : Fin 64), v23 (ix2 c κ) = kk c κ)
    (h26 : ∀ (c : Fin 1024) (κ : Fin 64), v26 (ix2 c κ) = v c κ)
    (h165 : ∀ (r : Fin 256) (κ : Fin 64), v165 (ix4 (0 : Fin 1) (0 : Fin 1) r κ) = q ⟨768 + r.val, by omega⟩ κ)
    (h168 : ∀ (c : Fin 1024) (κ : Fin 64), v168 (ix4 (0 : Fin 1) (0 : Fin 1) c κ) = vu (Fin.castLE (le_refl 1024) c) κ)
    (h170 : ∀ (k j : Fin 1024), v170 (ix2 k j) = LA qu ku (Fin.castLE (le_refl 1024) k) (Fin.castLE (le_refl 1024) j))
    (h171 : ∀ (k j : Fin 1024), v171 (ix2 k j)
      = LA qu ku (Fin.castLE (le_refl 1024) k) (Fin.castLE (le_refl 1024) j)
        - LA qu ku (Fin.castLE (le_refl 1024) k) (Fin.castLE (le_refl 1024) j))
    (r : Fin 256) (d : Fin 64) :
    k0_pay1 (F := Ideal) v23 v26 (k0_pay24 v165) (k0_pay25 v165) (k0_pay26 v168) v170 v171 k0_pay27
        (ix4 (0 : Fin 1) (0 : Fin 1) r d)
      = kOUT 1024 (le_refl 1024) q kk v qu ku vu ⟨768 + r.val, by omega⟩ d := by
  have hq : ∀ κ : Fin 64, k0_pay24 (F := Ideal) v165 (ix2 r κ) = q (row r) κ :=
    fun κ => (pay24_apply v165 r κ).trans (h165 r κ)
  have hq' : ∀ κ : Fin 64, k0_pay25 (F := Ideal) v165 (ix2 r κ) = q (row r) κ :=
    fun κ => (pay25_apply v165 r κ).trans (h165 r κ)
  have hvu : ∀ (c : Fin 1024) (κ : Fin 64), k0_pay26 (F := Ideal) v168 (ix2 c κ) = vu (Fin.castLE (le_refl 1024) c) κ :=
    fun c κ => (pay26_apply v168 c κ).trans (h168 c κ)
  refine (congrFun (pay1_eq v23 v26 (k0_pay24 v165) (k0_pay25 v165) (k0_pay26 v168) v170 v171 k0_pay27) _).trans ?_
  exact out_eq q kk v qu ku vu _ v26 r
    (pu_eq q kk vu qu ku _ r
      (sc_eq q kk vu qu ku _ (k0_pay25 v165) v23 k0_pay27 mask_apply r
        (su_eq q vu qu ku _ v170 v171 r
          (t1_eq q vu (k0_pay24 v165) (k0_pay26 v168) k0_pay27 mask_apply r hq hvu) h170 h171)
        hq' h23))
    h26 d

end Cert.KernelIdeal.Block3

end
-- ==== Proof.Pieces.lean ====
/-
  What the body leaves in the output block: entry (0, 0, i, d) is the head formula `OUT` of the six input blocks.

  The body stores the output block as four slabs of 256 rows. Slab b holds, at local row r, the row-block value for
  query row 256 b + r over the key prefix 256 (b + 1); for finite inputs that is the whole-row value `OUT`. The slabs
  tile the block, so every entry is covered by exactly the slab its row falls in. What each slab's value is computed
  from: the loads of the k, v, qu, ku blocks read those blocks whole; the query rows and the vu prefix are row ranges
  of their blocks; and the two scratch buffers, stored whole in the first phase with the gate and its remainder, are
  read back on the leading square of the slab's prefix.
-/
import proofs.«415080_j88252987998455_3_alg».proof.Proof.Gen.KernelIdeal.Frame
import proofs.«415080_j88252987998455_3_alg».proof.Proof.Heads
import proofs.«415080_j88252987998455_3_alg».proof.Proof.OutSpec
import proofs.«415080_j88252987998455_3_alg».proof.Proof.Math
import proofs.«415080_j88252987998455_3_alg».proof.Proof.Loads
import proofs.«415080_j88252987998455_3_alg».proof.Proof.LaPhase
import proofs.«415080_j88252987998455_3_alg».proof.Proof.Block0
import proofs.«415080_j88252987998455_3_alg».proof.Proof.Block1
import proofs.«415080_j88252987998455_3_alg».proof.Proof.Block2
import proofs.«415080_j88252987998455_3_alg».proof.Proof.Block3
import Idealize.ShloMosaic.Lib.Pipeline.Value

set_option maxRecDepth 16384

noncomputable section

namespace Cert.KernelIdeal.Pieces

open Cert.KernelIdeal Cert.KernelIdeal.Gen Idealize.ShloMosaic Idealize.ShloMosaic.ValueIdx Cert.Attn
open Idealize.ShloMosaic.Tactic

/-- Every index of a [1, 1, n, 64] slab is (0, 0, r, κ). -/
theorem slab_idx {n : Nat} (x : (⟨4, ![1, 1, n, 64]⟩ : Shape).Idx) :
    ∃ (r : Fin n) (κ : Fin 64), x = ix4 (0 : Fin 1) (0 : Fin 1) r κ :=
  ⟨x 2, x 3, by
    have h := eq_ix4 x
    have h0 : x 0 = (0 : Fin 1) := Fin.ext (Nat.lt_one_iff.mp (x 0).isLt)
    have h1 : x 1 = (0 : Fin 1) := Fin.ext (Nat.lt_one_iff.mp (x 1).isLt)
    rw [h0, h1] at h
    exact h⟩

set_option maxHeartbeats 1600000 in
/-- The block-level statement holds: the four stored slabs all agree with `OUT` of the blocks' heads, and they cover
    the output block. -/
theorem out_spec : OutSpec := by
  intro c i arg2 harg2 arg3 harg3 arg4 harg4 arg5 harg5 arg6 harg6 arg7 harg7 arg8 harg8 arg9 harg9 arg10 harg10
    x0 x1 x2 x3 x4 x5 hr0 hr1 hr2 hr3 hr4 hr5 ii d
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  refine (View.canon_apply_of_pieces
    (fun y : S1x1x1024x64.Idx => OUT (headOfBlock x0) (headOfBlock x1) (headOfBlock x2) (headOfBlock x3) (headOfBlock x4) (headOfBlock x5) (y 2) (y 3))
    _ ?_ (ix4 (0 : Fin 1) (0 : Fin 1) ii d) (cover0_A_6 c i arg2 harg2 arg3 harg3 arg4 harg4 arg5 harg5 arg6 harg6 arg7 harg7 arg8 harg8 arg9 harg9 arg10 harg10 x0 x1 x2 x3 x4 x5 (ix4 (0 : Fin 1) (0 : Fin 1) ii d))).trans rfl
  intro p hp x
  unfold kernelRun0_A at hp
  dsimp only at hp
  simp only [List.mem_cons, List.not_mem_nil, or_false] at hp
  rcases hp with rfl | rfl | rfl | rfl
  · -- rows 768‥1023: the row block over the first 1024 key positions
    obtain ⟨r, κ, rfl⟩ := slab_idx (n := 256) x
    dsimp only
    sl_unfold_words
    rw [Loads.load_whole arg3 harg3 x1 inb_S1x1x1024x64_S1x1x1024x64_0_0_0_0,
      Loads.load_whole arg4 harg4 x2 inb_S1x1x1024x64_S1x1x1024x64_0_0_0_0,
      Loads.load_whole arg5 harg5 x3 inb_S1x1x1024x64_S1x1x1024x64_0_0_0_0,
      Loads.load_whole arg6 harg6 x4 inb_S1x1x1024x64_S1x1x1024x64_0_0_0_0]
    refine ((Block3.block3_apply (headOfBlock x0) (headOfBlock x1) (headOfBlock x2) (headOfBlock x3) (headOfBlock x4) (headOfBlock x5) _ _ _ _ _ _ ?h23 ?h26 ?h165 ?h168 ?h170 ?h171 r κ).trans
      (kOUT_eq_OUT 1024 (le_refl 1024) _ _ _ _ _ _ hr0 hr1 hr2 hr3 hr4 hr5 ⟨768 + r.val, by omega⟩ (by show 768 + r.val < 1024; omega) κ)).trans ?_
    case h23 => exact fun c κ => LaPhase.pay5_apply x1 c κ
    case h26 => exact fun c κ => LaPhase.pay6_apply x2 c κ
    case h165 => exact fun r κ => Loads.load_rows arg2 harg2 x0 768 256 _ r κ (by omega)
    case h168 => exact fun c κ => congrFun (Loads.load_whole arg7 harg7 x5 inb_S1x1x1024x64_S1x1x1024x64_0_0_0_0) (ix4 (0 : Fin 1) (0 : Fin 1) c κ)
    case h170 => exact fun k j => (Loads.readback arg9 (k0_pay3 x3 x4) 1024 (le_refl 1024) _ _ k j).trans (LaPhase.pay3_apply x3 x4 _ _)
    case h171 => exact fun k j => (Loads.readback arg10 (k0_pay4 x3 x4) 1024 (le_refl 1024) _ _ k j).trans (LaPhase.pay4_apply x3 x4 _ _)
    exact congrArg₂ (OUT (headOfBlock x0) (headOfBlock x1) (headOfBlock x2) (headOfBlock x3) (headOfBlock x4) (headOfBlock x5))
      (Fin.ext (by show 768 + r.val = 768 + 1 * r.val; omega)) (Fin.ext (by show κ.val = 0 + 1 * κ.val; omega))
  · -- rows 512‥767: the row block over the first 768 key positions
    obtain ⟨r, κ, rfl⟩ := slab_idx (n := 256) x
    dsimp only
    sl_unfold_words
    rw [Loads.load_whole arg3 harg3 x1 inb_S1x1x1024x64_S1x1x1024x64_0_0_0_0,
      Loads.load_whole arg4 harg4 x2 inb_S1x1x1024x64_S1x1x1024x64_0_0_0_0,
      Loads.load_whole arg5 harg5 x3 inb_S1x1x1024x64_S1x1x1024x64_0_0_0_0,
      Loads.load_whole arg6 harg6 x4 inb_S1x1x1024x64_S1x1x1024x64_0_0_0_0]
    refine ((Block2.block2_apply (headOfBlock x0) (headOfBlock x1) (headOfBlock x2) (headOfBlock x3) (headOfBlock x4) (headOfBlock x5) _ _ _ _ _ _ ?h23 ?h26 ?h119 ?h122 ?h126 ?h127 r κ).trans
      (kOUT_eq_OUT 768 (by decide) _ _ _ _ _ _ hr0 hr1 hr2 hr3 hr4 hr5 ⟨512 + r.val, by omega⟩ (by show 512 + r.val < 768; omega) κ)).trans ?_
    case h23 => exact fun c κ => LaPhase.pay5_apply x1 c κ
    case h26 => exact fun c κ => LaPhase.pay6_apply x2 c κ
    case h119 => exact fun r κ => Loads.load_rows arg2 harg2 x0 512 256 _ r κ (by omega)
    case h122 => exact fun c κ => (Loads.load_rows arg7 harg7 x5 0 768 _ c κ (by omega)).trans (congrArg (fun i : Fin 1024 => x5 (ix4 (0 : Fin 1) (0 : Fin 1) i κ)) (Fin.ext (Nat.zero_add _)))
    case h126 => exact fun k j => (Loads.readback arg9 (k0_pay3 x3 x4) 768 (by decide) _ _ k j).trans (LaPhase.pay3_apply x3 x4 _ _)
    case h127 => exact fun k j => (Loads.readback arg10 (k0_pay4 x3 x4) 768 (by decide) _ _ k j).trans (LaPhase.pay4_apply x3 x4 _ _)
    exact congrArg₂ (OUT (headOfBlock x0) (headOfBlock x1) (headOfBlock x2) (headOfBlock x3) (headOfBlock x4) (headOfBlock x5))
      (Fin.ext (by show 512 + r.val = 512 + 1 * r.val; omega)) (Fin.ext (by show κ.val = 0 + 1 * κ.val; omega))
  · -- rows 256‥511: the row block over the first 512 key positions
    obtain ⟨r, κ, rfl⟩ := slab_idx (n := 256) x
    dsimp only
    sl_unfold_words
    rw [Loads.load_whole arg3 harg3 x1 inb_S1x1x1024x64_S1x1x1024x64_0_0_0_0,
      Loads.load_whole arg4 harg4 x2 inb_S1x1x1024x64_S1x1x1024x64_0_0_0_0,
      Loads.load_whole arg5 harg5 x3 inb_S1x1x1024x64_S1x1x1024x64_0_0_0_0,
      Loads.load_whole arg6 harg6 x4 inb_S1x1x1024x64_S1x1x1024x64_0_0_0_0]
    refine ((Block1.block1_apply (headOfBlock x0) (headOfBlock x1) (headOfBlock x2) (headOfBlock x3) (headOfBlock x4) (headOfBlock x5) _ _ _ _ _ _ ?h23 ?h26 ?h73 ?h76 ?h80 ?h81 r κ).trans
      (kOUT_eq_OUT 512 (by decide) _ _ _ _ _ _ hr0 hr1 hr2 hr3 hr4 hr5 ⟨256 + r.val, by omega⟩ (by show 256 + r.val < 512; omega) κ)).trans ?_
    case h23 => exact fun c κ => LaPhase.pay5_apply x1 c κ
    case h26 => exact fun c κ => LaPhase.pay6_apply x2 c κ
    case h73 => exact fun r κ => Loads.load_rows arg2 harg2 x0 256 256 _ r κ (by omega)
    case h76 => exact fun c κ => (Loads.load_rows arg7 harg7 x5 0 512 _ c κ (by omega)).trans (congrArg (fun i : Fin 1024 => x5 (ix4 (0 : Fin 1) (0 : Fin 1) i κ)) (Fin.ext (Nat.zero_add _)))
    case h80 => exact fun k j => (Loads.readback arg9 (k0_pay3 x3 x4) 512 (by decide) _ _ k j).trans (LaPhase.pay3_apply x3 x4 _ _)
    case h81 => exact fun k j => (Loads.readback arg10 (k0_pay4 x3 x4) 512 (by decide) _ _ k j).trans (LaPhase.pay4_apply x3 x4 _ _)
    exact congrArg₂ (OUT (headOfBlock x0) (headOfBlock x1) (headOfBlock x2) (headOfBlock x3) (headOfBlock x4) (headOfBlock x5))
      (Fin.ext (by show 256 + r.val = 256 + 1 * r.val; omega)) (Fin.ext (by show κ.val = 0 + 1 * κ.val; omega))
  · -- rows 0‥255: the row block over the first 256 key positions
    obtain ⟨r, κ, rfl⟩ := slab_idx (n := 256) x
    dsimp only
    sl_unfold_words
    rw [Loads.load_whole arg3 harg3 x1 inb_S1x1x1024x64_S1x1x1024x64_0_0_0_0,
      Loads.load_whole arg4 harg4 x2 inb_S1x1x1024x64_S1x1x1024x64_0_0_0_0,
      Loads.load_whole arg5 harg5 x3 inb_S1x1x1024x64_S1x1x1024x64_0_0_0_0,
      Loads.load_whole arg6 harg6 x4 inb_S1x1x1024x64_S1x1x1024x64_0_0_0_0]
    refine ((Block0.block0_apply (headOfBlock x0) (headOfBlock x1) (headOfBlock x2) (headOfBlock x3) (headOfBlock x4) (headOfBlock x5) _ _ _ _ _ _ ?h23 ?h26 ?h27 ?h30 ?h34 ?h35 r κ).trans
      (kOUT_eq_OUT 256 (by decide) _ _ _ _ _ _ hr0 hr1 hr2 hr3 hr4 hr5 ⟨r.val, by omega⟩ (by show r.val < 256; omega) κ)).trans ?_
    case h23 => exact fun c κ => LaPhase.pay5_apply x1 c κ
    case h26 => exact fun c κ => LaPhase.pay6_apply x2 c κ
    case h27 => exact fun r κ => (Loads.load_rows arg2 harg2 x0 0 256 _ r κ (by omega)).trans (congrArg (fun i : Fin 1024 => x0 (ix4 (0 : Fin 1) (0 : Fin 1) i κ)) (Fin.ext (Nat.zero_add _)))
    case h30 => exact fun c κ => (Loads.load_rows arg7 harg7 x5 0 256 _ c κ (by omega)).trans (congrArg (fun i : Fin 1024 => x5 (ix4 (0 : Fin 1) (0 : Fin 1) i κ)) (Fin.ext (Nat.zero_add _)))
    case h34 => exact fun k j => (Loads.readback arg9 (k0_pay3 x3 x4) 256 (by decide) _ _ k j).trans (LaPhase.pay3_apply x3 x4 _ _)
    case h35 => exact fun k j => (Loads.readback arg10 (k0_pay4 x3 x4) 256 (by decide) _ _ k j).trans (LaPhase.pay4_apply x3 x4 _ _)
    exact congrArg₂ (OUT (headOfBlock x0) (headOfBlock x1) (headOfBlock x2) (headOfBlock x3) (headOfBlock x4) (headOfBlock x5))
      (Fin.ext (by show r.val = 0 + 1 * r.val; omega)) (Fin.ext (by show κ.val = 0 + 1 * κ.val; omega))

end Cert.KernelIdeal.Pieces

end
-- ==== Proof.lean ====
/-
  A fused causal-attention kernel with a look-ahead gate equals its plain reference over the extended reals.

  Per (batch, head) pair the six 1024 × 64 arrays q, k, v, qu, ku, vu give
    t1 i j = q_i · vu_j (j ≤ i, else 0),   la k j = σ (qu_k · ku_j) (k < j, else 0),   su i k = Σ_j t1 i j · la k j,
    sc i k = q_i · k_k − su i k · σ (su i k) (k ≤ i, else −∞),   out i d = Σ_k softmax_k (sc i ·) · v k d.
  The reference computes exactly that, every sum over all 1024 positions. The kernel computes one head per grid point,
  in four blocks of 256 query rows; block b uses only the first 256 (b + 1) key positions, splits t1 and la into a
  short-format rounding and a remainder and assembles su from three of the four products, fills masked scores with a
  large negative number instead of −∞, and divides by the softmax normaliser once, after the product with v.
  Over the extended reals with finite inputs these differences vanish: a rounding is the identity, so each remainder
  is x − x = 0 and the dropped and the two kept remainder products are zero; past the prefix t1 is zero and the scores
  are −∞, neutral for the sum, the maximum and (as e^(−∞) = 0) the normaliser; the named fill value is −∞; and dividing
  a finite sum by a positive real is dividing its terms.

  The pieces: `Spec` states both forms of the head formula; `Math` proves them equal; `RefRead` / `RefRun` /
  `RefSpec` read the reference's run back to `OUT`; `LaPhase`, `Block0` ‥ `Block3`, `Loads`, `Pieces` read what one grid
  point stores as `OUT` of its six blocks; `Final` passes to the whole result array; `Finite` turns the
  precondition into "every entry is a real". The frames of the two kernel programs are the generated ones; the
  reference's frame is its run with the result forgotten; the idealisation's nine rewrites are closed by their rules.
-/
import proofs.«415080_j88252987998455_3_alg».proof.Defs
import proofs.«415080_j88252987998455_3_alg».proof.Proof.Gen.Kernel
import proofs.«415080_j88252987998455_3_alg».proof.Proof.Gen.Kernel.Frame
import proofs.«415080_j88252987998455_3_alg».proof.Proof.Gen.KernelIdeal
import proofs.«415080_j88252987998455_3_alg».proof.Proof.Gen.KernelIdeal.Frame
import proofs.«415080_j88252987998455_3_alg».proof.Proof.Gen.KernelIdeal.Value
import proofs.«415080_j88252987998455_3_alg».proof.Proof.Gen.ReferenceIdeal
import proofs.«415080_j88252987998455_3_alg».proof.Proof.Gen.Pre_finite_inputs
import proofs.«415080_j88252987998455_3_alg».proof.Proof.Finite
import proofs.«415080_j88252987998455_3_alg».proof.Proof.RefSpec
import proofs.«415080_j88252987998455_3_alg».proof.Proof.RefRun
import proofs.«415080_j88252987998455_3_alg».proof.Proof.Final
import proofs.«415080_j88252987998455_3_alg».proof.Proof.Pieces
import Idealize.ShloMosaic.Adequacy
import Idealize.ShloMosaic.Init

noncomputable section

namespace Cert.Proof

open Idealize.ShloMosaic Idealize.SL.Sem Idealize.ShloMosaic.ValueIdx

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.RefRun.run (F := Ideal) m ρ)

/-- The ideal pass's nine rewrites: five roundings to the short format and back removed (the identity on extended
    reals), and the finite stand-in for −∞ named four times, each by its rule's statement. -/
theorem preserves : Cert.preserves_Kernel_KernelIdeal :=
  ⟨IdealRules.truncf_extf.statement _ .f32 .bf16,
   IdealRules.truncf_extf.statement _ .f32 .bf16,
   IdealRules.named_const.statement Cert.KernelIdeal.κ "neg_big" .f32 0xF149F2CA#32 ⊥ rfl,
   IdealRules.truncf_extf.statement _ .f32 .bf16,
   IdealRules.named_const.statement Cert.KernelIdeal.κ "neg_big" .f32 0xF149F2CA#32 ⊥ rfl,
   IdealRules.truncf_extf.statement _ .f32 .bf16,
   IdealRules.named_const.statement Cert.KernelIdeal.κ "neg_big" .f32 0xF149F2CA#32 ⊥ rfl,
   IdealRules.truncf_extf.statement _ .f32 .bf16,
   IdealRules.named_const.statement Cert.KernelIdeal.κ "neg_big" .f32 0xF149F2CA#32 ⊥ rfl⟩

/-- Over finite inputs the idealized kernel's result array and the reference's result are one function of the
    arguments: entry (z, h, i, d) of each is the head formula `OUT` of head (z, h) of the six arguments. -/
theorem algebraic : Cert.algebraic_KernelIdeal_ReferenceIdeal := by
  intro m ρ m' ρ' hpre hagree
  refine ⟨fun c => (Cert.KernelIdeal.Gen.dats m 0 c).arrAt 6 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.RefRun.run (F := Ideal) m' ρ')
  obtain ⟨h0, h1, h2, h3, h4, h5⟩ := Cert.Finite.real_of_pre _ _ _ _ _ _ (hpre c)
  rw [(hagree c).1, (hagree c).2.1, (hagree c).2.2.1, (hagree c).2.2.2.1, (hagree c).2.2.2.2.1, (hagree c).2.2.2.2.2]
  funext idx
  obtain ⟨z, h, i, d, rfl⟩ : ∃ (z : Fin 2) (h : Fin 8) (i : Fin 1024) (d : Fin 64), idx = ix4 z h i d :=
    ⟨idx 0, idx 1, idx 2, idx 3, eq_ix4 idx⟩
  rw [Cert.RefSpec.ref_eq_OUT]
  exact (Cert.KernelIdeal.Final.final_apply Cert.KernelIdeal.Pieces.out_spec m c h0 h1 h2 h3 h4 h5 z h i d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
